-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![512, 1024]⟩ ⟨2, ![1024, 1024]⟩ (Layout.meshBlock [2, 2, 4] ![[1], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_arg0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨2, ![1024, 512]⟩ ⟨2, ![1024, 1024]⟩ (Layout.meshBlock [2, 2, 4] ![[], [1]] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_arg0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S512x1024 : Shape := ⟨2, ![512, 1024]⟩
abbrev S_ : Shape := ⟨0, ![]⟩

class Facts : Prop where
  bcast_S_S512x1024 : S_.BroadcastsInDim S512x1024 (![] : Fin 0 → Fin S512x1024.rank)
  reducesTo_S512x1024_S_d0_1 : S512x1024.ReducesTo [0, 1] S_
  h_S_ : 0 < S_.numel

variable [Facts]

def fn {F : FTy → Type} [FloatOps F] (main_arg0 : FVec F S512x1024 .f32) : IVec S_ 1 :=
  let main_v0 : FVec F S512x1024 .f32 := Host.absf main_arg0
  let main_cst : FVec F S_ .f32 := constant S_ .f32 0x7F800000#32
  let main_v1 : FVec F S512x1024 .f32 := broadcastInDim S512x1024 ![] bcast_S_S512x1024 main_cst
  let main_v2 : IVec S512x1024 1 := cmpf .olt main_v0 main_v1
  let main_c : IVec S_ 1 := constantI S_ 1 1#1
  let main_v3 : IVec S_ 1 := (fun x v => Host.reduce IntOp.andi x v reducesTo_S512x1024_S_d0_1 h_S_) main_v2 main_c
  main_v3
-- ==== Pre_finite_inputs_ReferenceIdeal.lean ====
abbrev S1024x1024 : Shape := ⟨2, ![1024, 1024]⟩
abbrev S_ : Shape := ⟨0, ![]⟩

class Facts : Prop where
  bcast_S_S1024x1024 : S_.BroadcastsInDim S1024x1024 (![] : Fin 0 → Fin S1024x1024.rank)
  reducesTo_S1024x1024_S_d0_1 : S1024x1024.ReducesTo [0, 1] S_
  h_S_ : 0 < S_.numel

variable [Facts]

def fn {F : FTy → Type} [FloatOps F] (main_arg0 : FVec F S1024x1024 .f32) : IVec S_ 1 :=
  let main_v0 : FVec F S1024x1024 .f32 := Host.absf main_arg0
  let main_cst : FVec F S_ .f32 := constant S_ .f32 0x7F800000#32
  let main_v1 : FVec F S1024x1024 .f32 := broadcastInDim S1024x1024 ![] bcast_S_S1024x1024 main_cst
  let main_v2 : IVec S1024x1024 1 := cmpf .olt main_v0 main_v1
  let main_c : IVec S_ 1 := constantI S_ 1 1#1
  let main_v3 : IVec S_ 1 := (fun x v => Host.reduce IntOp.andi x v reducesTo_S1024x1024_S_d0_1 h_S_) main_v2 main_c
  main_v3
-- ==== Kernel.lean ====
abbrev S512x1024 : Shape := ⟨2, ![512, 1024]⟩
abbrev S1024x512 : Shape := ⟨2, ![1024, 512]⟩
abbrev S_ : Shape := ⟨0, ![]⟩
abbrev S3 : Shape := ⟨1, ![3]⟩
abbrev S512x512 : Shape := ⟨2, ![512, 512]⟩
abbrev S1 : Shape := ⟨1, ![1]⟩
abbrev S64x512 : Shape := ⟨2, ![64, 512]⟩
abbrev S128x512 : Shape := ⟨2, ![128, 512]⟩

abbrev nBuf : Space → Nat
  | .hbm => 2
  | .vmem => 0
  | .smem => 0
  | _ => 0

abbrev bufTy : (tb : Table) → Fin (tcTables nBuf tb) → BufTy
  | .hbm, ⟨0, _⟩ => ⟨S512x1024, .f32⟩
  | .hbm, ⟨1, _⟩ => ⟨S1024x512, .f32⟩
  | _, _ => ⟨S512x1024, .f32⟩

abbrev bufScoped : (cs : CoreSpace) → Fin (nBuf (.core cs)) → Bool
  | _, _ => false

abbrev semScoped : Fin 1 → Bool
  | ⟨0, _⟩ => false
  | _ => false

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  (ofTc nBuf bufTy 1 15 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_5 : BitVec 32 := 8#32
  let v12 : BitVec 32 := Scalar.muli v2 c8_i32_5
  let v13 : BitVec 32 := Scalar.addi c0_i32 v12
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_6 : BitVec 32 := 4#32
  let v14 : BitVec 32 := Scalar.muli v9 c4_i32_6
  let v15 : BitVec 32 := Scalar.addi v13 v14
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_7 : BitVec 32 := 1#32
  let v16 : BitVec 32 := Scalar.muli v8 c1_i32_7
  let v17 : BitVec 32 := Scalar.addi v15 v16
  v17.toNat
def k0_dev2 (d0 : Dev nD) : Nat :=
  let c0_i32_10 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_9 : BitVec 32 := 8#32
  let v18 : BitVec 32 := Scalar.muli v10 c8_i32_9
  let v19 : BitVec 32 := Scalar.addi c0_i32_10 v18
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_11 : BitVec 32 := 4#32
  let v20 : BitVec 32 := Scalar.muli v5 c4_i32_11
  let v21 : BitVec 32 := Scalar.addi v19 v20
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_12 : BitVec 32 := 1#32
  let v22 : BitVec 32 := Scalar.muli v8 c1_i32_12
  let v23 : BitVec 32 := Scalar.addi v21 v22
  v23.toNat
def k0_off1 (d0 : Dev nD) : Fin 2 → Nat :=
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c512_i32_14 : BitVec 32 := 512#32
  let v25 : BitVec 32 := Scalar.muli v5 c512_i32_14
  let c0_i32_15 : BitVec 32 := 0#32
  ![v25.toNat, 0]
def k0_off2 (d0 : Dev nD) : Fin 2 → Nat :=
  let c0_i32_16 : BitVec 32 := 0#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c512_i32 : BitVec 32 := 512#32
  let v24 : BitVec 32 := Scalar.muli v5 c512_i32
  ![0, v24.toNat]
def k0_off3 (d0 : Dev nD) (c0_i32_18 : BitVec 32) : Fin 2 → Nat :=
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c512_i32_19 : BitVec 32 := 512#32
  let v31 : BitVec 32 := Scalar.muli v5 c512_i32_19
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c320_i32 : BitVec 32 := 320#32
  let v28 : BitVec 32 := Scalar.muli v2 c320_i32
  let v30 : BitVec 32 := Scalar.addi v28 c0_i32_18
  let v32 : BitVec 32 := Scalar.addi v31 v30
  let c0_i32_26 : BitVec 32 := 0#32
  ![v32.toNat, 0]
def k0_off4 (d0 : Dev nD) (c0_i32_18 : BitVec 32) : Fin 2 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c320_i32 : BitVec 32 := 320#32
  let v28 : BitVec 32 := Scalar.muli v2 c320_i32
  let v30 : BitVec 32 := Scalar.addi v28 c0_i32_18
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c512_i32_17 : BitVec 32 := 512#32
  let v29 : BitVec 32 := Scalar.muli v9 c512_i32_17
  ![v30.toNat, v29.toNat]
def k0_dev3 (d0 : Dev nD) : Nat :=
  let c0_i32_23 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_22 : BitVec 32 := 8#32
  let v33 : BitVec 32 := Scalar.muli v2 c8_i32_22
  let v34 : BitVec 32 := Scalar.addi c0_i32_23 v33
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_24 : BitVec 32 := 4#32
  let v35 : BitVec 32 := Scalar.muli v9 c4_i32_24
  let v36 : BitVec 32 := Scalar.addi v34 v35
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_25 : BitVec 32 := 1#32
  let v37 : BitVec 32 := Scalar.muli v8 c1_i32_25
  let v38 : BitVec 32 := Scalar.addi v36 v37
  v38.toNat
def k0_dev4 (d0 : Dev nD) : Nat :=
  let c0_i32_31 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_30 : BitVec 32 := 8#32
  let v48 : BitVec 32 := Scalar.muli v2 c8_i32_30
  let v49 : BitVec 32 := Scalar.addi c0_i32_31 v48
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_32 : BitVec 32 := 4#32
  let v50 : BitVec 32 := Scalar.muli v9 c4_i32_32
  let v51 : BitVec 32 := Scalar.addi v49 v50
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_33 : BitVec 32 := 1#32
  let v52 : BitVec 32 := Scalar.muli v8 c1_i32_33
  let v53 : BitVec 32 := Scalar.addi v51 v52
  v53.toNat
def k0_dev5 (d0 : Dev nD) : Nat :=
  let c0_i32_39 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_38 : BitVec 32 := 8#32
  let v63 : BitVec 32 := Scalar.muli v2 c8_i32_38
  let v64 : BitVec 32 := Scalar.addi c0_i32_39 v63
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_40 : BitVec 32 := 4#32
  let v65 : BitVec 32 := Scalar.muli v9 c4_i32_40
  let v66 : BitVec 32 := Scalar.addi v64 v65
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_41 : BitVec 32 := 1#32
  let v67 : BitVec 32 := Scalar.muli v8 c1_i32_41
  let v68 : BitVec 32 := Scalar.addi v66 v67
  v68.toNat
def k0_off5 (d0 : Dev nD) : Fin 2 → Nat :=
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c512_i32_43 : BitVec 32 := 512#32
  let v75 : BitVec 32 := Scalar.muli v5 c512_i32_43
  let c192_i32 : BitVec 32 := 192#32
  let v76 : BitVec 32 := Scalar.addi v75 c192_i32
  let c0_i32_48 : BitVec 32 := 0#32
  ![v76.toNat, 0]
def k0_off6 (d0 : Dev nD) : Fin 2 → Nat :=
  let c192_i32_49 : BitVec 32 := 192#32
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c512_i32_17 : BitVec 32 := 512#32
  let v29 : BitVec 32 := Scalar.muli v9 c512_i32_17
  ![192, v29.toNat]
def k0_dev6 (d0 : Dev nD) : Nat :=
  let c0_i32_45 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_44 : BitVec 32 := 8#32
  let v77 : BitVec 32 := Scalar.muli v2 c8_i32_44
  let v78 : BitVec 32 := Scalar.addi c0_i32_45 v77
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_46 : BitVec 32 := 4#32
  let v79 : BitVec 32 := Scalar.muli v9 c4_i32_46
  let v80 : BitVec 32 := Scalar.addi v78 v79
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_47 : BitVec 32 := 1#32
  let v81 : BitVec 32 := Scalar.muli v8 c1_i32_47
  let v82 : BitVec 32 := Scalar.addi v80 v81
  v82.toNat
def k0_off7 (d0 : Dev nD) (c0_i32_58 : BitVec 32) : Fin 2 → Nat :=
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c512_i32_57 : BitVec 32 := 512#32
  let v95 : BitVec 32 := Scalar.muli v9 c512_i32_57
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c320_i32 : BitVec 32 := 320#32
  let v28 : BitVec 32 := Scalar.muli v2 c320_i32
  let v96 : BitVec 32 := Scalar.addi v95 v28
  let v97 : BitVec 32 := Scalar.addi v96 c0_i32_58
  let c0_i32_65 : BitVec 32 := 0#32
  ![v97.toNat, 0]
def k0_dev7 (d0 : Dev nD) : Nat :=
  let c0_i32_62 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_61 : BitVec 32 := 8#32
  let v98 : BitVec 32 := Scalar.muli v10 c8_i32_61
  let v99 : BitVec 32 := Scalar.addi c0_i32_62 v98
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_63 : BitVec 32 := 4#32
  let v100 : BitVec 32 := Scalar.muli v5 c4_i32_63
  let v101 : BitVec 32 := Scalar.addi v99 v100
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_64 : BitVec 32 := 1#32
  let v102 : BitVec 32 := Scalar.muli v8 c1_i32_64
  let v103 : BitVec 32 := Scalar.addi v101 v102
  v103.toNat
def k0_dev8 (d0 : Dev nD) : Nat :=
  let c0_i32_79 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_78 : BitVec 32 := 8#32
  let v123 : BitVec 32 := Scalar.muli v10 c8_i32_78
  let v124 : BitVec 32 := Scalar.addi c0_i32_79 v123
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_80 : BitVec 32 := 4#32
  let v125 : BitVec 32 := Scalar.muli v5 c4_i32_80
  let v126 : BitVec 32 := Scalar.addi v124 v125
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_81 : BitVec 32 := 1#32
  let v127 : BitVec 32 := Scalar.muli v8 c1_i32_81
  let v128 : BitVec 32 := Scalar.addi v126 v127
  v128.toNat
def k0_dev9 (d0 : Dev nD) : Nat :=
  let c0_i32_96 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_95 : BitVec 32 := 8#32
  let v148 : BitVec 32 := Scalar.muli v10 c8_i32_95
  let v149 : BitVec 32 := Scalar.addi c0_i32_96 v148
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_97 : BitVec 32 := 4#32
  let v150 : BitVec 32 := Scalar.muli v5 c4_i32_97
  let v151 : BitVec 32 := Scalar.addi v149 v150
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_98 : BitVec 32 := 1#32
  let v152 : BitVec 32 := Scalar.muli v8 c1_i32_98
  let v153 : BitVec 32 := Scalar.addi v151 v152
  v153.toNat
def k0_off8 (d0 : Dev nD) (c0_i32_103 : BitVec 32) : Fin 2 → Nat :=
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c512_i32_102 : BitVec 32 := 512#32
  let v161 : BitVec 32 := Scalar.muli v9 c512_i32_102
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c320_i32_101 : BitVec 32 := 320#32
  let v160 : BitVec 32 := Scalar.muli v10 c320_i32_101
  let v162 : BitVec 32 := Scalar.addi v161 v160
  let v163 : BitVec 32 := Scalar.addi v162 c0_i32_103
  let c0_i32_110 : BitVec 32 := 0#32
  ![v163.toNat, 0]

class Facts₀ : Prop where
  hamt_1 : (1#32 : BitVec 32).msb = false
  hamt_2 : (2#32 : BitVec 32).msb = false
  inb_S3_S1_0 : ∀ a, (![0] : Fin 1 → Nat) a + S1.size a ≤ S3.size a
  squeezes_S1_S_ : S1.Squeezes S_
  inb_S3_S1_1 : ∀ a, (![1] : Fin 1 → Nat) a + S1.size a ≤ S3.size a
  inb_S3_S1_2 : ∀ a, (![2] : Fin 1 → Nat) a + S1.size a ≤ S3.size a
  inb_S512x1024_S64x512_0_0 : ∀ a, (![0, 0] : Fin 2 → Nat) a + S64x512.size a ≤ S512x1024.size a
  hcc0_scratch0 : 0 + S_.numel ≤ 15
  hcc0_scratch1 : 1 + S3.numel ≤ 15
  hcc0_scratch2 : 4 + S3.numel ≤ 15
  hcc0_scratch3 : 7 + S_.numel ≤ 15
  hcc0_scratch4 : 8 + S_.numel ≤ 15
  hcc0_scratch5 : 9 + S3.numel ≤ 15
  hcc0_scratch6 : 12 + S3.numel ≤ 15
  k0_dev1_lt : ∀ d0 : Dev nD, (k0_dev1 d0) < nD
  k0_dev2_lt : ∀ d0 : Dev nD, (k0_dev2 d0) < nD
  k0_off1_inb : ∀ d0 : Dev nD, ∀ a, (k0_off1 d0) a + S512x512.size a ≤ S1024x512.size a
  k0_off2_inb : ∀ d0 : Dev nD, ∀ a, (k0_off2 d0) a + S512x512.size a ≤ S512x1024.size a
  k0_off3_inb : ∀ d0 : Dev nD, ∀ (r : Fin 3), ∀ a, (k0_off3 d0 (BitVec.ofNat 32 (64 * r.val))) a + S64x512.size a ≤ S1024x512.size a
  k0_off4_inb : ∀ d0 : Dev nD, ∀ (r : Fin 3), ∀ a, (k0_off4 d0 (BitVec.ofNat 32 (64 * r.val))) a + S64x512.size a ≤ S512x1024.size a
  k0_dev3_lt : ∀ d0 : Dev nD, (k0_dev3 d0) < nD
  k0_dev4_lt : ∀ d0 : Dev nD, (k0_dev4 d0) < nD
  k0_dev5_lt : ∀ d0 : Dev nD, (k0_dev5 d0) < nD
  k0_off5_inb : ∀ d0 : Dev nD, ∀ a, (k0_off5 d0) a + S128x512.size a ≤ S1024x512.size a
  k0_off6_inb : ∀ d0 : Dev nD, ∀ a, (k0_off6 d0) a + S128x512.size a ≤ S512x1024.size a
  k0_dev6_lt : ∀ d0 : Dev nD, (k0_dev6 d0) < nD
  k0_off7_inb : ∀ d0 : Dev nD, ∀ (r : Fin 3), ∀ a, (k0_off7 d0 (BitVec.ofNat 32 (64 * r.val))) a + S64x512.size a ≤ S1024x512.size a
  k0_dev7_lt : ∀ d0 : Dev nD, (k0_dev7 d0) < nD
  k0_dev8_lt : ∀ d0 : Dev nD, (k0_dev8 d0) < nD
  k0_dev9_lt : ∀ d0 : Dev nD, (k0_dev9 d0) < nD
  k0_off8_inb : ∀ d0 : Dev nD, ∀ (r : Fin 3), ∀ a, (k0_off8 d0 (BitVec.ofNat 32 (64 * r.val))) a + S64x512.size a ≤ S1024x512.size a

variable [Facts₀]

abbrev cc0_scratch0 : DmaSems sig S_ := SemArray.consecutive 0 S_ hcc0_scratch0
abbrev cc0_scratch1 : DmaSems sig S3 := SemArray.consecutive 1 S3 hcc0_scratch1
abbrev cc0_scratch2 : DmaSems sig S3 := SemArray.consecutive 4 S3 hcc0_scratch2
abbrev cc0_scratch3 : DmaSems sig S_ := SemArray.consecutive 7 S_ hcc0_scratch3
abbrev cc0_scratch4 : DmaSems sig S_ := SemArray.consecutive 8 S_ hcc0_scratch4
abbrev cc0_scratch5 : DmaSems sig S3 := SemArray.consecutive 9 S3 hcc0_scratch5
abbrev cc0_scratch6 : DmaSems sig S3 := SemArray.consecutive 12 S3 hcc0_scratch6

abbrev win0 : Fin 0 → Pipeline.Window sig grid0 := Fin.elim0
abbrev spec0 : Fin 0 → Pipeline.WinSpec sig grid0.rank := Fin.elim0

class Facts : Prop extends Facts₀ where

variable [Facts]
-- ==== ReferenceIdeal.lean ====
abbrev S1024x1024 : Shape := ⟨2, ![1024, 1024]⟩

abbrev nBuf : Space → Nat
  | .hbm => 1
  | .vmem => 0
  | .smem => 0
  | _ => 0

abbrev bufTy : (tb : Table) → Fin (tcTables nBuf tb) → BufTy
  | .hbm, ⟨0, _⟩ => ⟨S1024x1024, .f32⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩

abbrev nD : Nat := 1
abbrev τ : Topo := Topo.v7x

variable {F : FTy → Type} [FloatOps F]

class Facts₀ : Prop where

variable [Facts₀]

class Facts : Prop extends Facts₀ where

variable [Facts]
-- ==== Proof.KernelBase.lean ====
/-
  Shared vocabulary of the all-to-all kernel's proof on the 2×2×4 mesh.

  Device `c` sits at mesh coordinates (x, y, z) = (c / 8, c / 4 % 2, c % 4). Its argument buffer holds rows
  [512·y, 512·y + 512) of the whole 1024 × 1024 array, and its result buffer must end holding the whole array's
  columns [512·y, 512·y + 512). Two involutions of the mesh carry the whole protocol: `yp` flips the y-coordinate,
  `xp` the x-coordinate. A device copies its own half of the result locally, pushes rows [320·x, 320·x + 192) (three
  chunks of 64) and rows [192, 320) of its other column half to `yp c`, and forwards each chunk it receives from
  `yp c` on to `xp c`; so every device receives rows [0, 320) or [192, 512) of its missing half from `yp c` and the
  remaining 192 rows, relayed, from `xp c`.
-/
import proofs.«900641_g7700000000000642_dist_a2a_v7x_xyz2x2x4_y_m512_n512_f32_1_alg».proof.Proof.Gen.Kernel
import proofs.«900641_g7700000000000642_dist_a2a_v7x_xyz2x2x4_y_m512_n512_f32_1_alg».proof.Proof.Gen.Kernel.Skeleton
import proofs.«900641_g7700000000000642_dist_a2a_v7x_xyz2x2x4_y_m512_n512_f32_1_alg».proof.Proof.Gen.Kernel.Launch
import Idealize.ShloMosaic.Lib.Pipeline.Launch
import Idealize.ShloMosaic.Lib.Pipeline.Kit
import Idealize.ShloMosaic.Lib.ValueIdx
import Idealize.ShloMosaic.Lib.Tactic

noncomputable section

namespace Cert.KernelProof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix2)

variable {F : FTy → Type} [FloatOps F]

/-! ## The resource algebra: the pipeline library's copy and the protocol's (duties `Bool`) -/

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## The two peers -/

/-- The device with the other y-coordinate. -/
def yp (c : Dev nD) : Dev nD := ⟨(8 * (c.val / 8) + (c.val % 4) + 4) - 4 * ((c.val / 4) % 2), by have h : c.val < 16 := c.isLt; show _ < 16; omega⟩
/-- The device with the other x-coordinate. -/
def xp (c : Dev nD) : Dev nD := ⟨(4 * ((c.val / 4) % 2) + (c.val % 4) + 8) - 8 * (c.val / 8), by have h : c.val < 16 := c.isLt; show _ < 16; omega⟩

theorem yp_yp (c : Dev nD) : yp (yp c) = c := by revert c; decide
theorem xp_xp (c : Dev nD) : xp (xp c) = c := by revert c; decide
theorem yp_xp (c : Dev nD) : yp (xp c) = xp (yp c) := by revert c; decide
theorem yp_ne (c : Dev nD) : yp c ≠ c := by revert c; decide
theorem xp_ne (c : Dev nD) : xp c ≠ c := by revert c; decide
theorem yp_ne_xp (c : Dev nD) : yp c ≠ xp c := by revert c; decide

def ypEquiv : Dev nD ≃ Dev nD := ⟨yp, yp, yp_yp, yp_yp⟩
def xpEquiv : Dev nD ≃ Dev nD := ⟨xp, xp, xp_xp, xp_xp⟩

/-- The kernel's `device_id` chains: both signals' and every transfer's target. -/
theorem dev1_eq (c : Dev nD) : (⟨k0_dev1 c, k0_dev1_lt c⟩ : Dev nD) = yp c := Fin.ext (k0_dev1_eq c)
theorem dev2_eq (c : Dev nD) : (⟨k0_dev2 c, k0_dev2_lt c⟩ : Dev nD) = xp c := Fin.ext (k0_dev2_eq c)
theorem dev3_eq (c : Dev nD) : (⟨k0_dev3 c, k0_dev3_lt c⟩ : Dev nD) = yp c := Fin.ext (k0_dev3_eq c)
theorem dev4_eq (c : Dev nD) : (⟨k0_dev4 c, k0_dev4_lt c⟩ : Dev nD) = yp c := Fin.ext (k0_dev4_eq c)
theorem dev5_eq (c : Dev nD) : (⟨k0_dev5 c, k0_dev5_lt c⟩ : Dev nD) = yp c := Fin.ext (k0_dev5_eq c)
theorem dev6_eq (c : Dev nD) : (⟨k0_dev6 c, k0_dev6_lt c⟩ : Dev nD) = yp c := Fin.ext (k0_dev6_eq c)
theorem dev7_eq (c : Dev nD) : (⟨k0_dev7 c, k0_dev7_lt c⟩ : Dev nD) = xp c := Fin.ext (k0_dev7_eq c)
theorem dev8_eq (c : Dev nD) : (⟨k0_dev8 c, k0_dev8_lt c⟩ : Dev nD) = xp c := Fin.ext (k0_dev8_eq c)
theorem dev9_eq (c : Dev nD) : (⟨k0_dev9 c, k0_dev9_lt c⟩ : Dev nD) = xp c := Fin.ext (k0_dev9_eq c)

/-! ## The memrefs: the two whole buffers and the protocol's slices of them -/

abbrev A0 : Memref sig .tc .hbm S512x1024 .f32 := Memref.whole main_arg0
abbrev A1 : Memref sig .tc .hbm S1024x512 .f32 := Memref.whole main_v1

/-- Chunk `k`'s row offset inside a 192-row stretch, as the word the kernel adds. -/
abbrev K (k : Fin 3) : BitVec 32 := BitVec.ofNat 32 (64 * k.val)

/-- The local copy: the device's own column half of its argument, into its own row half of the result. -/
abbrev ownSrc (c : Dev nD) : Memref sig .tc .hbm S512x512 .f32 :=
  A0.slice (Rect.unit (s := S512x1024) (k0_off2 c) S512x512.size (k0_off2_inb c)) (fun _ => rfl)
abbrev ownDst (c : Dev nD) : Memref sig .tc .hbm S512x512 .f32 :=
  A1.slice (Rect.unit (s := S1024x512) (k0_off1 c) S512x512.size (k0_off1_inb c)) (fun _ => rfl)
/-- Chunk `k` sent to `yp c`: 64 rows of the other column half, into the sender's row half of the receiver's result. -/
abbrev yfSrc (c : Dev nD) (k : Fin 3) : Memref sig .tc .hbm S64x512 .f32 :=
  A0.slice (Rect.unit (s := S512x1024) (k0_off4 c (K k)) S64x512.size (k0_off4_inb c k)) (fun _ => rfl)
abbrev yfDst (c : Dev nD) (k : Fin 3) : Memref sig .tc .hbm S64x512 .f32 :=
  A1.slice (Rect.unit (s := S1024x512) (k0_off3 c (K k)) S64x512.size (k0_off3_inb c k)) (fun _ => rfl)
/-- The direct stretch sent to `yp c`: rows [192, 320) of the other column half. -/
abbrev ydSrc (c : Dev nD) : Memref sig .tc .hbm S128x512 .f32 :=
  A0.slice (Rect.unit (s := S512x1024) (k0_off6 c) S128x512.size (k0_off6_inb c)) (fun _ => rfl)
abbrev ydDst (c : Dev nD) : Memref sig .tc .hbm S128x512 .f32 :=
  A1.slice (Rect.unit (s := S1024x512) (k0_off5 c) S128x512.size (k0_off5_inb c)) (fun _ => rfl)
/-- Chunk `k` forwarded to `xp c`: the same 64 rows of the result on both devices. -/
abbrev fwV (c : Dev nD) (k : Fin 3) : Memref sig .tc .hbm S64x512 .f32 :=
  A1.slice (Rect.unit (s := S1024x512) (k0_off7 c (K k)) S64x512.size (k0_off7_inb c k)) (fun _ => rfl)
/-- Where the chunk forwarded BY `xp c` lands on `c`, as `c`'s own wait names it. -/
abbrev fwLand (c : Dev nD) (k : Fin 3) : Memref sig .tc .hbm S64x512 .f32 :=
  A1.slice (Rect.unit (s := S1024x512) (k0_off8 c (K k)) S64x512.size (k0_off8_inb c k)) (fun _ => rfl)

/-! ## The cells -/

/-- The runtime's barrier semaphore of collective id 0 (unscoped). -/
abbrev barS : Sem sig := (SemArray.scalar (sig.barrier 0 rfl) : Sems sig S_).sem
abbrev barCell (c : Dev nD) : GSem nD τ sig := ((c : Thread nD τ), .reg barS)
/-- The fifteen DMA semaphores (scoped scratch), by their number in the core's pool. -/
abbrev dcell (c : Dev nD) (j : Fin 15) : GSem nD τ sig := ((c : Thread nD τ), .dma (j : DmaSem sig))

abbrev jLoc : Fin 15 := 0
abbrev jYfS (k : Fin 3) : Fin 15 := ⟨1 + k.val, by omega⟩
abbrev jYfR (k : Fin 3) : Fin 15 := ⟨4 + k.val, by omega⟩
abbrev jYdS : Fin 15 := 7
abbrev jYdR : Fin 15 := 8
abbrev jFS (k : Fin 3) : Fin 15 := ⟨9 + k.val, by omega⟩
abbrev jFR (k : Fin 3) : Fin 15 := ⟨12 + k.val, by omega⟩

/-- The printed semaphore views name these numbers. -/
theorem sem_loc : (cc0_scratch0 : DmaSems sig S_).sem = (jLoc : DmaSem sig) := rfl
theorem sem_ydS : (cc0_scratch3 : DmaSems sig S_).sem = (jYdS : DmaSem sig) := rfl
theorem sem_ydR : (cc0_scratch4 : DmaSems sig S_).sem = (jYdR : DmaSem sig) := rfl

/-! ## Contents -/

/-- Device `d`'s argument block as launched, and its result buffer as launched. -/
abbrev xin (d : Dev nD) : Buf (Elt F) ((d : Thread nD τ).loc main_arg0) := m ((d : Thread nD τ).loc main_arg0)
abbrev vin (d : Dev nD) : Buf (Elt F) ((d : Thread nD τ).loc main_v1) := m ((d : Thread nD τ).loc main_v1)

/-- Which device's argument block row `r` of `c`'s result comes from: its own for its own row half; for the other half
    `yp c`'s, except the 192 rows `yp c` does not send — rows [320, 512) of that half when x = 0, rows [0, 192) when
    x = 1 —, which come from `yp (xp c)` by way of `xp c`. -/
def srcDev (c : Dev nD) (r : ℕ) : Dev nD :=
  if r / 512 = c.val / 4 % 2 then c
  else if (c.val / 8 = 0 ∧ 320 ≤ r % 512) ∨ (c.val / 8 = 1 ∧ r % 512 < 192) then yp (xp c) else yp c

/-- What device `c`'s result buffer ends holding: entry (r, q) is entry (r mod 512, 512·y + q) of the argument block of
    `srcDev c r`. -/
def Fout (c : Dev nD) : Buf (Elt F) ((c : Thread nD τ).loc main_v1) := fun (i : S1024x512.Idx) =>
  xin m (srcDev c (i 0).val) (ix2 (⟨(i 0).val % 512, Nat.mod_lt _ (by decide)⟩ : Fin 512)
    (⟨512 * (c.val / 4 % 2) + (i 1).val, by have h : (i 1).val < 512 := (i 1).isLt; omega⟩ : Fin 1024))

/-! ## The regions of a device's two buffers, as assertions -/

def argW (c : Dev nD) (f : Buf (Elt F) ((c : Thread nD τ).loc main_arg0)) : sProp 𝕄 := ((c : Thread nD τ).loc main_arg0) ↦{fullShare} f
def outW (c : Dev nD) (f : Buf (Elt F) ((c : Thread nD τ).loc main_v1)) : sProp 𝕄 := ((c : Thread nD τ).loc main_v1) ↦{fullShare} f

/-- The device's own row half of its result (the local copy's destination). -/
def ownR (c : Dev nD) (f : Buf (Elt F) ((c : Thread nD τ).loc main_v1)) : sProp 𝕄 :=
  (ownDst c).view.loc (c : Thread nD τ) ↦[(ownDst c).view.set]{fullShare} f
/-- Where chunk `k` from `yp c` lands on `c` (named through the sender's slice). -/
def landYF (c : Dev nD) (k : Fin 3) (f : Buf (Elt F) ((c : Thread nD τ).loc main_v1)) : sProp 𝕄 :=
  (yfDst (yp c) k).view.loc (c : Thread nD τ) ↦[(yfDst (yp c) k).view.set]{fullShare} f
/-- Where the direct stretch from `yp c` lands on `c`. -/
def landYD (c : Dev nD) (f : Buf (Elt F) ((c : Thread nD τ).loc main_v1)) : sProp 𝕄 :=
  (ydDst (yp c)).view.loc (c : Thread nD τ) ↦[(ydDst (yp c)).view.set]{fullShare} f
/-- Where chunk `k` forwarded by `xp c` lands on `c`. -/
def landFW (c : Dev nD) (k : Fin 3) (f : Buf (Elt F) ((c : Thread nD τ).loc main_v1)) : sProp 𝕄 :=
  (fwV (xp c) k).view.loc (c : Thread nD τ) ↦[(fwV (xp c) k).view.set]{fullShare} f
/-- Chunk `k` on `c` as the source of `c`'s own forward (the same rows as `landYF c k`). -/
def fwSrcR (c : Dev nD) (k : Fin 3) (f : Buf (Elt F) ((c : Thread nD τ).loc main_v1)) : sProp 𝕄 :=
  (fwV c k).view.loc (c : Thread nD τ) ↦[(fwV c k).view.set]{fullShare} f
/-- The source regions of the argument buffer. -/
def srcOwn (c : Dev nD) (f : Buf (Elt F) ((c : Thread nD τ).loc main_arg0)) : sProp 𝕄 :=
  (ownSrc c).view.loc (c : Thread nD τ) ↦[(ownSrc c).view.set]{fullShare} f
def srcYF (c : Dev nD) (k : Fin 3) (f : Buf (Elt F) ((c : Thread nD τ).loc main_arg0)) : sProp 𝕄 :=
  (yfSrc c k).view.loc (c : Thread nD τ) ↦[(yfSrc c k).view.set]{fullShare} f
def srcYD (c : Dev nD) (f : Buf (Elt F) ((c : Thread nD τ).loc main_arg0)) : sProp 𝕄 :=
  (ydSrc c).view.loc (c : Thread nD τ) ↦[(ydSrc c).view.set]{fullShare} f

/-! ## The schedule: one round -/

/-- The DMA credit of a 64 × 512, a 128 × 512 and a 512 × 512 slice. -/
abbrev N64 : ℕ := (fwV (0 : Dev nD) (0 : Fin 3)).view.dmaCredit
abbrev N128 : ℕ := (ydDst (0 : Dev nD)).view.dmaCredit
abbrev N512 : ℕ := (ownDst (0 : Dev nD)).view.dmaCredit

/-- The units of the one duty of DMA cell `j`. -/
def dmaAmt (j : Fin 15) : ℕ := if j = 0 then N512 else if j = 7 ∨ j = 8 then N128 else N64

theorem dmaAmt_pos (j : Fin 15) : 0 < dmaAmt j := by
  unfold dmaAmt
  split
  · exact View.dmaCredit_pos _ (by decide)
  · split <;> exact View.dmaCredit_pos _ (by decide)

/-- What the one duty of `c`'s DMA cell `j` hands `c`: a send cell the source region back, a receive cell the landing
    region at its final contents, the local copy's cell both. -/
def dmaPay (c : Dev nD) (j : Fin 15) : sProp 𝕄 :=
  match j with
  | 0 => iprop(ownR c (Fout m c) ∗ srcOwn c (xin m c))
  | 1 => srcYF c 0 (xin m c) | 2 => srcYF c 1 (xin m c) | 3 => srcYF c 2 (xin m c)
  | 4 => landYF c 0 (Fout m c) | 5 => landYF c 1 (Fout m c) | 6 => landYF c 2 (Fout m c)
  | 7 => srcYD c (xin m c)
  | 8 => landYD c (Fout m c)
  | 9 => fwSrcR c 0 (Fout m c) | 10 => fwSrcR c 1 (Fout m c) | 11 => fwSrcR c 2 (Fout m c)
  | 12 => landFW c 0 (Fout m c) | 13 => landFW c 1 (Fout m c) | 14 => landFW c 2 (Fout m c)

/-- What `yp c`'s barrier signal hands `c`: the four regions of `yp c`'s result that `c` writes. -/
def barPayY (c : Dev nD) : sProp 𝕄 := iprop(∃ f, landYF (yp c) 0 f ∗ landYF (yp c) 1 f ∗ landYF (yp c) 2 f ∗ landYD (yp c) f)
/-- What `xp c`'s barrier signal hands `c`: the three regions of `xp c`'s result that `c` writes. -/
def barPayX (c : Dev nD) : sProp 𝕄 := iprop(∃ f, landFW (xp c) 0 f ∗ landFW (xp c) 1 f ∗ landFW (xp c) 2 f)

abbrev IsBar (g : GSem nD τ sig) : Prop := g.1.2 = .tc ∧ g.2 = .reg barS
abbrev IsDma (g : GSem nD τ sig) : Prop := g.1.2 = .tc ∧ g.2.isDma = true

/-- One round, round 0: a barrier cell has the duties `false` (from `yp`) and `true` (from `xp`) of one unit each; a DMA
    cell the one duty `false` of its slice's credit. -/
def sched : Rounds.Schedule (GSem nD τ sig) Bool 𝕄 where
  duties g r := if r = 0 ∧ IsBar g then Finset.univ else if r = 0 ∧ IsDma g then {false} else ∅
  unitless _ := False
  amount g _ _ := match g.2 with | .reg _ => 1 | .dma j => dmaAmt j
  payload g _ d := match g.2 with
    | .reg _ => if d then barPayX g.1.1 else barPayY g.1.1
    | .dma j => dmaPay m g.1.1 j
  amount_pos g _ _ _ := by
    rcases g with ⟨t, s⟩
    cases s with
    | reg _ => exact Nat.one_pos
    | dma j => exact dmaAmt_pos j

/-! ## What each device owes at launch, in the order it pays; the levels -/

/-- Summed so that each payment peels the last summand: the two barrier signals first (to `yp c`, then to `xp c`), then
    the three chunks and the direct stretch to `yp c`, then the three forwards to `xp c`. -/
def Oa (c : Dev nD) : CellTallies nD τ sig Unit := tallyAt (dcell (xp c) (jFR 2)) () N64
def Ob (c : Dev nD) : CellTallies nD τ sig Unit := Oa c + tallyAt (dcell (xp c) (jFR 1)) () N64
def Oc (c : Dev nD) : CellTallies nD τ sig Unit := Ob c + tallyAt (dcell (xp c) (jFR 0)) () N64
def Od (c : Dev nD) : CellTallies nD τ sig Unit := Oc c + tallyAt (dcell (yp c) jYdR) () N128
def Oe (c : Dev nD) : CellTallies nD τ sig Unit := Od c + tallyAt (dcell (yp c) (jYfR 2)) () N64
def Of (c : Dev nD) : CellTallies nD τ sig Unit := Oe c + tallyAt (dcell (yp c) (jYfR 1)) () N64
def Og (c : Dev nD) : CellTallies nD τ sig Unit := Of c + tallyAt (dcell (yp c) (jYfR 0)) () N64
def Oh (c : Dev nD) : CellTallies nD τ sig Unit := Og c + tallyAt (barCell (xp c)) () 1
def O₀ (c : Dev nD) : CellTallies nD τ sig Unit := Oh c + tallyAt (barCell (yp c)) () 1

def L (g : GSem nD τ sig) : Finset Unit := if g.1.2 = .tc then {()} else ∅
/-- Barrier cells at 1; the cells `yp` pays into (chunk and direct receive cells) at 2; the forward receive cells at 3;
    every send cell and the local copy's cell at 0. -/
def lv (g : GSem nD τ sig) (_ : Unit) : ℕ := match g.2 with
  | .reg _ => 1
  | .dma j => if (4 ≤ j.val ∧ j.val ≤ 6) ∨ j.val = 8 then 2 else if 12 ≤ j.val then 3 else 0

/-! ## Ghost state -/

/-- A device's sixteen cells as this proof indexes them: the fifteen DMA cells, then the barrier cell. -/
abbrev csem (i : Fin 16) : SemLoc sig := if h : i.val < 15 then .dma ((⟨i.val, h⟩ : Fin 15) : DmaSem sig) else .reg barS
abbrev kcell (ck : Dev nD × Fin 16) : GSem nD τ sig := ((ck.1 : Thread nD τ), csem ck.2)
/-- The kernel's own (scoped) semaphores, as the launch theorem indexes them. -/
abbrev osem : Fin 15 → SemLoc sig := fun j => .dma (j : DmaSem sig)

/-- Every cell's invariant, under the names `K` the launch allocated them at, and that every cell is at round 0 at least. -/
def records (K : Dev nD × Fin 16 → ℕ) : sProp 𝕄 :=
  iprop((bigSep Finset.univ fun ck : Dev nD × Fin 16 => cellInv ER (sched m) (K ck) (kcell ck))
    ∗ bigSep Finset.univ fun ck : Dev nD × Fin 16 => reached ER (kcell ck) 0)

/-- The device's positions on its own sixteen cells. -/
def positions (c : Dev nD) : sProp 𝕄 := bigSep Finset.univ fun i : Fin 16 => atPos ER (kcell (c, i)) 0 ∅ 0

/-- The tokens of the seventeen duties the device pays: a barrier duty of each peer, the seven receive duties its
    transfers land on, and the eight duties of its own send cells and local copy's cell. -/
def payToks (c : Dev nD) : sProp 𝕄 :=
  iprop(dutyTok ER (barCell (yp c)) 0 false ∗ dutyTok ER (barCell (xp c)) 0 true
    ∗ (bigSep Finset.univ fun k : Fin 3 => dutyTok ER (dcell (yp c) (jYfR k)) 0 false) ∗ dutyTok ER (dcell (yp c) jYdR) 0 false
    ∗ (bigSep Finset.univ fun k : Fin 3 => dutyTok ER (dcell (xp c) (jFR k)) 0 false)
    ∗ dutyTok ER (dcell c jLoc) 0 false ∗ (bigSep Finset.univ fun k : Fin 3 => dutyTok ER (dcell c (jYfS k)) 0 false)
    ∗ dutyTok ER (dcell c jYdS) 0 false ∗ (bigSep Finset.univ fun k : Fin 3 => dutyTok ER (dcell c (jFS k)) 0 false))

def ghost (K : Dev nD × Fin 16 → ℕ) (c : Dev nD) : sProp 𝕄 := iprop(records m K ∗ positions c ∗ payToks c)

/-- The credit the device holds at launch on the cells others pay into: two units on its barrier cell, the slices' credits
    on its seven receive cells. -/
def startCreds (c : Dev nD) : sProp 𝕄 :=
  iprop(cred (tallyAt (barCell c) () 2) ∗ (bigSep Finset.univ fun k : Fin 3 => cred (tallyAt (dcell c (jYfR k)) () N64))
    ∗ cred (tallyAt (dcell c jYdR) () N128) ∗ (bigSep Finset.univ fun k : Fin 3 => cred (tallyAt (dcell c (jFR k)) () N64)))

def start (c : Dev nD) : sProp 𝕄 := iprop((∃ K, ghost m K c) ∗ startCreds c ∗ levAts L lv)

/-- The device's fifteen own DMA counters at zero. -/
def ownZero (c : Dev nD) : sProp 𝕄 := bigSep Finset.univ fun j : Fin 15 => semVal (dcell c j) 0

def Φ₀ (c : Dev nD) : sProp 𝕄 := iprop(start m c ∗ argW c (xin m c) ∗ outW c (vin m c))
def Φ₁ (c : Dev nD) : sProp 𝕄 := iprop(argW c (xin m c) ∗ outW c (Fout m c) ∗ ownZero c)

abbrev 𝒱₀ : Variants := Variants.none

/-- What one device's body starts from, the names fixed, and what it ends with. -/
def bodyPre (K : Dev nD × Fin 16 → ℕ) (c : Dev nD) : sProp 𝕄 :=
  iprop(ghost m K c ∗ startCreds c ∗ levAts L lv ∗ argW c (xin m c) ∗ outW c (vin m c) ∗ ∃ W, owes (c : Thread nD τ) (O₀ c) W)
def bodyPost (c : Dev nD) : sProp 𝕄 := iprop(Φ₁ m c ∗ ∃ W, owes (c : Thread nD τ) 0 W)

end Cert.KernelProof

end
-- ==== Proof.KernelSched.lean ====
/-
  The schedule's tables for the all-to-all kernel: per cell of a device, the duties of its one round, their amounts and
  payloads and the units the round expects; the sixteen cells as the ghost state indexes them; the levels, the cells a
  device's debt sits on while it runs, and that each of its waits is on a cell below everything it owes then.
-/
import proofs.«900641_g7700000000000642_dist_a2a_v7x_xyz2x2x4_y_m512_n512_f32_1_alg».proof.Proof.KernelBase

noncomputable section

namespace Cert.KernelProof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix2)

variable {F : FTy → Type} [FloatOps F]

local notation "𝕄" => MT nD τ sig Unit (Elt F) ℕ UU ℕ

variable (m : (ℓ : Loc nD τ sig) → Buf (Elt F) ℓ) (ρ : Dev nD → PrngReg)

/-! ## The payloads can be stored in an invariant -/

instance ownR_storable (c : Dev nD) (f : Buf (Elt F) ((c : Thread nD τ).loc main_v1)) : BI.Storable (upEmb : UEmb _ 𝕄) (ownR c f) := by
  unfold ownR; infer_instance
instance landYF_storable (c : Dev nD) (k : Fin 3) (f : Buf (Elt F) ((c : Thread nD τ).loc main_v1)) : BI.Storable (upEmb : UEmb _ 𝕄) (landYF c k f) := by
  unfold landYF; infer_instance
instance landYD_storable (c : Dev nD) (f : Buf (Elt F) ((c : Thread nD τ).loc main_v1)) : BI.Storable (upEmb : UEmb _ 𝕄) (landYD c f) := by
  unfold landYD; infer_instance
instance landFW_storable (c : Dev nD) (k : Fin 3) (f : Buf (Elt F) ((c : Thread nD τ).loc main_v1)) : BI.Storable (upEmb : UEmb _ 𝕄) (landFW c k f) := by
  unfold landFW; infer_instance
instance fwSrcR_storable (c : Dev nD) (k : Fin 3) (f : Buf (Elt F) ((c : Thread nD τ).loc main_v1)) : BI.Storable (upEmb : UEmb _ 𝕄) (fwSrcR c k f) := by
  unfold fwSrcR; infer_instance
instance srcOwn_storable (c : Dev nD) (f : Buf (Elt F) ((c : Thread nD τ).loc main_arg0)) : BI.Storable (upEmb : UEmb _ 𝕄) (srcOwn c f) := by
  unfold srcOwn; infer_instance
instance srcYF_storable (c : Dev nD) (k : Fin 3) (f : Buf (Elt F) ((c : Thread nD τ).loc main_arg0)) : BI.Storable (upEmb : UEmb _ 𝕄) (srcYF c k f) := by
  unfold srcYF; infer_instance
instance srcYD_storable (c : Dev nD) (f : Buf (Elt F) ((c : Thread nD τ).loc main_arg0)) : BI.Storable (upEmb : UEmb _ 𝕄) (srcYD c f) := by
  unfold srcYD; infer_instance
instance barPayY_storable (c : Dev nD) : BI.Storable (upEmb : UEmb _ 𝕄) (barPayY (F := F) c) := by unfold barPayY; infer_instance
instance barPayX_storable (c : Dev nD) : BI.Storable (upEmb : UEmb _ 𝕄) (barPayX (F := F) c) := by unfold barPayX; infer_instance
instance dmaPay_storable (c : Dev nD) (j : Fin 15) : BI.Storable (upEmb : UEmb _ 𝕄) (dmaPay m c j) := by
  fin_cases j <;> (dsimp only [dmaPay]; infer_instance)

instance sched_payload_storable (g : GSem nD τ sig) (r : ℕ) (d : Bool) :
    BI.Storable (upEmb : UEmb _ 𝕄) ((sched (F := F) m).payload g r d) := by
  rcases g with ⟨t, s⟩
  cases s with
  | reg s =>
    show BI.Storable upEmb (if d then barPayX t.1 else barPayY t.1)
    split <;> infer_instance
  | dma j =>
    show BI.Storable upEmb (dmaPay m t.1 j)
    infer_instance

/-! ## The schedule's tables -/

section Sched
variable (c : Dev nD)

theorem not_bar_dma (j : Fin 15) : ¬ IsBar (dcell c j) := fun h => by cases h.2

theorem duties_bar : (sched (F := F) m).duties (barCell c) 0 = Finset.univ := by
  dsimp only [sched]; exact if_pos ⟨rfl, rfl, rfl⟩
theorem duties_dma (j : Fin 15) : (sched (F := F) m).duties (dcell c j) 0 = {false} := by
  dsimp only [sched]; rw [if_neg (fun h => not_bar_dma c j h.2)]; exact if_pos ⟨rfl, rfl, rfl⟩
theorem duties_later (g : GSem nD τ sig) : ∀ r, 1 ≤ r → (sched (F := F) m).duties g r = ∅ :=
  fun r hr => by dsimp only [sched]; rw [if_neg fun h => by omega, if_neg fun h => by omega]

theorem false_mem_duties_bar : false ∈ (sched (F := F) m).duties (barCell c) 0 := by rw [duties_bar]; exact Finset.mem_univ _
theorem true_mem_duties_bar : true ∈ (sched (F := F) m).duties (barCell c) 0 := by rw [duties_bar]; exact Finset.mem_univ _
theorem false_mem_duties_dma (j : Fin 15) : false ∈ (sched (F := F) m).duties (dcell c j) 0 := by
  rw [duties_dma]; exact Finset.mem_singleton_self _

theorem amount_bar (d : Bool) : (sched (F := F) m).amount (barCell c) 0 d = 1 := rfl
theorem amount_dma (j : Fin 15) (d : Bool) : (sched (F := F) m).amount (dcell c j) 0 d = dmaAmt j := rfl

/-- The units of each named cell's duty. -/
theorem dmaAmt_loc : dmaAmt jLoc = N512 := rfl
theorem dmaAmt_yfS (k : Fin 3) : dmaAmt (jYfS k) = N64 := by revert k; decide
theorem dmaAmt_yfR (k : Fin 3) : dmaAmt (jYfR k) = N64 := by revert k; decide
theorem dmaAmt_ydS : dmaAmt jYdS = N128 := by decide
theorem dmaAmt_ydR : dmaAmt jYdR = N128 := by decide
theorem dmaAmt_fS (k : Fin 3) : dmaAmt (jFS k) = N64 := by revert k; decide
theorem dmaAmt_fR (k : Fin 3) : dmaAmt (jFR k) = N64 := by revert k; decide

theorem amount_loc (d : Bool) : (sched (F := F) m).amount (dcell c jLoc) 0 d = N512 := rfl
theorem amount_yfS (k : Fin 3) (d : Bool) : (sched (F := F) m).amount (dcell c (jYfS k)) 0 d = N64 := dmaAmt_yfS k
theorem amount_yfR (k : Fin 3) (d : Bool) : (sched (F := F) m).amount (dcell c (jYfR k)) 0 d = N64 := dmaAmt_yfR k
theorem amount_ydS (d : Bool) : (sched (F := F) m).amount (dcell c jYdS) 0 d = N128 := dmaAmt_ydS
theorem amount_ydR (d : Bool) : (sched (F := F) m).amount (dcell c jYdR) 0 d = N128 := dmaAmt_ydR
theorem amount_fS (k : Fin 3) (d : Bool) : (sched (F := F) m).amount (dcell c (jFS k)) 0 d = N64 := dmaAmt_fS k
theorem amount_fR (k : Fin 3) (d : Bool) : (sched (F := F) m).amount (dcell c (jFR k)) 0 d = N64 := dmaAmt_fR k

/-- A slice's credit depends on its buffer and its shape only. -/
theorem credit_ownDst : (ownDst c).view.dmaCredit = N512 := rfl
theorem credit_ownSrc : (ownSrc c).view.dmaCredit = N512 := rfl
theorem credit_yfDst (k : Fin 3) : (yfDst c k).view.dmaCredit = N64 := rfl
theorem credit_yfSrc (k : Fin 3) : (yfSrc c k).view.dmaCredit = N64 := rfl
theorem credit_ydDst : (ydDst c).view.dmaCredit = N128 := rfl
theorem credit_ydSrc : (ydSrc c).view.dmaCredit = N128 := rfl
theorem credit_fwV (k : Fin 3) : (fwV c k).view.dmaCredit = N64 := rfl
theorem credit_fwLand (k : Fin 3) : (fwLand c k).view.dmaCredit = N64 := rfl

theorem expect_bar : (sched (F := F) m).expect (barCell c) 0 = 2 := by
  unfold Schedule.expect Schedule.amountOf
  rw [duties_bar, Finset.sum_congr rfl fun d _ => amount_bar m c d, Finset.sum_const, Finset.card_univ, Fintype.card_bool, smul_eq_mul]
theorem expect_dma (j : Fin 15) : (sched (F := F) m).expect (dcell c j) 0 = dmaAmt j := by
  unfold Schedule.expect Schedule.amountOf; rw [duties_dma, Finset.sum_singleton, amount_dma]
theorem expect_loc : (sched (F := F) m).expect (dcell c jLoc) 0 = N512 := by rw [expect_dma, dmaAmt_loc]
theorem expect_yfS (k : Fin 3) : (sched (F := F) m).expect (dcell c (jYfS k)) 0 = N64 := by rw [expect_dma, dmaAmt_yfS]
theorem expect_yfR (k : Fin 3) : (sched (F := F) m).expect (dcell c (jYfR k)) 0 = N64 := by rw [expect_dma, dmaAmt_yfR]
theorem expect_ydS : (sched (F := F) m).expect (dcell c jYdS) 0 = N128 := by rw [expect_dma, dmaAmt_ydS]
theorem expect_ydR : (sched (F := F) m).expect (dcell c jYdR) 0 = N128 := by rw [expect_dma, dmaAmt_ydR]
theorem expect_fS (k : Fin 3) : (sched (F := F) m).expect (dcell c (jFS k)) 0 = N64 := by rw [expect_dma, dmaAmt_fS]
theorem expect_fR (k : Fin 3) : (sched (F := F) m).expect (dcell c (jFR k)) 0 = N64 := by rw [expect_dma, dmaAmt_fR]

theorem payload_bar_false : (sched (F := F) m).payload (barCell c) 0 false = barPayY c := rfl
theorem payload_bar_true : (sched (F := F) m).payload (barCell c) 0 true = barPayX c := rfl
theorem payload_dma (j : Fin 15) (d : Bool) : (sched (F := F) m).payload (dcell c j) 0 d = dmaPay m c j := rfl

/-- Each named cell's payload, as the region assertion it is. -/
theorem payload_loc (d : Bool) : (sched (F := F) m).payload (dcell c jLoc) 0 d = iprop(ownR c (Fout m c) ∗ srcOwn c (xin m c)) := rfl
theorem payload_yfS (k : Fin 3) (d : Bool) : (sched (F := F) m).payload (dcell c (jYfS k)) 0 d = srcYF c k (xin m c) := by fin_cases k <;> rfl
theorem payload_yfR (k : Fin 3) (d : Bool) : (sched (F := F) m).payload (dcell c (jYfR k)) 0 d = landYF c k (Fout m c) := by fin_cases k <;> rfl
theorem payload_ydS (d : Bool) : (sched (F := F) m).payload (dcell c jYdS) 0 d = srcYD c (xin m c) := rfl
theorem payload_ydR (d : Bool) : (sched (F := F) m).payload (dcell c jYdR) 0 d = landYD c (Fout m c) := rfl
theorem payload_fS (k : Fin 3) (d : Bool) : (sched (F := F) m).payload (dcell c (jFS k)) 0 d = fwSrcR c k (Fout m c) := by fin_cases k <;> rfl
theorem payload_fR (k : Fin 3) (d : Bool) : (sched (F := F) m).payload (dcell c (jFR k)) 0 d = landFW c k (Fout m c) := by fin_cases k <;> rfl

/-- The rest of the barrier cell's round, no duty taken: what `yp c` hands over, then what `xp c` hands over. -/
theorem rest_bar : bigSep ((sched (F := F) m).duties (barCell c) 0 \ ∅) (fun d => (sched (F := F) m).payload (barCell c) 0 d) = iprop(barPayY c ∗ barPayX c) := by
  rw [Finset.sdiff_empty, duties_bar, bigSep_univ_eq_bigSepL [false, true] (by decide) (by decide), bigSepL_cons_cons, bigSepL_singleton,
    payload_bar_false, payload_bar_true]
  rfl
theorem rest_dma (j : Fin 15) : bigSep ((sched (F := F) m).duties (dcell c j) 0 \ ∅) (fun d => (sched (F := F) m).payload (dcell c j) 0 d) = dmaPay m c j := by
  rw [Finset.sdiff_empty, duties_dma, bigSep_singleton, payload_dma]
theorem rest_loc : bigSep ((sched (F := F) m).duties (dcell c jLoc) 0 \ ∅) (fun d => (sched (F := F) m).payload (dcell c jLoc) 0 d) = iprop(ownR c (Fout m c) ∗ srcOwn c (xin m c)) := by
  rw [rest_dma]; rfl
theorem rest_yfS (k : Fin 3) : bigSep ((sched (F := F) m).duties (dcell c (jYfS k)) 0 \ ∅) (fun d => (sched (F := F) m).payload (dcell c (jYfS k)) 0 d) = srcYF c k (xin m c) := by
  rw [Finset.sdiff_empty, duties_dma, bigSep_singleton, payload_yfS]
theorem rest_yfR (k : Fin 3) : bigSep ((sched (F := F) m).duties (dcell c (jYfR k)) 0 \ ∅) (fun d => (sched (F := F) m).payload (dcell c (jYfR k)) 0 d) = landYF c k (Fout m c) := by
  rw [Finset.sdiff_empty, duties_dma, bigSep_singleton, payload_yfR]
theorem rest_ydS : bigSep ((sched (F := F) m).duties (dcell c jYdS) 0 \ ∅) (fun d => (sched (F := F) m).payload (dcell c jYdS) 0 d) = srcYD c (xin m c) := by
  rw [Finset.sdiff_empty, duties_dma, bigSep_singleton, payload_ydS]
theorem rest_ydR : bigSep ((sched (F := F) m).duties (dcell c jYdR) 0 \ ∅) (fun d => (sched (F := F) m).payload (dcell c jYdR) 0 d) = landYD c (Fout m c) := by
  rw [Finset.sdiff_empty, duties_dma, bigSep_singleton, payload_ydR]
theorem rest_fS (k : Fin 3) : bigSep ((sched (F := F) m).duties (dcell c (jFS k)) 0 \ ∅) (fun d => (sched (F := F) m).payload (dcell c (jFS k)) 0 d) = fwSrcR c k (Fout m c) := by
  rw [Finset.sdiff_empty, duties_dma, bigSep_singleton, payload_fS]
theorem rest_fR (k : Fin 3) : bigSep ((sched (F := F) m).duties (dcell c (jFR k)) 0 \ ∅) (fun d => (sched (F := F) m).payload (dcell c (jFR k)) 0 d) = landFW c k (Fout m c) := by
  rw [Finset.sdiff_empty, duties_dma, bigSep_singleton, payload_fR]

end Sched

/-! ## The sixteen cells of a device, as the ghost state indexes them -/

theorem kcell_dma (c : Dev nD) (j : Fin 15) : kcell (c, (⟨j.val, Nat.lt_succ_of_lt j.isLt⟩ : Fin 16)) = dcell c j := by
  show ((c : Thread nD τ), csem ⟨j.val, _⟩) = dcell c j
  unfold csem; rw [dif_pos j.isLt]
theorem kcell_castSucc (c : Dev nD) (j : Fin 15) : kcell (c, Fin.castSucc j) = dcell c j := kcell_dma c j
theorem kcell_bar (c : Dev nD) : kcell (c, (15 : Fin 16)) = barCell c := by
  show ((c : Thread nD τ), csem 15) = barCell c
  unfold csem; rw [dif_neg (by decide)]
theorem kcell_last (c : Dev nD) : kcell (c, Fin.last 15) = barCell c := kcell_bar c

theorem csem_injective : Function.Injective csem := by
  intro i i' h
  unfold csem at h
  by_cases hi : i.val < 15 <;> by_cases hi' : i'.val < 15
  · rw [dif_pos hi, dif_pos hi'] at h
    have h3 := SemLoc.dma.inj h
    exact Fin.ext (Fin.mk.inj h3)
  · rw [dif_pos hi, dif_neg hi'] at h; cases h
  · rw [dif_neg hi, dif_pos hi'] at h; cases h
  · exact Fin.ext (by have := i.isLt; have := i'.isLt; omega)

theorem kcell_injective : Function.Injective kcell := by
  rintro ⟨c, i⟩ ⟨c', i'⟩ h
  have h1 : c = c' := congrArg (fun g : GSem nD τ sig => g.1.1) h
  have h2 : csem i = csem i' := congrArg Prod.snd h
  rw [h1, csem_injective h2]

/-- Every cell of a TensorCore is one of the sixteen. -/
theorem kcell_surj (c : Dev nD) (sm : SemLoc sig) : ∃ i : Fin 16, kcell (c, i) = ((c : Thread nD τ), sm) := by
  cases sm with
  | reg s =>
    refine ⟨15, ?_⟩
    rw [kcell_bar]
    have hs : s = barS := Subsingleton.elim (α := Fin 1) s barS
    rw [hs]
  | dma j => exact ⟨⟨(j : Fin 15).val, Nat.lt_succ_of_lt (j : Fin 15).isLt⟩, kcell_dma c j⟩

/-! ## The levels; where a device's debt sits -/

open Idealize.ShloMosaic.Pipeline (add_pos_cases tallyAt_pos)

theorem L_of_ne (g : GSem nD τ sig) (h : g.1.2 ≠ .tc) : L g = ∅ := if_neg h
theorem L_tc (c : Dev nD) (sm : SemLoc sig) : L ((c : Thread nD τ), sm) = {()} := if_pos rfl
/-- The form the launch theorem asks for. -/
theorem hL : ∀ g : GSem nD τ sig, g.1.2 ≠ .tc → L g = ∅ := L_of_ne

theorem lv_bar (c : Dev nD) : lv (barCell c) () = 1 := rfl
theorem lv_dcell (c : Dev nD) (j : Fin 15) :
    lv (dcell c j) () = if (4 ≤ j.val ∧ j.val ≤ 6) ∨ j.val = 8 then 2 else if 12 ≤ j.val then 3 else 0 := rfl
theorem lv_loc (c : Dev nD) : lv (dcell c jLoc) () = 0 := by rw [lv_dcell]; decide
theorem lv_yfS (c : Dev nD) (k : Fin 3) : lv (dcell c (jYfS k)) () = 0 := by rw [lv_dcell]; revert k; decide
theorem lv_yfR (c : Dev nD) (k : Fin 3) : lv (dcell c (jYfR k)) () = 2 := by rw [lv_dcell]; revert k; decide
theorem lv_ydS (c : Dev nD) : lv (dcell c jYdS) () = 0 := by rw [lv_dcell]; decide
theorem lv_ydR (c : Dev nD) : lv (dcell c jYdR) () = 2 := by rw [lv_dcell]; decide
theorem lv_fS (c : Dev nD) (k : Fin 3) : lv (dcell c (jFS k)) () = 0 := by rw [lv_dcell]; revert k; decide
theorem lv_fR (c : Dev nD) (k : Fin 3) : lv (dcell c (jFR k)) () = 3 := by rw [lv_dcell]; revert k; decide

/-- The cells a device may owe units to: both peers' barrier cells, the four cells its transfers to `yp c` land on, the
    three its forwards to `xp c` land on. -/
inductive Owed (c : Dev nD) : GSem nD τ sig → Prop
  | barY : Owed c (barCell (yp c))
  | barX : Owed c (barCell (xp c))
  | yf (k : Fin 3) : Owed c (dcell (yp c) (jYfR k))
  | yd : Owed c (dcell (yp c) jYdR)
  | fw (k : Fin 3) : Owed c (dcell (xp c) (jFR k))

theorem Owed.tc {c : Dev nD} {g : GSem nD τ sig} (h : Owed c g) : g.1.2 = .tc := by cases h <;> rfl
theorem Owed.lv_pos {c : Dev nD} {g : GSem nD τ sig} (h : Owed c g) : 0 < lv g () := by
  cases h with
  | barY => rw [lv_bar]; decide
  | barX => rw [lv_bar]; decide
  | yf k => rw [lv_yfR]; decide
  | yd => rw [lv_ydR]; decide
  | fw k => rw [lv_fR]; decide

/-- The forwards' debt: cells of `xp c` at level 3. -/
theorem Oa_pos {c : Dev nD} {g : GSem nD τ sig} {u : Unit} (h : 0 < Oa c g u) : ∃ k, g = dcell (xp c) (jFR k) :=
  ⟨2, (tallyAt_pos h).1⟩
theorem Ob_pos {c : Dev nD} {g : GSem nD τ sig} {u : Unit} (h : 0 < Ob c g u) : ∃ k, g = dcell (xp c) (jFR k) := by
  rcases add_pos_cases h with h | h
  · exact Oa_pos h
  · exact ⟨1, (tallyAt_pos h).1⟩
theorem Oc_pos {c : Dev nD} {g : GSem nD τ sig} {u : Unit} (h : 0 < Oc c g u) : ∃ k, g = dcell (xp c) (jFR k) := by
  rcases add_pos_cases h with h | h
  · exact Ob_pos h
  · exact ⟨0, (tallyAt_pos h).1⟩
/-- With the transfers to `yp c` still to pay: those cells too, at level 2. -/
theorem Od_pos {c : Dev nD} {g : GSem nD τ sig} {u : Unit} (h : 0 < Od c g u) :
    (∃ k, g = dcell (xp c) (jFR k)) ∨ g = dcell (yp c) jYdR ∨ ∃ k, g = dcell (yp c) (jYfR k) := by
  rcases add_pos_cases h with h | h
  · exact .inl (Oc_pos h)
  · exact .inr (.inl (tallyAt_pos h).1)
theorem Oe_pos {c : Dev nD} {g : GSem nD τ sig} {u : Unit} (h : 0 < Oe c g u) :
    (∃ k, g = dcell (xp c) (jFR k)) ∨ g = dcell (yp c) jYdR ∨ ∃ k, g = dcell (yp c) (jYfR k) := by
  rcases add_pos_cases h with h | h
  · exact Od_pos h
  · exact .inr (.inr ⟨2, (tallyAt_pos h).1⟩)
theorem Of_pos {c : Dev nD} {g : GSem nD τ sig} {u : Unit} (h : 0 < Of c g u) :
    (∃ k, g = dcell (xp c) (jFR k)) ∨ g = dcell (yp c) jYdR ∨ ∃ k, g = dcell (yp c) (jYfR k) := by
  rcases add_pos_cases h with h | h
  · exact Oe_pos h
  · exact .inr (.inr ⟨1, (tallyAt_pos h).1⟩)
theorem Og_pos {c : Dev nD} {g : GSem nD τ sig} {u : Unit} (h : 0 < Og c g u) :
    (∃ k, g = dcell (xp c) (jFR k)) ∨ g = dcell (yp c) jYdR ∨ ∃ k, g = dcell (yp c) (jYfR k) := by
  rcases add_pos_cases h with h | h
  · exact Of_pos h
  · exact .inr (.inr ⟨0, (tallyAt_pos h).1⟩)

theorem Og_owed {c : Dev nD} {g : GSem nD τ sig} {u : Unit} (h : 0 < Og c g u) : Owed c g := by
  rcases Og_pos h with ⟨k, rfl⟩ | rfl | ⟨k, rfl⟩
  · exact .fw k
  · exact .yd
  · exact .yf k
theorem Oh_pos {c : Dev nD} {g : GSem nD τ sig} {u : Unit} (h : 0 < Oh c g u) : Owed c g := by
  rcases add_pos_cases h with h | h
  · exact Og_owed h
  · rw [(tallyAt_pos h).1]; exact .barX
/-- Everything a device owes at launch sits on one of the nine cells. -/
theorem O₀_pos {c : Dev nD} {g : GSem nD τ sig} {u : Unit} (h : 0 < O₀ c g u) : Owed c g := by
  rcases add_pos_cases h with h | h
  · exact Oh_pos h
  · rw [(tallyAt_pos h).1]; exact .barY

/-! ## The waits are below what is owed -/

/-- A wait on a cell at level at most `b` while every cell owed sits on a TensorCore above `b`. -/
theorem mayWait_cut (c : Dev nD) (s : SemLoc sig) (b : ℕ) (O : CellTallies nD τ sig Unit) (hs : lv ((c : Thread nD τ), s) () ≤ b)
    (hO : ∀ g u, 0 < O g u → g.1.2 = .tc ∧ b < lv g u) :
    (levAts L lv : sProp 𝕄) ⊢ MayWait (c : Thread nD τ) s () O :=
  MayOwe.of_cut (L := L) (lev := lv) b (fun p hp => by rw [Finset.mem_singleton.mp hp, L_tc]; exact Finset.mem_singleton_self _)
    (fun g u hg => by unfold L; rw [if_pos (hO g u hg).1]; exact Finset.mem_singleton_self _)
    (fun p hp => by rw [Finset.mem_singleton.mp hp]; exact hs)
    (fun g u hg => (hO g u hg).2)

/-- The barrier wait: level 1, below every receive cell (levels 2 and 3). -/
theorem mayWait_bar (c : Dev nD) : (levAts L lv : sProp 𝕄) ⊢ MayWait (c : Thread nD τ) (.reg barS) () (Og c) :=
  mayWait_cut c _ 1 _ (le_refl _) fun g u hg => by
    rcases Og_pos hg with ⟨k, rfl⟩ | rfl | ⟨k, rfl⟩
    · exact ⟨rfl, by rw [lv_fR]; decide⟩
    · exact ⟨rfl, by rw [lv_ydR]; decide⟩
    · exact ⟨rfl, by rw [lv_yfR]; decide⟩

/-- A wait for a chunk from `yp c` (level 2) while only forwards to `xp c` are owed (level 3). -/
theorem mayWait_yfR_of (c : Dev nD) (k : Fin 3) (O : CellTallies nD τ sig Unit) (hO : ∀ g u, 0 < O g u → ∃ k', g = dcell (xp c) (jFR k')) :
    (levAts L lv : sProp 𝕄) ⊢ MayWait (c : Thread nD τ) (.dma (jYfR k : DmaSem sig)) () O :=
  mayWait_cut c _ 2 _ (by show lv (dcell c (jYfR k)) () ≤ 2; rw [lv_yfR]) fun g u hg => by
    obtain ⟨k', rfl⟩ := hO g u hg
    exact ⟨rfl, by rw [lv_fR]; decide⟩
theorem mayWait_yfR0 (c : Dev nD) : (levAts L lv : sProp 𝕄) ⊢ MayWait (c : Thread nD τ) (.dma (jYfR 0 : DmaSem sig)) () (Oc c) :=
  mayWait_yfR_of c 0 _ fun _ _ h => Oc_pos h
theorem mayWait_yfR1 (c : Dev nD) : (levAts L lv : sProp 𝕄) ⊢ MayWait (c : Thread nD τ) (.dma (jYfR 1 : DmaSem sig)) () (Ob c) :=
  mayWait_yfR_of c 1 _ fun _ _ h => Ob_pos h
theorem mayWait_yfR2 (c : Dev nD) : (levAts L lv : sProp 𝕄) ⊢ MayWait (c : Thread nD τ) (.dma (jYfR 2 : DmaSem sig)) () (Oa c) :=
  mayWait_yfR_of c 2 _ fun _ _ h => Oa_pos h

/-- A wait on a cell at level 0 (the local copy's cell, a send cell) under any debt on the nine cells. -/
theorem mayWait_lv0 (c : Dev nD) (s : SemLoc sig) (hs : lv ((c : Thread nD τ), s) () = 0) (O : CellTallies nD τ sig Unit)
    (hO : ∀ g u, 0 < O g u → Owed c g) :
    (levAts L lv : sProp 𝕄) ⊢ MayWait (c : Thread nD τ) s () O :=
  mayWait_cut c _ 0 _ (le_of_eq hs) fun g u hg => ⟨(hO g u hg).tc, (hO g u hg).lv_pos⟩

/-- Owing nothing, any wait. -/
theorem mayWait_none (c : Dev nD) (s : SemLoc sig) : (levAts L lv : sProp 𝕄) ⊢ MayWait (c : Thread nD τ) s () 0 := by
  rw [MayWait_zero]; iintro -; iempintro

/-- info: 'Cert.KernelProof.mayWait_bar' depends on axioms: [propext, Classical.choice, Quot.sound] -/
#guard_msgs in #print axioms mayWait_bar

end Cert.KernelProof

end
-- ==== Proof.KernelRegions.lean ====
/-
  The regions of a device's two HBM buffers.

  Device `c` sits at mesh coordinates x = c / 8, y = c / 4 % 2. Its result buffer has 1024 rows of 512 columns, and the
  protocol's eight regions are bands of whole rows that partition them: the device's own half, rows [512·y, 512·y + 512);
  and, inside the other half, which starts at row 512·(1 − y): the three chunks `yp c` sends, rows 320·x + 64·k onwards
  (64 each); the direct stretch from `yp c`, rows [192, 320); the three chunks `xp c` forwards, rows 320·(1 − x) + 64·k
  onwards (64 each). For x = 0 the other half reads chunks, stretch, forwards; for x = 1 forwards, stretch, chunks.
  Its argument buffer has 512 rows of 1024 columns; the transfers read five rectangles of it: the own column half
  (all rows, columns [512·y, 512·y + 512)) and, in the other column half, the three chunks (rows 320·x + 64·k onwards)
  and the stretch (rows [192, 320)); 192 rows of the other column half are read by no transfer.

  Every region is a unit-stride rectangle of a whole buffer, so its element set is the rectangle's, and membership is
  two inequalities per axis; with the offsets in closed form all that remains is linear arithmetic in x, y ∈ {0, 1}.
  A points-to on a disjoint union is the ∗ of the points-tos on the parts, at one contents function: that is the whole
  of the two splitting lemmas.
-/
import proofs.«900641_g7700000000000642_dist_a2a_v7x_xyz2x2x4_y_m512_n512_f32_1_alg».proof.Proof.KernelBase

noncomputable section

namespace Cert.KernelProof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix2)

variable {F : FTy → Type} [FloatOps F]

local notation "𝕄" => MT nD τ sig Unit (Elt F) ℕ UU ℕ

variable (m : (ℓ : Loc nD τ sig) → Buf (Elt F) ℓ) (ρ : Dev nD → PrngReg)

namespace Regions

/-! ## Membership in a unit-stride rectangle of a matrix, by coordinates -/

theorem mem_rect2 {R C : Nat} {off : Fin 2 → Nat} {n p : Nat} {inb} (o₀ o₁ : Nat) (h : off = ![o₀, o₁])
    (i : (⟨2, ![R, C]⟩ : Shape).Idx) :
    i ∈ (Rect.unit (s := ⟨2, ![R, C]⟩) off ![n, p] inb).set ↔
      (o₀ ≤ (i 0 : Nat) ∧ (i 0 : Nat) < o₀ + n) ∧ (o₁ ≤ (i 1 : Nat) ∧ (i 1 : Nat) < o₁ + p) := by
  subst h
  rw [Rect.mem_set_unit, Fin.forall_fin_two]
  simp only [Matrix.cons_val_zero, Matrix.cons_val_one, Matrix.head_cons]

/-- A band of whole rows. -/
theorem mem_rows {R C : Nat} {off : Fin 2 → Nat} {n : Nat} {inb} (o : Nat) (h : off = ![o, 0])
    (i : (⟨2, ![R, C]⟩ : Shape).Idx) :
    i ∈ (Rect.unit (s := ⟨2, ![R, C]⟩) off ![n, C] inb).set ↔ o ≤ (i 0 : Nat) ∧ (i 0 : Nat) < o + n := by
  have h1 : (i 1 : Nat) < C := (i 1).isLt
  rw [mem_rect2 o 0 h]
  omega

/-! ## The peers' mesh coordinates -/

theorem yp_x (c : Dev nD) : (yp c).val / 8 = c.val / 8 := by revert c; decide
theorem yp_y (c : Dev nD) : (yp c).val / 4 % 2 = 1 - c.val / 4 % 2 := by revert c; decide
theorem xp_x (c : Dev nD) : (xp c).val / 8 = 1 - c.val / 8 := by revert c; decide
theorem xp_y (c : Dev nD) : (xp c).val / 4 % 2 = c.val / 4 % 2 := by revert c; decide

/-- Both coordinates are 0 or 1. -/
theorem xy_cases (c : Dev nD) : (c.val / 8 = 0 ∨ c.val / 8 = 1) ∧ (c.val / 4 % 2 = 0 ∨ c.val / 4 % 2 = 1) := by
  have hc : c.val < 16 := c.isLt
  omega

/-! ## The rows of the result buffer's regions, in the device's own coordinates -/

theorem mem_ownDst (c : Dev nD) (i : S1024x512.Idx) :
    i ∈ (ownDst c).view.set ↔ 512 * (c.val / 4 % 2) ≤ (i 0 : Nat) ∧ (i 0 : Nat) < 512 * (c.val / 4 % 2) + 512 := by
  rw [show (ownDst c).view.set = _ from View.set_slice_whole main_v1 _]
  exact mem_rows _ (k0_off1_eq c) i

theorem mem_yfLand (c : Dev nD) (k : Fin 3) (i : S1024x512.Idx) :
    i ∈ (yfDst (yp c) k).view.set ↔ 512 * (1 - c.val / 4 % 2) + 320 * (c.val / 8) + 64 * k.val ≤ (i 0 : Nat)
      ∧ (i 0 : Nat) < 512 * (1 - c.val / 4 % 2) + 320 * (c.val / 8) + 64 * k.val + 64 := by
  rw [show (yfDst (yp c) k).view.set = _ from View.set_slice_whole main_v1 _, ← yp_y, ← yp_x]
  exact mem_rows _ (k0_off3_eq (yp c) k) i

theorem mem_ydLand (c : Dev nD) (i : S1024x512.Idx) :
    i ∈ (ydDst (yp c)).view.set ↔ 512 * (1 - c.val / 4 % 2) + 192 ≤ (i 0 : Nat)
      ∧ (i 0 : Nat) < 512 * (1 - c.val / 4 % 2) + 192 + 128 := by
  rw [show (ydDst (yp c)).view.set = _ from View.set_slice_whole main_v1 _, ← yp_y]
  exact mem_rows _ (k0_off5_eq (yp c)) i

theorem mem_fwLand (c : Dev nD) (k : Fin 3) (i : S1024x512.Idx) :
    i ∈ (fwV (xp c) k).view.set ↔ (320 * (1 - c.val / 8) + 64 * k.val + 512) - 512 * (c.val / 4 % 2) ≤ (i 0 : Nat)
      ∧ (i 0 : Nat) < (320 * (1 - c.val / 8) + 64 * k.val + 512) - 512 * (c.val / 4 % 2) + 64 := by
  rw [show (fwV (xp c) k).view.set = _ from View.set_slice_whole main_v1 _, ← xp_y, ← xp_x]
  exact mem_rows _ (k0_off7_eq (xp c) k) i

/-! ## The result buffer: the eight regions cover it and are pairwise disjoint -/

theorem out_cover (c : Dev nD) :
    (Finset.univ : Finset S1024x512.Idx) = (ownDst c).view.set ∪ ((yfDst (yp c) 0).view.set ∪ ((yfDst (yp c) 1).view.set ∪
      ((yfDst (yp c) 2).view.set ∪ ((ydDst (yp c)).view.set ∪ ((fwV (xp c) 0).view.set ∪ ((fwV (xp c) 1).view.set ∪
        (fwV (xp c) 2).view.set)))))) := by
  ext i
  have hi : (i 0 : Nat) < 1024 := (i 0).isLt
  rw [Finset.mem_union, Finset.mem_union, Finset.mem_union, Finset.mem_union, Finset.mem_union, Finset.mem_union,
    Finset.mem_union, mem_ownDst, mem_yfLand, mem_yfLand, mem_yfLand, mem_ydLand, mem_fwLand, mem_fwLand, mem_fwLand]
  simp only [Finset.mem_univ, true_iff, Fin.val_zero, Fin.val_one, Fin.val_two]
  obtain ⟨hx | hx, hy | hy⟩ := xy_cases c <;> omega

theorem out_disj₁ (c : Dev nD) :
    Disjoint (ownDst c).view.set ((yfDst (yp c) 0).view.set ∪ ((yfDst (yp c) 1).view.set ∪
      ((yfDst (yp c) 2).view.set ∪ ((ydDst (yp c)).view.set ∪ ((fwV (xp c) 0).view.set ∪ ((fwV (xp c) 1).view.set ∪
        (fwV (xp c) 2).view.set)))))) := by
  refine Finset.disjoint_left.mpr fun i h1 h2 => ?_
  rw [Finset.mem_union, Finset.mem_union, Finset.mem_union, Finset.mem_union, Finset.mem_union, Finset.mem_union,
    mem_yfLand, mem_yfLand, mem_yfLand, mem_ydLand, mem_fwLand, mem_fwLand, mem_fwLand] at h2
  rw [mem_ownDst] at h1
  simp only [Fin.val_zero, Fin.val_one, Fin.val_two] at h2
  obtain ⟨hx | hx, hy | hy⟩ := xy_cases c <;> omega

theorem out_disj₂ (c : Dev nD) :
    Disjoint (yfDst (yp c) 0).view.set ((yfDst (yp c) 1).view.set ∪
      ((yfDst (yp c) 2).view.set ∪ ((ydDst (yp c)).view.set ∪ ((fwV (xp c) 0).view.set ∪ ((fwV (xp c) 1).view.set ∪
        (fwV (xp c) 2).view.set))))) := by
  refine Finset.disjoint_left.mpr fun i h1 h2 => ?_
  rw [Finset.mem_union, Finset.mem_union, Finset.mem_union, Finset.mem_union, Finset.mem_union,
    mem_yfLand, mem_yfLand, mem_ydLand, mem_fwLand, mem_fwLand, mem_fwLand] at h2
  rw [mem_yfLand] at h1
  simp only [Fin.val_zero, Fin.val_one, Fin.val_two] at h1 h2
  obtain ⟨hx | hx, hy | hy⟩ := xy_cases c <;> omega

theorem out_disj₃ (c : Dev nD) :
    Disjoint (yfDst (yp c) 1).view.set ((yfDst (yp c) 2).view.set ∪ ((ydDst (yp c)).view.set ∪
      ((fwV (xp c) 0).view.set ∪ ((fwV (xp c) 1).view.set ∪ (fwV (xp c) 2).view.set)))) := by
  refine Finset.disjoint_left.mpr fun i h1 h2 => ?_
  rw [Finset.mem_union, Finset.mem_union, Finset.mem_union, Finset.mem_union,
    mem_yfLand, mem_ydLand, mem_fwLand, mem_fwLand, mem_fwLand] at h2
  rw [mem_yfLand] at h1
  simp only [Fin.val_zero, Fin.val_one, Fin.val_two] at h1 h2
  obtain ⟨hx | hx, hy | hy⟩ := xy_cases c <;> omega

theorem out_disj₄ (c : Dev nD) :
    Disjoint (yfDst (yp c) 2).view.set ((ydDst (yp c)).view.set ∪
      ((fwV (xp c) 0).view.set ∪ ((fwV (xp c) 1).view.set ∪ (fwV (xp c) 2).view.set))) := by
  refine Finset.disjoint_left.mpr fun i h1 h2 => ?_
  rw [Finset.mem_union, Finset.mem_union, Finset.mem_union, mem_ydLand, mem_fwLand, mem_fwLand, mem_fwLand] at h2
  rw [mem_yfLand] at h1
  simp only [Fin.val_zero, Fin.val_one, Fin.val_two] at h1 h2
  obtain ⟨hx | hx, hy | hy⟩ := xy_cases c <;> omega

theorem out_disj₅ (c : Dev nD) :
    Disjoint (ydDst (yp c)).view.set ((fwV (xp c) 0).view.set ∪ ((fwV (xp c) 1).view.set ∪ (fwV (xp c) 2).view.set)) := by
  refine Finset.disjoint_left.mpr fun i h1 h2 => ?_
  rw [Finset.mem_union, Finset.mem_union, mem_fwLand, mem_fwLand, mem_fwLand] at h2
  rw [mem_ydLand] at h1
  simp only [Fin.val_zero, Fin.val_one, Fin.val_two] at h2
  obtain ⟨hx | hx, hy | hy⟩ := xy_cases c <;> omega

theorem out_disj₆ (c : Dev nD) :
    Disjoint (fwV (xp c) 0).view.set ((fwV (xp c) 1).view.set ∪ (fwV (xp c) 2).view.set) := by
  refine Finset.disjoint_left.mpr fun i h1 h2 => ?_
  rw [Finset.mem_union, mem_fwLand, mem_fwLand] at h2
  rw [mem_fwLand] at h1
  simp only [Fin.val_zero, Fin.val_one, Fin.val_two] at h1 h2
  obtain ⟨hx | hx, hy | hy⟩ := xy_cases c <;> omega

theorem out_disj₇ (c : Dev nD) : Disjoint (fwV (xp c) 1).view.set (fwV (xp c) 2).view.set := by
  refine Finset.disjoint_left.mpr fun i h1 h2 => ?_
  rw [mem_fwLand] at h1 h2
  simp only [Fin.val_zero, Fin.val_one, Fin.val_two] at h1 h2
  obtain ⟨hx | hx, hy | hy⟩ := xy_cases c <;> omega

/-! ## The argument buffer's source rectangles -/

theorem mem_ownSrc (c : Dev nD) (i : S512x1024.Idx) :
    i ∈ (ownSrc c).view.set ↔ 512 * (c.val / 4 % 2) ≤ (i 1 : Nat) ∧ (i 1 : Nat) < 512 * (c.val / 4 % 2) + 512 := by
  have h0 : (i 0 : Nat) < 512 := (i 0).isLt
  rw [show (ownSrc c).view.set = _ from View.set_slice_whole main_arg0 _, mem_rect2 0 _ (k0_off2_eq c) i]
  omega

theorem mem_yfSrc (c : Dev nD) (k : Fin 3) (i : S512x1024.Idx) :
    i ∈ (yfSrc c k).view.set ↔
      (320 * (c.val / 8) + 64 * k.val ≤ (i 0 : Nat) ∧ (i 0 : Nat) < 320 * (c.val / 8) + 64 * k.val + 64)
        ∧ (512 - 512 * (c.val / 4 % 2) ≤ (i 1 : Nat) ∧ (i 1 : Nat) < 512 - 512 * (c.val / 4 % 2) + 512) := by
  rw [show (yfSrc c k).view.set = _ from View.set_slice_whole main_arg0 _]
  exact mem_rect2 _ _ (k0_off4_eq c k) i

theorem mem_ydSrc (c : Dev nD) (i : S512x1024.Idx) :
    i ∈ (ydSrc c).view.set ↔
      (192 ≤ (i 0 : Nat) ∧ (i 0 : Nat) < 192 + 128)
        ∧ (512 - 512 * (c.val / 4 % 2) ≤ (i 1 : Nat) ∧ (i 1 : Nat) < 512 - 512 * (c.val / 4 % 2) + 512) := by
  rw [show (ydSrc c).view.set = _ from View.set_slice_whole main_arg0 _]
  exact mem_rect2 _ _ (k0_off6_eq c) i

/-- The elements of the argument buffer some transfer reads. -/
def argRead (c : Dev nD) : Finset S512x1024.Idx :=
  (ownSrc c).view.set ∪ ((yfSrc c 0).view.set ∪ ((yfSrc c 1).view.set ∪ ((yfSrc c 2).view.set ∪ (ydSrc c).view.set)))

theorem arg_disj₁ (c : Dev nD) :
    Disjoint (ownSrc c).view.set ((yfSrc c 0).view.set ∪ ((yfSrc c 1).view.set ∪ ((yfSrc c 2).view.set ∪ (ydSrc c).view.set))) := by
  refine Finset.disjoint_left.mpr fun i h1 h2 => ?_
  rw [Finset.mem_union, Finset.mem_union, Finset.mem_union, mem_yfSrc, mem_yfSrc, mem_yfSrc, mem_ydSrc] at h2
  rw [mem_ownSrc] at h1
  obtain ⟨hx | hx, hy | hy⟩ := xy_cases c <;> omega

theorem arg_disj₂ (c : Dev nD) :
    Disjoint (yfSrc c 0).view.set ((yfSrc c 1).view.set ∪ ((yfSrc c 2).view.set ∪ (ydSrc c).view.set)) := by
  refine Finset.disjoint_left.mpr fun i h1 h2 => ?_
  rw [Finset.mem_union, Finset.mem_union, mem_yfSrc, mem_yfSrc, mem_ydSrc] at h2
  rw [mem_yfSrc] at h1
  simp only [Fin.val_zero, Fin.val_one, Fin.val_two] at h1 h2
  obtain ⟨hx | hx, hy | hy⟩ := xy_cases c <;> omega

theorem arg_disj₃ (c : Dev nD) : Disjoint (yfSrc c 1).view.set ((yfSrc c 2).view.set ∪ (ydSrc c).view.set) := by
  refine Finset.disjoint_left.mpr fun i h1 h2 => ?_
  rw [Finset.mem_union, mem_yfSrc, mem_ydSrc] at h2
  rw [mem_yfSrc] at h1
  simp only [Fin.val_zero, Fin.val_one, Fin.val_two] at h1 h2
  obtain ⟨hx | hx, hy | hy⟩ := xy_cases c <;> omega

theorem arg_disj₄ (c : Dev nD) : Disjoint (yfSrc c 2).view.set (ydSrc c).view.set := by
  refine Finset.disjoint_left.mpr fun i h1 h2 => ?_
  rw [mem_ydSrc] at h2
  rw [mem_yfSrc] at h1
  simp only [Fin.val_zero, Fin.val_one, Fin.val_two] at h1
  obtain ⟨hx | hx, hy | hy⟩ := xy_cases c <;> omega

/-! ## Offsets that name the same rows -/

/-- The rows `yp c` writes chunk `k` to are the rows `c` forwards. -/
theorem off3_yp (c : Dev nD) (k : Fin 3) : k0_off3 (yp c) (K k) = k0_off7 c (K k) := by
  rw [show k0_off3 (yp c) (K k) = _ from k0_off3_eq (yp c) k, show k0_off7 c (K k) = _ from k0_off7_eq c k, yp_x, yp_y]
  refine congrArg (fun t : Nat => ![t, 0]) ?_
  obtain ⟨hx | hx, hy | hy⟩ := xy_cases c <;> omega

/-- The rows `xp c` forwards chunk `k` to are the rows `c`'s wait names. -/
theorem off7_xp (c : Dev nD) (k : Fin 3) : k0_off7 (xp c) (K k) = k0_off8 c (K k) := by
  rw [show k0_off7 (xp c) (K k) = _ from k0_off7_eq (xp c) k, show k0_off8 c (K k) = _ from k0_off8_eq c k, xp_x, xp_y]
  refine congrArg (fun t : Nat => ![t, 0]) ?_
  obtain ⟨hx | hx, hy | hy⟩ := xy_cases c <;> omega

/-- One more part in front of a split. -/
theorem pointsTo_union_cons {ℓ : Loc nD τ sig} {I J : Finset (Idx ℓ)} {q : PosShare TreeShare} {f : Buf (Elt F) ℓ}
    {P : sProp 𝕄} (h : Disjoint I J) (hJ : (ℓ ↦[J]{q} f : sProp 𝕄) ⊣⊢ P) :
    (ℓ ↦[I ∪ J]{q} f : sProp 𝕄) ⊣⊢ iprop((ℓ ↦[I]{q} f) ∗ P) :=
  (pointsTo_union h).trans (sep_congr_right hJ)

end Regions

open Regions

/-! ## The statements the other modules use -/

/-- The part of the argument buffer no transfer reads. -/
def argRest (c : Dev nD) (f : Buf (Elt F) ((c : Thread nD τ).loc main_arg0)) : sProp 𝕄 :=
  ((c : Thread nD τ).loc main_arg0) ↦[Finset.univ \ argRead c]{fullShare} f

/-- The whole result buffer is its eight regions, at one contents function. -/
theorem out_split (c : Dev nD) (f : Buf (Elt F) ((c : Thread nD τ).loc main_v1)) :
    outW (F := F) c f ⊣⊢ iprop(ownR c f ∗ landYF c 0 f ∗ landYF c 1 f ∗ landYF c 2 f ∗ landYD c f ∗ landFW c 0 f ∗ landFW c 1 f ∗ landFW c 2 f) := by
  have h := pointsTo_union_cons (F := F) (ℓ := (c : Thread nD τ).loc main_v1) (q := fullShare) (f := f) (out_disj₁ c)
    (pointsTo_union_cons (out_disj₂ c) (pointsTo_union_cons (out_disj₃ c) (pointsTo_union_cons (out_disj₄ c)
      (pointsTo_union_cons (out_disj₅ c) (pointsTo_union_cons (out_disj₆ c) (pointsTo_union (out_disj₇ c)))))))
  rw [← out_cover c] at h
  exact h

/-- The whole argument buffer is its five source rectangles and the rest. -/
theorem arg_split (c : Dev nD) (f : Buf (Elt F) ((c : Thread nD τ).loc main_arg0)) :
    argW (F := F) c f ⊣⊢ iprop(srcOwn c f ∗ srcYF c 0 f ∗ srcYF c 1 f ∗ srcYF c 2 f ∗ srcYD c f ∗ argRest c f) := by
  have h5 := pointsTo_union_cons (F := F) (ℓ := (c : Thread nD τ).loc main_arg0) (q := fullShare) (f := f) (arg_disj₁ c)
    (pointsTo_union_cons (arg_disj₂ c) (pointsTo_union_cons (arg_disj₃ c) (pointsTo_union (arg_disj₄ c))))
  have h := (pointsTo_split_subset (ℓ := (c : Thread nD τ).loc main_arg0) (q := fullShare) (f := f)
    (Finset.subset_univ (argRead c))).trans (sep_congr_left h5)
  exact h.trans (sep_assoc.trans (sep_congr_right (sep_assoc.trans (sep_congr_right (sep_assoc.trans
    (sep_congr_right sep_assoc))))))

/-- The chunk `yp c` sends lands on the rows `c` forwards. -/
theorem yfDst_yp (c : Dev nD) (k : Fin 3) : yfDst (yp c) k = fwV c k :=
  Memref.slice_unit_congr A1 (off3_yp c k) _ _ _ _

/-- The chunk `xp c` forwards lands on the rows `c`'s wait names. -/
theorem fwV_xp (c : Dev nD) (k : Fin 3) : fwV (xp c) k = fwLand c k :=
  Memref.slice_unit_congr A1 (off7_xp c k) _ _ _ _

theorem yfDst_yp_set (c : Dev nD) (k : Fin 3) :
    ((yfDst (yp c) k).view.set : Finset S1024x512.Idx) = (fwV c k).view.set := by
  rw [show (yfDst (yp c) k).view.set = _ from View.set_slice_whole main_v1 _,
    show (fwV c k).view.set = _ from View.set_slice_whole main_v1 _]
  exact congrArg (fun r : Rect S1024x512 => r.set) (Rect.unit_congr (off3_yp c k) _ _)

theorem fwV_xp_set (c : Dev nD) (k : Fin 3) :
    ((fwV (xp c) k).view.set : Finset S1024x512.Idx) = (fwLand c k).view.set := by
  rw [show (fwV (xp c) k).view.set = _ from View.set_slice_whole main_v1 _,
    show (fwLand c k).view.set = _ from View.set_slice_whole main_v1 _]
  exact congrArg (fun r : Rect S1024x512 => r.set) (Rect.unit_congr (off7_xp c k) _ _)

/-- A landed chunk is the source of the device's own forward. -/
theorem landYF_eq (c : Dev nD) (k : Fin 3) (f : Buf (Elt F) ((c : Thread nD τ).loc main_v1)) :
    landYF (F := F) c k f = fwSrcR c k f := by
  unfold landYF fwSrcR
  show pointsTo ((c : Thread nD τ).loc main_v1) (yfDst (yp c) k).view.set fullShare f
    = pointsTo ((c : Thread nD τ).loc main_v1) (fwV c k).view.set fullShare f
  rw [yfDst_yp_set]

/-- Contents off a region are irrelevant to its points-to. -/
theorem region_congr {s : Shape} (M : Memref sig .tc .hbm s .f32) (c : Dev nD)
    (f g : Buf (Elt F) (M.view.loc (c : Thread nD τ))) (h : ∀ i ∈ M.view.set, f i = g i) :
    ((M.view.loc (c : Thread nD τ) ↦[M.view.set]{fullShare} f : sProp 𝕄))
      = (M.view.loc (c : Thread nD τ) ↦[M.view.set]{fullShare} g) :=
  pointsTo_congr h

/-- info: 'Cert.KernelProof.out_split' depends on axioms: [propext, Classical.choice, Quot.sound] -/
#guard_msgs in #print axioms out_split

/-- info: 'Cert.KernelProof.arg_split' depends on axioms: [propext, Classical.choice, Quot.sound] -/
#guard_msgs in #print axioms arg_split

end Cert.KernelProof

end
-- ==== Proof.KernelContents.lean ====
/-
  What each of the kernel's copies writes. Entry (r, q) of device `c`'s final result is entry
  (r mod 512, 512·y + q) of the argument block of `srcDev c r` (`Fout`). Each copy moves a rectangle of rows between
  two buffers at fixed offsets; under its destination rectangle the written contents are the final result of the
  destination's device, because the rectangle's rows all come from one device (the sender, or for a forwarded chunk the
  device the sender received it from) and the row and column offsets of source and destination differ by exactly the
  shift `Fout` prescribes.
-/
import proofs.«900641_g7700000000000642_dist_a2a_v7x_xyz2x2x4_y_m512_n512_f32_1_alg».proof.Proof.KernelBase
import Idealize.ShloMosaic.Lib.Pipeline.Value

noncomputable section

namespace Cert.KernelProof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix2)

variable {F : FTy → Type} [FloatOps F]

local notation "𝕄" => MT nD τ sig Unit (Elt F) ℕ UU ℕ

variable (m : (ℓ : Loc nD τ sig) → Buf (Elt F) ℓ) (ρ : Dev nD → PrngReg)

/-! ## A copy between two views, and where a slice's element sits -/

/-- If `H` read through the destination view is `G` read through the source view, then copying what the source view
    reads off `G` leaves, under the destination view, the contents `H` — whatever the destination held. -/
theorem copy_lands {sig : RefSig} {Val : EltTy → Type} {κ κ' : Kind} {sp sp' : Space} {s : Shape} {e : EltTy}
    (src : View sig κ sp s e) (dst : View sig κ' sp' s e) (G : src.ty.Contents Val) (fd H : dst.ty.Contents Val)
    (hGH : dst.read Val H = src.read Val G) :
    ∀ i ∈ dst.set, dst.write Val fd (src.read Val G) Finset.univ i = H i := by
  intro i hi
  obtain ⟨y, rfl⟩ := View.exists_emb_of_mem_set _ hi
  rw [View.write_emb_of_mem _ _ (Finset.mem_univ y), ← hGH, View.read_apply, cast_cast, cast_eq]

/-- An element under a unit-stride slice of a whole buffer sits, on each axis, at the slice's offset plus its own
    coordinate. -/
theorem emb_slice_whole_val {sig : RefSig} {κ : Kind} (b : Ref sig κ) (off size : Fin b.ty.shape.rank → Nat)
    (inb : ∀ a, off a + size a ≤ b.ty.shape.size a) (hr : ∀ a, (Rect.unit off size inb).stride a = 1)
    (y : (Rect.unit off size inb).shape.Idx) (a : Fin b.ty.shape.rank) :
    ((((Memref.whole b).slice (Rect.unit off size inb) hr).view.emb y) a : Nat) = off a + (y a : Nat) := by
  simp only [Memref.view_slice, Memref.view_whole, View.emb_slice, View.emb_whole, Function.Embedding.trans_apply,
    Function.Embedding.refl_apply, Rect.emb_apply]
  show off a + 1 * (y a : Nat) = _
  omega

/-! ## The mesh coordinates of the peers -/

theorem yp_val (c : Dev nD) : (yp c).val = (8 * (c.val / 8) + (c.val % 4) + 4) - 4 * ((c.val / 4) % 2) := rfl
theorem xp_val (c : Dev nD) : (xp c).val = (4 * ((c.val / 4) % 2) + (c.val % 4) + 8) - 8 * (c.val / 8) := rfl

/-- `yp` flips the y-coordinate and keeps the x-coordinate; `xp` the other way round. -/
theorem yp_y (c : Dev nD) : (yp c).val / 4 % 2 = 1 - c.val / 4 % 2 := by
  have h := yp_val c; have hc : c.val < 16 := c.isLt; omega
theorem yp_x (c : Dev nD) : (yp c).val / 8 = c.val / 8 := by
  have h := yp_val c; have hc : c.val < 16 := c.isLt; omega
theorem xp_y (c : Dev nD) : (xp c).val / 4 % 2 = c.val / 4 % 2 := by
  have h := xp_val c; have hc : c.val < 16 := c.isLt; omega
theorem xp_x (c : Dev nD) : (xp c).val / 8 = 1 - c.val / 8 := by
  have h := xp_val c; have hc : c.val < 16 := c.isLt; omega

/-! ## Which device a row comes from, by cases -/

theorem srcDev_own (c : Dev nD) (r : ℕ) (h : r / 512 = c.val / 4 % 2) : srcDev c r = c := if_pos h

theorem srcDev_direct (c : Dev nD) (r : ℕ) (h : ¬r / 512 = c.val / 4 % 2)
    (h' : ¬((c.val / 8 = 0 ∧ 320 ≤ r % 512) ∨ (c.val / 8 = 1 ∧ r % 512 < 192))) : srcDev c r = yp c := by
  unfold srcDev; rw [if_neg h, if_neg h']

theorem srcDev_relay (c : Dev nD) (r : ℕ) (h : ¬r / 512 = c.val / 4 % 2)
    (h' : (c.val / 8 = 0 ∧ 320 ≤ r % 512) ∨ (c.val / 8 = 1 ∧ r % 512 < 192)) : srcDev c r = yp (xp c) := by
  unfold srcDev; rw [if_neg h, if_pos h']

/-- Whatever the case, row `r` of a result comes from a device whose y-coordinate is the row's half `r / 512`. -/
theorem srcDev_y (c : Dev nD) (r : ℕ) (hr : r < 1024) : (srcDev c r).val / 4 % 2 = r / 512 := by
  have hc : c.val < 16 := c.isLt
  unfold srcDev
  split
  · next h => exact h.symm
  · next h =>
    split
    · rw [yp_y, xp_y]; omega
    · rw [yp_y]; omega

/-- The final result at an index, once the row's source device and the argument block's index are named. -/
theorem Fout_apply (c : Dev nD) (i : S1024x512.Idx) (d : Dev nD) (j : S512x1024.Idx)
    (hd : srcDev c (i 0).val = d) (h0 : (j 0).val = (i 0).val % 512)
    (h1 : (j 1).val = 512 * (c.val / 4 % 2) + (i 1).val) : Fout m c i = xin m d j := by
  subst hd
  unfold Fout
  congr 1
  funext a
  match a with
  | ⟨0, _⟩ => exact Fin.ext h0.symm
  | ⟨1, _⟩ => exact Fin.ext h1.symm

/-! ## The four kinds of copy -/

/-- The local copy writes the device's own row half of its final result. -/
theorem own_content (c : Dev nD) (fd : Buf (Elt F) ((ownDst c).view.loc (c : Thread nD τ))) :
    ∀ i ∈ (ownDst c).view.set,
      ((ownDst c).view.write (Elt F) fd ((ownSrc c).view.read (Elt F) (xin m c)) Finset.univ) i = Fout m c i := by
  refine copy_lands (ownSrc c).view (ownDst c).view (xin m c) fd (Fout m c) (funext fun y => ?_)
  rw [View.read_apply, View.read_apply]
  show Fout m c ((ownDst c).view.emb y) = xin m c ((ownSrc c).view.emb y)
  have hc : c.val < 16 := c.isLt
  have hy0 : (y 0 : Nat) < 512 := (y 0).isLt
  have hy1 : (y 1 : Nat) < 512 := (y 1).isLt
  have d0 : (((ownDst c).view.emb y) 0 : Nat) = 512 * (c.val / 4 % 2) + (y 0 : Nat) :=
    (emb_slice_whole_val main_v1 (k0_off1 c) S512x512.size (k0_off1_inb c) (fun _ => rfl) y 0).trans
      (congrArg (· + (y 0 : Nat)) (congrFun (k0_off1_eq c) 0))
  have d1 : (((ownDst c).view.emb y) 1 : Nat) = 0 + (y 1 : Nat) :=
    (emb_slice_whole_val main_v1 (k0_off1 c) S512x512.size (k0_off1_inb c) (fun _ => rfl) y 1).trans
      (congrArg (· + (y 1 : Nat)) (congrFun (k0_off1_eq c) 1))
  have s0 : (((ownSrc c).view.emb y) 0 : Nat) = 0 + (y 0 : Nat) :=
    (emb_slice_whole_val main_arg0 (k0_off2 c) S512x512.size (k0_off2_inb c) (fun _ => rfl) y 0).trans
      (congrArg (· + (y 0 : Nat)) (congrFun (k0_off2_eq c) 0))
  have s1 : (((ownSrc c).view.emb y) 1 : Nat) = 512 * (c.val / 4 % 2) + (y 1 : Nat) :=
    (emb_slice_whole_val main_arg0 (k0_off2 c) S512x512.size (k0_off2_inb c) (fun _ => rfl) y 1).trans
      (congrArg (· + (y 1 : Nat)) (congrFun (k0_off2_eq c) 1))
  refine Fout_apply m c _ c _ (srcDev_own c _ ?_) ?_ ?_
  · rw [d0]; omega
  · rw [s0, d0]; omega
  · rw [s1, d1]; omega

/-- Chunk `k` sent to `yp c` writes 64 rows of `yp c`'s final result. -/
theorem yf_content (c : Dev nD) (k : Fin 3) (fd : Buf (Elt F) ((yfDst c k).view.loc (yp c : Thread nD τ))) :
    ∀ i ∈ (yfDst c k).view.set,
      ((yfDst c k).view.write (Elt F) fd ((yfSrc c k).view.read (Elt F) (xin m c)) Finset.univ) i = Fout m (yp c) i := by
  refine copy_lands (yfSrc c k).view (yfDst c k).view (xin m c) fd (Fout m (yp c)) (funext fun y => ?_)
  rw [View.read_apply, View.read_apply]
  show Fout m (yp c) ((yfDst c k).view.emb y) = xin m c ((yfSrc c k).view.emb y)
  have hc : c.val < 16 := c.isLt
  have hk : k.val < 3 := k.isLt
  have hy0 : (y 0 : Nat) < 64 := (y 0).isLt
  have hy1 : (y 1 : Nat) < 512 := (y 1).isLt
  have d0 : (((yfDst c k).view.emb y) 0 : Nat) = 512 * (c.val / 4 % 2) + 320 * (c.val / 8) + 64 * k.val + (y 0 : Nat) :=
    (emb_slice_whole_val main_v1 (k0_off3 c (K k)) S64x512.size (k0_off3_inb c k) (fun _ => rfl) y 0).trans
      (congrArg (· + (y 0 : Nat)) (congrFun (k0_off3_eq c k) 0))
  have d1 : (((yfDst c k).view.emb y) 1 : Nat) = 0 + (y 1 : Nat) :=
    (emb_slice_whole_val main_v1 (k0_off3 c (K k)) S64x512.size (k0_off3_inb c k) (fun _ => rfl) y 1).trans
      (congrArg (· + (y 1 : Nat)) (congrFun (k0_off3_eq c k) 1))
  have s0 : (((yfSrc c k).view.emb y) 0 : Nat) = 320 * (c.val / 8) + 64 * k.val + (y 0 : Nat) :=
    (emb_slice_whole_val main_arg0 (k0_off4 c (K k)) S64x512.size (k0_off4_inb c k) (fun _ => rfl) y 0).trans
      (congrArg (· + (y 0 : Nat)) (congrFun (k0_off4_eq c k) 0))
  have s1 : (((yfSrc c k).view.emb y) 1 : Nat) = 512 - 512 * (c.val / 4 % 2) + (y 1 : Nat) :=
    (emb_slice_whole_val main_arg0 (k0_off4 c (K k)) S64x512.size (k0_off4_inb c k) (fun _ => rfl) y 1).trans
      (congrArg (· + (y 1 : Nat)) (congrFun (k0_off4_eq c k) 1))
  have py := yp_y c
  have px := yp_x c
  refine Fout_apply m (yp c) _ c _ ((srcDev_direct (yp c) _ ?_ ?_).trans (yp_yp c)) ?_ ?_
  · rw [d0]; omega
  · rw [d0]; omega
  · rw [s0, d0]; omega
  · rw [s1, d1]; omega

/-- The direct stretch sent to `yp c` writes 128 rows of `yp c`'s final result. -/
theorem yd_content (c : Dev nD) (fd : Buf (Elt F) ((ydDst c).view.loc (yp c : Thread nD τ))) :
    ∀ i ∈ (ydDst c).view.set,
      ((ydDst c).view.write (Elt F) fd ((ydSrc c).view.read (Elt F) (xin m c)) Finset.univ) i = Fout m (yp c) i := by
  refine copy_lands (ydSrc c).view (ydDst c).view (xin m c) fd (Fout m (yp c)) (funext fun y => ?_)
  rw [View.read_apply, View.read_apply]
  show Fout m (yp c) ((ydDst c).view.emb y) = xin m c ((ydSrc c).view.emb y)
  have hc : c.val < 16 := c.isLt
  have hy0 : (y 0 : Nat) < 128 := (y 0).isLt
  have hy1 : (y 1 : Nat) < 512 := (y 1).isLt
  have d0 : (((ydDst c).view.emb y) 0 : Nat) = 512 * (c.val / 4 % 2) + 192 + (y 0 : Nat) :=
    (emb_slice_whole_val main_v1 (k0_off5 c) S128x512.size (k0_off5_inb c) (fun _ => rfl) y 0).trans
      (congrArg (· + (y 0 : Nat)) (congrFun (k0_off5_eq c) 0))
  have d1 : (((ydDst c).view.emb y) 1 : Nat) = 0 + (y 1 : Nat) :=
    (emb_slice_whole_val main_v1 (k0_off5 c) S128x512.size (k0_off5_inb c) (fun _ => rfl) y 1).trans
      (congrArg (· + (y 1 : Nat)) (congrFun (k0_off5_eq c) 1))
  have s0 : (((ydSrc c).view.emb y) 0 : Nat) = 192 + (y 0 : Nat) :=
    (emb_slice_whole_val main_arg0 (k0_off6 c) S128x512.size (k0_off6_inb c) (fun _ => rfl) y 0).trans
      (congrArg (· + (y 0 : Nat)) (congrFun (k0_off6_eq c) 0))
  have s1 : (((ydSrc c).view.emb y) 1 : Nat) = 512 - 512 * (c.val / 4 % 2) + (y 1 : Nat) :=
    (emb_slice_whole_val main_arg0 (k0_off6 c) S128x512.size (k0_off6_inb c) (fun _ => rfl) y 1).trans
      (congrArg (· + (y 1 : Nat)) (congrFun (k0_off6_eq c) 1))
  have py := yp_y c
  have px := yp_x c
  refine Fout_apply m (yp c) _ c _ ((srcDev_direct (yp c) _ ?_ ?_).trans (yp_yp c)) ?_ ?_
  · rw [d0]; omega
  · rw [d0]; omega
  · rw [s0, d0]; omega
  · rw [s1, d1]; omega

/-- Chunk `k` forwarded to `xp c` writes 64 rows of `xp c`'s final result: on both devices these rows come from
    `yp c`'s argument block, and the two devices have the same y-coordinate. -/
theorem fw_content (c : Dev nD) (k : Fin 3) (fd : Buf (Elt F) ((fwV c k).view.loc (xp c : Thread nD τ))) :
    ∀ i ∈ (fwV c k).view.set,
      ((fwV c k).view.write (Elt F) fd ((fwV c k).view.read (Elt F) (Fout m c)) Finset.univ) i = Fout m (xp c) i := by
  refine copy_lands (fwV c k).view (fwV c k).view (Fout m c) fd (Fout m (xp c)) (funext fun y => ?_)
  rw [View.read_apply, View.read_apply]
  show Fout m (xp c) ((fwV c k).view.emb y) = Fout m c ((fwV c k).view.emb y)
  have hc : c.val < 16 := c.isLt
  have hk : k.val < 3 := k.isLt
  have hy0 : (y 0 : Nat) < 64 := (y 0).isLt
  have hy1 : (y 1 : Nat) < 512 := (y 1).isLt
  have d0 : (((fwV c k).view.emb y) 0 : Nat) = (320 * (c.val / 8) + 64 * k.val + 512) - 512 * (c.val / 4 % 2) + (y 0 : Nat) :=
    (emb_slice_whole_val main_v1 (k0_off7 c (K k)) S64x512.size (k0_off7_inb c k) (fun _ => rfl) y 0).trans
      (congrArg (· + (y 0 : Nat)) (congrFun (k0_off7_eq c k) 0))
  have py := xp_y c
  have px := xp_x c
  -- the forwarded rows lie in the other row half, at 320·x + 64·k + (0 … 63) inside it
  have rdiv : (((fwV c k).view.emb y) 0 : Nat) / 512 = 1 - c.val / 4 % 2 := by rw [d0]; omega
  have rmod : (((fwV c k).view.emb y) 0 : Nat) % 512 = 320 * (c.val / 8) + 64 * k.val + (y 0 : Nat) := by rw [d0]; omega
  have e1 : Fout m c ((fwV c k).view.emb y) = xin m (yp c)
      (ix2 (⟨(((fwV c k).view.emb y) 0 : Nat) % 512, Nat.mod_lt _ (by decide)⟩ : Fin 512)
        (⟨512 * (c.val / 4 % 2) + (((fwV c k).view.emb y) 1 : Nat), by
          have h : (((fwV c k).view.emb y) 1 : Nat) < 512 := (((fwV c k).view.emb y) 1).isLt; omega⟩ : Fin 1024)) :=
    Fout_apply m c _ (yp c) _ (srcDev_direct c _ (by rw [rdiv]; omega) (by rw [rmod]; omega)) rfl rfl
  rw [e1]
  refine Fout_apply m (xp c) _ (yp c) _ ((srcDev_relay (xp c) _ ?_ ?_).trans (congrArg yp (xp_xp c))) rfl ?_
  · rw [rdiv]; omega
  · rw [rmod]; omega
  · show 512 * (c.val / 4 % 2) + _ = 512 * ((xp c).val / 4 % 2) + _
    rw [py]

/-- info: 'Cert.KernelProof.fw_content' depends on axioms: [propext, Classical.choice, Quot.sound] -/
#guard_msgs in #print axioms fw_content

end Cert.KernelProof

end
-- ==== Proof.KernelPay.lean ====
/-
  What each duty of the schedule hands over, as the entailments the transfer and signal rules ask for.

  A barrier signal to a peer carries the regions of the signaller's result buffer that the peer will write, at
  whatever they hold; a transfer's send duty carries its source rectangle back, unchanged; its receive duty
  carries the destination region at the contents the transfer leaves there, which agree with the device's final
  result on that region. The schedule names each region through the device that OWNS the buffer; a transfer
  names it through the device that WRITES it. The two namings differ by one application of an involution
  (`yp (yp c) = c`, `xp (xp c) = c`), which is all these lemmas have to undo.
-/
import proofs.«900641_g7700000000000642_dist_a2a_v7x_xyz2x2x4_y_m512_n512_f32_1_alg».proof.Proof.KernelBase
import proofs.«900641_g7700000000000642_dist_a2a_v7x_xyz2x2x4_y_m512_n512_f32_1_alg».proof.Proof.KernelRegions
import proofs.«900641_g7700000000000642_dist_a2a_v7x_xyz2x2x4_y_m512_n512_f32_1_alg».proof.Proof.KernelContents

noncomputable section

namespace Cert.KernelProof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix2)

variable {F : FTy → Type} [FloatOps F]

local notation "𝕄" => MT nD τ sig Unit (Elt F) ℕ UU ℕ

variable (m : (ℓ : Loc nD τ sig) → Buf (Elt F) ℓ) (ρ : Dev nD → PrngReg)

/-! ## A peer's landing regions, named through the device that writes them -/

theorem landYF_yp (c : Dev nD) (k : Fin 3) (f : Buf (Elt F) ((yp c : Thread nD τ).loc main_v1)) :
    landYF (F := F) (yp c) k f = ((yfDst c k).view.loc (yp c : Thread nD τ) ↦[(yfDst c k).view.set]{fullShare} f) := by
  unfold landYF; rw [yp_yp c]

theorem landYD_yp (c : Dev nD) (f : Buf (Elt F) ((yp c : Thread nD τ).loc main_v1)) :
    landYD (F := F) (yp c) f = ((ydDst c).view.loc (yp c : Thread nD τ) ↦[(ydDst c).view.set]{fullShare} f) := by
  unfold landYD; rw [yp_yp c]

theorem landFW_xp (c : Dev nD) (k : Fin 3) (f : Buf (Elt F) ((xp c : Thread nD τ).loc main_v1)) :
    landFW (F := F) (xp c) k f = ((fwV c k).view.loc (xp c : Thread nD τ) ↦[(fwV c k).view.set]{fullShare} f) := by
  unfold landFW; rw [xp_xp c]

/-! ## The barrier's two duties -/

/-- What `c` hands `yp c` with its barrier signal: the four regions of its own result that `yp c` will write. -/
theorem barPayY_give (c : Dev nD) (f : Buf (Elt F) ((c : Thread nD τ).loc main_v1)) :
    iprop(landYF (F := F) c 0 f ∗ landYF c 1 f ∗ landYF c 2 f ∗ landYD c f) ⊢ (sched m).payload (barCell (yp c)) 0 false := by
  show _ ⊢ barPayY (F := F) (yp c)
  unfold barPayY
  rw [yp_yp c]
  iintro H
  iexists f
  iexact H

/-- What `c` hands `xp c` with its barrier signal: the three regions of its own result that `xp c` will write. -/
theorem barPayX_give (c : Dev nD) (f : Buf (Elt F) ((c : Thread nD τ).loc main_v1)) :
    iprop(landFW (F := F) c 0 f ∗ landFW c 1 f ∗ landFW c 2 f) ⊢ (sched m).payload (barCell (xp c)) 0 true := by
  show _ ⊢ barPayX (F := F) (xp c)
  unfold barPayX
  rw [xp_xp c]
  iintro H
  iexists f
  iexact H

/-- What `c` receives from `yp c`'s signal, as the destinations of its own four transfers to `yp c`. -/
theorem barPayY_take (c : Dev nD) :
    barPayY (F := F) c ⊢ iprop(∃ f : Buf (Elt F) ((yp c : Thread nD τ).loc main_v1),
      ((yfDst c 0).view.loc (yp c : Thread nD τ) ↦[(yfDst c 0).view.set]{fullShare} f)
      ∗ ((yfDst c 1).view.loc (yp c : Thread nD τ) ↦[(yfDst c 1).view.set]{fullShare} f)
      ∗ ((yfDst c 2).view.loc (yp c : Thread nD τ) ↦[(yfDst c 2).view.set]{fullShare} f)
      ∗ ((ydDst c).view.loc (yp c : Thread nD τ) ↦[(ydDst c).view.set]{fullShare} f)) := by
  unfold barPayY
  iintro H
  icases H with ⟨%f, H⟩
  iexists f
  rw [landYF_yp, landYF_yp, landYF_yp, landYD_yp]
  iexact H

/-- What `c` receives from `xp c`'s signal, as the destinations of its own three forwards to `xp c`. -/
theorem barPayX_take (c : Dev nD) :
    barPayX (F := F) c ⊢ iprop(∃ f : Buf (Elt F) ((xp c : Thread nD τ).loc main_v1),
      ((fwV c 0).view.loc (xp c : Thread nD τ) ↦[(fwV c 0).view.set]{fullShare} f)
      ∗ ((fwV c 1).view.loc (xp c : Thread nD τ) ↦[(fwV c 1).view.set]{fullShare} f)
      ∗ ((fwV c 2).view.loc (xp c : Thread nD τ) ↦[(fwV c 2).view.set]{fullShare} f)) := by
  unfold barPayX
  iintro H
  icases H with ⟨%f, H⟩
  iexists f
  rw [landFW_xp, landFW_xp, landFW_xp]
  iexact H

/-! ## The local copy -/

theorem own_pay (c : Dev nD) (fd : Buf (Elt F) ((ownDst c).view.loc (c : Thread nD τ))) :
    iprop(((ownDst c).view.loc (c : Thread nD τ) ↦[(ownDst c).view.set]{fullShare}
        ((ownDst c).view.write (Elt F) fd ((ownSrc c).view.read (Elt F) (xin m c)) Finset.univ))
      ∗ ((ownSrc c).view.loc (c : Thread nD τ) ↦[(ownSrc c).view.set]{fullShare} xin m c))
      ⊢ (sched m).payload (dcell c jLoc) 0 false := by
  show _ ⊢ iprop(ownR c (Fout m c) ∗ srcOwn c (xin m c))
  unfold ownR srcOwn
  rw [region_congr (ownDst c) c _ _ (own_content m c fd)]

/-! ## The chunks and the direct stretch sent to `yp c` -/

theorem yf_pay_send (c : Dev nD) (k : Fin 3) :
    ((yfSrc c k).view.loc (c : Thread nD τ) ↦[(yfSrc c k).view.set]{fullShare} xin m c)
      ⊢ (sched m).payload (dcell c (jYfS k)) 0 false := by
  fin_cases k <;> exact .rfl

theorem yf_pay_recv (c : Dev nD) (k : Fin 3) (fd : Buf (Elt F) ((yfDst c k).view.loc (yp c : Thread nD τ))) :
    ((yfDst c k).view.loc (yp c : Thread nD τ) ↦[(yfDst c k).view.set]{fullShare}
        ((yfDst c k).view.write (Elt F) fd ((yfSrc c k).view.read (Elt F) (xin m c)) Finset.univ))
      ⊢ (sched m).payload (dcell (yp c) (jYfR k)) 0 false := by
  rw [region_congr (yfDst c k) (yp c) _ _ (yf_content m c k fd)]
  have h : (sched m).payload (dcell (yp c) (jYfR k)) 0 false = landYF (F := F) (yp c) k (Fout m (yp c)) := by
    fin_cases k <;> rfl
  rw [h, landYF_yp]

theorem yd_pay_send (c : Dev nD) :
    ((ydSrc c).view.loc (c : Thread nD τ) ↦[(ydSrc c).view.set]{fullShare} xin m c)
      ⊢ (sched m).payload (dcell c jYdS) 0 false :=
  .rfl

theorem yd_pay_recv (c : Dev nD) (fd : Buf (Elt F) ((ydDst c).view.loc (yp c : Thread nD τ))) :
    ((ydDst c).view.loc (yp c : Thread nD τ) ↦[(ydDst c).view.set]{fullShare}
        ((ydDst c).view.write (Elt F) fd ((ydSrc c).view.read (Elt F) (xin m c)) Finset.univ))
      ⊢ (sched m).payload (dcell (yp c) jYdR) 0 false := by
  rw [region_congr (ydDst c) (yp c) _ _ (yd_content m c fd)]
  show _ ⊢ landYD (F := F) (yp c) (Fout m (yp c))
  rw [landYD_yp]

/-! ## The chunks forwarded to `xp c` -/

theorem fw_pay_send (c : Dev nD) (k : Fin 3) :
    ((fwV c k).view.loc (c : Thread nD τ) ↦[(fwV c k).view.set]{fullShare} Fout m c)
      ⊢ (sched m).payload (dcell c (jFS k)) 0 false := by
  fin_cases k <;> exact .rfl

theorem fw_pay_recv (c : Dev nD) (k : Fin 3) (fd : Buf (Elt F) ((fwV c k).view.loc (xp c : Thread nD τ))) :
    ((fwV c k).view.loc (xp c : Thread nD τ) ↦[(fwV c k).view.set]{fullShare}
        ((fwV c k).view.write (Elt F) fd ((fwV c k).view.read (Elt F) (Fout m c)) Finset.univ))
      ⊢ (sched m).payload (dcell (xp c) (jFR k)) 0 false := by
  rw [region_congr (fwV c k) (xp c) _ _ (fw_content m c k fd)]
  have h : (sched m).payload (dcell (xp c) (jFR k)) 0 false = landFW (F := F) (xp c) k (Fout m (xp c)) := by
    fin_cases k <;> rfl
  rw [h, landFW_xp]

/-- info: 'Cert.KernelProof.own_pay' depends on axioms: [propext, Classical.choice, Quot.sound] -/
#guard_msgs in #print axioms own_pay

/-- info: 'Cert.KernelProof.fw_pay_recv' depends on axioms: [propext, Classical.choice, Quot.sound] -/
#guard_msgs in #print axioms fw_pay_recv

/-- info: 'Cert.KernelProof.yf_pay_recv' depends on axioms: [propext, Classical.choice, Quot.sound] -/
#guard_msgs in #print axioms yf_pay_recv

/-- info: 'Cert.KernelProof.yd_pay_recv' depends on axioms: [propext, Classical.choice, Quot.sound] -/
#guard_msgs in #print axioms yd_pay_recv

/-- info: 'Cert.KernelProof.barPayX_give' depends on axioms: [propext, Classical.choice, Quot.sound] -/
#guard_msgs in #print axioms barPayX_give

/-- info: 'Cert.KernelProof.barPayY_take' depends on axioms: [propext, Classical.choice, Quot.sound] -/
#guard_msgs in #print axioms barPayY_take

end Cert.KernelProof

end
-- ==== Proof.KernelEnds.lean ====
/-
  The end of a device's run, reassembled: the regions of the two buffers the body ends with, each region at its final
  contents, are the two whole buffers at theirs.
-/
import proofs.«900641_g7700000000000642_dist_a2a_v7x_xyz2x2x4_y_m512_n512_f32_1_alg».proof.Proof.KernelRegions
import proofs.«900641_g7700000000000642_dist_a2a_v7x_xyz2x2x4_y_m512_n512_f32_1_alg».proof.Proof.KernelSched

noncomputable section

namespace Cert.KernelProof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix2)

variable {F : FTy → Type} [FloatOps F]

local notation "𝕄" => MT nD τ sig Unit (Elt F) ℕ UU ℕ

variable (m : (ℓ : Loc nD τ sig) → Buf (Elt F) ℓ) (ρ : Dev nD → PrngReg)

/-- What a device holds after its last wait: the local copy's two regions; the sources of its transfers to `yp c` and the
    part of its argument no transfer reads, all unchanged; the three chunks it forwarded, the direct stretch and the three
    forwarded chunks it received, at the result's contents; its fifteen own counters at zero; and that it owes nothing. -/
def bodyEndFlat (c : Dev nD) : sProp 𝕄 := iprop((ownR c (Fout m c) ∗ srcOwn c (xin m c)) ∗ (srcYF c 0 (xin m c) ∗ srcYF c 1 (xin m c) ∗ srcYF c 2 (xin m c)) ∗ srcYD c (xin m c) ∗ argRest c (xin m c) ∗ (fwSrcR c 0 (Fout m c) ∗ fwSrcR c 1 (Fout m c) ∗ fwSrcR c 2 (Fout m c)) ∗ landYD c (Fout m c) ∗ (landFW c 0 (Fout m c) ∗ landFW c 1 (Fout m c) ∗ landFW c 2 (Fout m c)) ∗ ownZero c ∗ ∃ W, owes (c : Thread nD τ) 0 W)

/-- The regions rejoin: the argument buffer whole and unchanged, the result buffer whole at the result's contents. -/
theorem post_assemble (c : Dev nD) : bodyEndFlat m c ⊢ bodyPost m c := by
  unfold bodyEndFlat bodyPost Φ₁
  rw [← landYF_eq c 0, ← landYF_eq c 1, ← landYF_eq c 2]
  iintro ⟨⟨HownR, HsrcOwn⟩, ⟨Hy0, Hy1, Hy2⟩, Hyd, Hrest, ⟨Hf0, Hf1, Hf2⟩, Hlyd, ⟨Hl0, Hl1, Hl2⟩, Hz, Ho⟩
  isplitr [Ho]
  · isplitl [HsrcOwn Hy0 Hy1 Hy2 Hyd Hrest]
    · iapply (arg_split (F := F) c (xin m c)).2
      isplitl [HsrcOwn]; · iexact HsrcOwn
      isplitl [Hy0]; · iexact Hy0
      isplitl [Hy1]; · iexact Hy1
      isplitl [Hy2]; · iexact Hy2
      isplitl [Hyd]; · iexact Hyd
      iexact Hrest
    isplitr [Hz]
    · iapply (out_split (F := F) c (Fout m c)).2
      isplitl [HownR]; · iexact HownR
      isplitl [Hf0]; · iexact Hf0
      isplitl [Hf1]; · iexact Hf1
      isplitl [Hf2]; · iexact Hf2
      isplitl [Hlyd]; · iexact Hlyd
      isplitl [Hl0]; · iexact Hl0
      isplitl [Hl1]; · iexact Hl1
      iexact Hl2
    · iexact Hz
  · iexact Ho

/-- info: 'Cert.KernelProof.post_assemble' depends on axioms: [propext, Classical.choice, Quot.sound] -/
#guard_msgs in #print axioms post_assemble

end Cert.KernelProof

end
-- ==== Proof.KernelBody.lean ====
/-
  One device's kernel body, stepped from the start assertion to the end assertion.

  The body is a straight line of twenty-seven effects: two barrier signals, the barrier wait, the local copy, four
  transfers to `yp c`, three waits each followed by a forward to `xp c`, twelve further waits. Each effect is one rule
  of the rounds discipline at the schedule's cells: a signal pays a duty of a peer's barrier cell with the regions that
  peer will write; the barrier wait returns the regions of the peers' results this device writes; a transfer pays the send
  duty of an own cell with its source region and the receive duty of the destination's cell with the region at its final
  contents; a wait on an own cell returns that cell's payload. At the end the fifteen own cells are closed at zero and both
  buffers are joined from their regions.
-/
import proofs.«900641_g7700000000000642_dist_a2a_v7x_xyz2x2x4_y_m512_n512_f32_1_alg».proof.Proof.KernelSched
import proofs.«900641_g7700000000000642_dist_a2a_v7x_xyz2x2x4_y_m512_n512_f32_1_alg».proof.Proof.KernelRegions
import proofs.«900641_g7700000000000642_dist_a2a_v7x_xyz2x2x4_y_m512_n512_f32_1_alg».proof.Proof.KernelPay
import proofs.«900641_g7700000000000642_dist_a2a_v7x_xyz2x2x4_y_m512_n512_f32_1_alg».proof.Proof.KernelEnds

noncomputable section

namespace Cert.KernelProof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The ghost state, opened -/

omit [FloatOps F] in
theorem bigSep_fin3 (Φ : Fin 3 → sProp 𝕄) : bigSep Finset.univ Φ = iprop(Φ 0 ∗ Φ 1 ∗ Φ 2) := by
  rw [bigSep_univ_eq_bigSepL [0, 1, 2] (by decide) (by decide)]; rfl

omit [FloatOps F] in
instance records_persistent (K : Dev nD × Fin 16 → ℕ) : BI.Persistent (records (F := F) m K) := by unfold records; infer_instance

omit [FloatOps F] in
/-- A DMA cell's invariant and its round 0, out of the records. -/
theorem records_dma (K : Dev nD × Fin 16 → ℕ) (d : Dev nD) (j : Fin 15) :
    records (F := F) m K ⊢ iprop(cellInv ER (sched m) (K (d, j.castSucc)) (dcell d j) ∗ reached ER (dcell d j) 0) := by
  have hk : kcell (d, j.castSucc) = dcell d j := by
    show ((d : Thread nD τ), csem j.castSucc) = _
    unfold csem; rw [dif_pos (by exact j.isLt)]; rfl
  unfold records
  rw [← hk]
  exact BIClass.sep_mono (bigSep_elim (Finset.mem_univ (d, j.castSucc))) (bigSep_elim (Finset.mem_univ (d, j.castSucc)))

omit [FloatOps F] in
/-- A barrier cell's invariant and its round 0, out of the records. -/
theorem records_bar (K : Dev nD × Fin 16 → ℕ) (d : Dev nD) :
    records (F := F) m K ⊢ iprop(cellInv ER (sched m) (K (d, Fin.last 15)) (barCell d) ∗ reached ER (barCell d) 0) := by
  unfold records
  exact BIClass.sep_mono (bigSep_elim (Finset.mem_univ (d, Fin.last 15))) (bigSep_elim (Finset.mem_univ (d, Fin.last 15)))

/-! ## The payload table, cell by cell -/

omit [FloatOps F] in
theorem dmaPay_loc (c : Dev nD) : dmaPay m c jLoc = iprop(ownR c (Fout m c) ∗ srcOwn c (xin m c)) := rfl
omit [FloatOps F] in
theorem dmaPay_yfS (c : Dev nD) (k : Fin 3) : dmaPay m c (jYfS k) = srcYF c k (xin m c) := by fin_cases k <;> rfl
omit [FloatOps F] in
theorem dmaPay_yfR (c : Dev nD) (k : Fin 3) : dmaPay m c (jYfR k) = landYF c k (Fout m c) := by fin_cases k <;> rfl
omit [FloatOps F] in
theorem dmaPay_ydS (c : Dev nD) : dmaPay m c jYdS = srcYD c (xin m c) := rfl
omit [FloatOps F] in
theorem dmaPay_ydR (c : Dev nD) : dmaPay m c jYdR = landYD c (Fout m c) := rfl
omit [FloatOps F] in
theorem dmaPay_fS (c : Dev nD) (k : Fin 3) : dmaPay m c (jFS k) = fwSrcR c k (Fout m c) := by fin_cases k <;> rfl
omit [FloatOps F] in
theorem dmaPay_fR (c : Dev nD) (k : Fin 3) : dmaPay m c (jFR k) = landFW c k (Fout m c) := by fin_cases k <;> rfl

/-! ## The step lemmas -/

/-- A remote copy from `c` to `n` (the printed device word `n₀`), paying the send duty of `c`'s cell `jS` and the receive
    duty of `n`'s cell `jR`. -/
theorem step_send {s : Shape} (K : Dev nD × Fin 16 → ℕ) (c n n₀ : Dev nD) (hn : n₀ = n) (src dst : Memref sig .tc .hbm s .f32) (jS jR : Fin 15)
    (N : ℕ) (hN : dst.view.dmaCredit = N) (hS : dmaAmt jS = N) (hR : dmaAmt jR = N)
    (fs : Buf (Elt F) (src.view.loc (c : Thread nD τ))) (fd : Buf (Elt F) (dst.view.loc (n : Thread nD τ)))
    (O : CellTallies nD τ sig Unit)
    (hpay₁ : (src.view.loc (c : Thread nD τ) ↦[src.view.set]{fullShare} fs : sProp 𝕄) ⊢ (sched m).payload (dcell c jS) 0 false)
    (hpay₂ : (dst.view.loc (n : Thread nD τ) ↦[dst.view.set]{fullShare} (dst.view.write (Elt F) fd (src.view.read (Elt F) fs) Finset.univ) : sProp 𝕄)
      ⊢ (sched m).payload (dcell n jR) 0 false)
    {hsc : (dst : Memref sig (Dev.tc n₀ : Thread nD τ).2.kind .hbm s .f32).view.ref.isScScratch = false}
    {hsrc : src.view.WordExact} {hdst : dst.view.WordExact}
    {hsem : DmaTarget.Typed .hbm (.dma (jR : DmaSem sig)) (.remote (Dev.tc n₀ : Thread nD τ) dst (.dma (jS : DmaSem sig)) hsc)}
    {α : Type} {Q : α → sProp 𝕄} {k : PUnit → Prog (TpuEff nD τ sig (Elt F) Λ₀ .tc) α} :
    iprop(records m K
        ∗ (src.view.loc (c : Thread nD τ) ↦[src.view.set]{fullShare} fs) ∗ (dst.view.loc (n : Thread nD τ) ↦[dst.view.set]{fullShare} fd)
        ∗ (∃ W, owes (c : Thread nD τ) (O + tallyAt (dcell n jR) () N) W)
        ∗ dutyTok ER (dcell c jS) 0 false ∗ dutyTok ER (dcell n jR) 0 false)
      ⊢ iprop(((cred (tallyAt (dcell c jS) () N) ∗ ∃ W, owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.remote (Dev.tc n₀ : Thread nD τ) dst (.dma (jS : DmaSem sig)) hsc) (.dma (jR : DmaSem sig)) hsrc hdst hsem) k) Q) := by
  subst hn
  iintro ⟨#Hrec, Hs, Hd, ⟨%W, HO⟩, Ht1, Ht2⟩ Hk
  ihave X := (records_dma m K c jS) $$ Hrec; icases X with ⟨#I1, #R1⟩
  ihave X := (records_dma m K n₀ jR) $$ Hrec; icases X with ⟨#I2, #R2⟩
  iapply (Rounds.wp_send_pointsTo 𝒱₀ ER (sched m) (c : Thread nD τ) none (c' := (n₀ : Thread nD τ)) (src := src) (dst := dst)
    (sS := .dma (jS : DmaSem sig)) (sem := .dma (jR : DmaSem sig)) (q := fullShare) (fs := fs) (fd := fd)
    (κ₁ := K (c, jS.castSucc)) (κ₂ := K (n₀, jR.castSucc)) (r₁ := 0) (r₂ := 0) (d₁ := false) (d₂ := false)
    (false_mem_duties_dma m c jS) (false_mem_duties_dma m n₀ jR)
    () () N (show dst.view.amount (.dma (jR : DmaSem sig)) = N from hN) ((amount_dma m c jS false).trans hS) ((amount_dma m n₀ jR false).trans hR) O rfl (W := W)
    hpay₁ hpay₂) $$ [Hs Hd HO Ht1 Ht2]
  · isplitr; · iexact I1
    isplitr; · iexact I2
    isplitl [Hs]; · iexact Hs
    isplitl [Hd]; · iexact Hd
    isplitl [HO]; · iexact HO
    isplitl [Ht1]; · iexact Ht1
    isplitr; · iexact R1
    isplitl [Ht2]; · iexact Ht2
    iexact R2
  iintro ⟨Hc, HO⟩
  iapply Hk
  isplitl [Hc]; · iexact Hc
  iexists W; iexact HO

/-- The local copy, paying the one duty of `c`'s own cell `j`. -/
theorem step_copy {s : Shape} (K : Dev nD × Fin 16 → ℕ) (c : Dev nD) (src dst : Memref sig .tc .hbm s .f32) (j : Fin 15)
    (N : ℕ) (hN : dst.view.dmaCredit = N) (hA : dmaAmt j = N)
    (fs : Buf (Elt F) (src.view.loc (c : Thread nD τ))) (fd : Buf (Elt F) (dst.view.loc (c : Thread nD τ)))
    (hpay : iprop((dst.view.loc (c : Thread nD τ) ↦[dst.view.set]{fullShare} (dst.view.write (Elt F) fd (src.view.read (Elt F) fs) Finset.univ))
              ∗ (src.view.loc (c : Thread nD τ) ↦[src.view.set]{fullShare} fs) : sProp 𝕄) ⊢ (sched m).payload (dcell c j) 0 false)
    {hsrc : src.view.WordExact} {hdst : dst.view.WordExact}
    {hsem : DmaTarget.Typed .hbm (.dma (j : DmaSem sig)) (DmaTarget.here dst : DmaTarget nD τ sig (Dev.tc c : Thread nD τ).2 .hbm s .f32)}
    {α : Type} {Q : α → sProp 𝕄} {k : PUnit → Prog (TpuEff nD τ sig (Elt F) Λ₀ .tc) α} :
    iprop(records m K ∗ (src.view.loc (c : Thread nD τ) ↦[src.view.set]{fullShare} fs)
        ∗ (dst.view.loc (c : Thread nD τ) ↦[dst.view.set]{fullShare} fd)
        ∗ dutyTok ER (dcell c j) 0 false)
      ⊢ iprop((cred (tallyAt (dcell c j) () N) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.here dst) (.dma (j : DmaSem sig)) hsrc hdst hsem) k) Q) := by
  iintro ⟨#Hrec, Hs, Hd, Ht⟩ Hk
  ihave X := (records_dma m K c j) $$ Hrec; icases X with ⟨#I1, #R1⟩
  iapply (Rounds.wp_copy_pointsTo 𝒱₀ ER (sched m) (c : Thread nD τ) none (src := src) (dst := dst) (sem := .dma (j : DmaSem sig)) (q := fullShare) (fs := fs) (fd := fd)
    (κ := K (c, j.castSucc)) (r := 0) (d := false) (false_mem_duties_dma m c j) () N (show dst.view.amount (.dma (j : DmaSem sig)) = N from hN) ((amount_dma m c j false).trans hA)
    hpay) $$ [Hs Hd Ht]
  · isplitr; · iexact I1
    isplitl [Hs]; · iexact Hs
    isplitl [Hd]; · iexact Hd
    isplitl [Ht]; · iexact Ht
    iexact R1
  iexact Hk

/-- A wait on `c`'s own DMA cell `j` for its whole round: the duty's payload comes back. -/
theorem step_wait {sp sp' : Space} {s s' : Shape} {e e' : EltTy} (K : Dev nD × Fin 16 → ℕ) (c : Dev nD) (j : Fin 15) (N : ℕ) (hA : dmaAmt j = N)
    {src : Memref sig .tc sp' s' e'} {κ' : Kind} {dst : Memref sig κ' sp s e} (hN : dst.view.dmaCredit = N)
    {hsrc : src.view.WordExact} {hdst : dst.view.WordExact}
    (O : CellTallies nD τ sig Unit)
    {α : Type} {Q : α → sProp 𝕄} {k : PUnit → Prog (TpuEff nD τ sig (Elt F) Λ₀ .tc) α} :
    iprop(records m K ∗ cred (tallyAt (dcell c j) () N) ∗ (∃ W, owes (c : Thread nD τ) O W)
        ∗ MayWait (c : Thread nD τ) (.dma (j : DmaSem sig)) () O ∗ atPos ER (dcell c j) 0 ∅ 0)
      ⊢ iprop((((∃ W, owes (c : Thread nD τ) O W) ∗ atPos ER (dcell c j) 1 ∅ 0 ∗ dmaPay m c j)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 (j : DmaSem sig) src dst hsrc hdst) k) Q) := by
  subst hN
  iintro ⟨#Hrec, Hc, ⟨%W, HO⟩, HM, Hat⟩ Hk
  ihave X := (records_dma m K c j) $$ Hrec; icases X with ⟨#I1, -⟩
  iapply (Rounds.wp_wait_rest_token 𝒱₀ ER (sched m) (c : Thread nD τ) none (κ := K (c, j.castSucc))
      (wpE_waitDma2_eq 𝒱₀ (c : Thread nD τ) none Set.univ) (Set.mem_univ _) () (O := O) (W := W) (R := 0) (m := 0) (T := ∅)
      (by rw [Nat.zero_add, expect_dma, hA])) $$ [Hc HO HM Hat]
  · isplitr; · iexact I1
    isplitl [Hc]; · iexact Hc
    isplitl [HO]; · iexact HO
    isplitl [HM]; · iexact HM
    iexact Hat
  iintro ⟨HO, Hat, -, Hpay⟩
  ihave Hp := (Entails.of_eq (rest_dma m c j)) $$ Hpay
  iapply Hk
  isplitl [HO]; · iexists _; iexact HO
  isplitl [Hat]; · iexact Hat
  iexact Hp

/-- Closing `c`'s own DMA cell `j` after its one round. -/
theorem step_close (K : Dev nD × Fin 16 → ℕ) (c : Dev nD) (j : Fin 15) :
    iprop(records m K ∗ atPos ER (dcell c j) 1 ∅ 0) ⊢ iprop(|={Set.univ}=> semVal (dcell c j) 0) := by
  iintro ⟨#Hrec, Hat⟩
  ihave X := (records_dma m K c j) $$ Hrec; icases X with ⟨#I1, -⟩
  iapply (Rounds.cell_close ER (sched m) (Set.mem_univ (K (c, j.castSucc))) (fun h => h) (R := 1) (duties_later m (dcell c j)))
  isplitr; · iexact I1
  iexact Hat

/-- A barrier signal to peer `n`, paying duty `d` of its barrier cell with that duty's payload. -/
theorem step_signal (K : Dev nD × Fin 16 → ℕ) (c n : Dev nD) (d : Bool) (O : CellTallies nD τ sig Unit) {k' : ℕ} (hk' : 1 = k')
    {α : Type} {Q : α → sProp 𝕄} {k : PUnit → Prog (TpuEff nD τ sig (Elt F) Λ₀ .tc) α} :
    iprop(records m K ∗ (∃ W, owes (c : Thread nD τ) (O + tallyAt (barCell n) () 1) W)
        ∗ dutyTok ER (barCell n) 0 d ∗ (sched m).payload (barCell n) 0 d)
      ⊢ iprop(((∃ W, owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (n : Thread nD τ) barS k') k) Q) := by
  subst hk'
  iintro ⟨#Hrec, ⟨%W, HO⟩, Ht, Hp⟩ Hk
  ihave X := (records_bar m K n) $$ Hrec; icases X with ⟨#I1, #R1⟩
  iapply (Rounds.wp_signal 𝒱₀ ER (sched m) (c : Thread nD τ) none (dst := (n : Thread nD τ)) (sem := barS) (κ := K (n, Fin.last 15)) (r := 0) (d := d)
      (by rw [duties_bar]; exact Finset.mem_univ _) (amount_bar m n d) () O rfl (W := W)) $$ [HO Ht Hp]
  · isplitr; · iexact I1
    isplitl [HO]; · iexact HO
    isplitl [Ht]; · iexact Ht
    isplitl [Hp]; · iexact Hp
    iexact R1
  iintro HO
  iapply Hk
  iexists W; iexact HO

/-- The barrier wait for both units: both peers' payloads come back. -/
theorem step_barwait (K : Dev nD × Fin 16 → ℕ) (c : Dev nD) (O : CellTallies nD τ sig Unit) {k' : ℕ} (hk' : 2 = k')
    {α : Type} {Q : α → sProp 𝕄} {k : PUnit → Prog (TpuEff nD τ sig (Elt F) Λ₀ .tc) α} :
    iprop(records m K ∗ cred (tallyAt (barCell c) () 2) ∗ (∃ W, owes (c : Thread nD τ) O W)
        ∗ MayWait (c : Thread nD τ) (.reg barS) () O ∗ atPos ER (barCell c) 0 ∅ 0)
      ⊢ iprop((((∃ W, owes (c : Thread nD τ) O W) ∗ barPayY c ∗ barPayX c)
            -∗ wp frame (wpE (defs₀ (F := F)) 𝒱₀ (c : Thread nD τ) none) Set.univ (k ⟨⟩) Q)
          -∗ wp frame (wpE (defs₀ (F := F)) 𝒱₀ (c : Thread nD τ) none) Set.univ (.op (.semWait barS k') k) Q) := by
  subst hk'
  iintro ⟨#Hrec, Hc, ⟨%W, HO⟩, HM, Hat⟩ Hk
  ihave X := (records_bar m K c) $$ Hrec; icases X with ⟨#I1, -⟩
  iapply (Rounds.wp_wait_rest_token 𝒱₀ ER (sched m) (c : Thread nD τ) none (κ := K (c, Fin.last 15))
      (wpE_semWait_eq 𝒱₀ (c : Thread nD τ) none Set.univ) (Set.mem_univ _) () (O := O) (W := W) (R := 0) (m := 0) (T := ∅)
      (by rw [expect_bar])) $$ [Hc HO HM Hat]
  · isplitr; · iexact I1
    isplitl [Hc]; · iexact Hc
    isplitl [HO]; · iexact HO
    isplitl [HM]; · iexact HM
    iexact Hat
  iintro ⟨HO, -, -, Hpay⟩
  ihave Hp := (Entails.of_eq (rest_bar m c)) $$ Hpay
  icases Hp with ⟨HpY, HpX⟩
  iapply Hk
  isplitl [HO]; · iexists _; iexact HO
  isplitl [HpY]; · iexact HpY
  iexact HpX

/-! ## The ghost state, by name -/

omit [FloatOps F] in
theorem positions_named (c : Dev nD) : positions (F := F) c = iprop(atPos ER (dcell c (jLoc)) 0 ∅ 0 ∗ atPos ER (dcell c (jYfS 0)) 0 ∅ 0 ∗ atPos ER (dcell c (jYfS 1)) 0 ∅ 0 ∗ atPos ER (dcell c (jYfS 2)) 0 ∅ 0 ∗ atPos ER (dcell c (jYfR 0)) 0 ∅ 0 ∗ atPos ER (dcell c (jYfR 1)) 0 ∅ 0 ∗ atPos ER (dcell c (jYfR 2)) 0 ∅ 0 ∗ atPos ER (dcell c (jYdS)) 0 ∅ 0 ∗ atPos ER (dcell c (jYdR)) 0 ∅ 0 ∗ atPos ER (dcell c (jFS 0)) 0 ∅ 0 ∗ atPos ER (dcell c (jFS 1)) 0 ∅ 0 ∗ atPos ER (dcell c (jFS 2)) 0 ∅ 0 ∗ atPos ER (dcell c (jFR 0)) 0 ∅ 0 ∗ atPos ER (dcell c (jFR 1)) 0 ∅ 0 ∗ atPos ER (dcell c (jFR 2)) 0 ∅ 0 ∗ atPos ER (barCell c) 0 ∅ 0) := by
  unfold positions
  rw [bigSep_univ_eq_bigSepL [0, 1, 2, 3, 4, 5, 6, 7, 8, 9, 10, 11, 12, 13, 14, 15] (by decide) (by decide)]
  rfl

omit [FloatOps F] in
theorem ownZero_named (c : Dev nD) : ownZero (F := F) c = iprop(semVal (dcell c (jLoc)) 0 ∗ semVal (dcell c (jYfS 0)) 0 ∗ semVal (dcell c (jYfS 1)) 0 ∗ semVal (dcell c (jYfS 2)) 0 ∗ semVal (dcell c (jYfR 0)) 0 ∗ semVal (dcell c (jYfR 1)) 0 ∗ semVal (dcell c (jYfR 2)) 0 ∗ semVal (dcell c (jYdS)) 0 ∗ semVal (dcell c (jYdR)) 0 ∗ semVal (dcell c (jFS 0)) 0 ∗ semVal (dcell c (jFS 1)) 0 ∗ semVal (dcell c (jFS 2)) 0 ∗ semVal (dcell c (jFR 0)) 0 ∗ semVal (dcell c (jFR 1)) 0 ∗ semVal (dcell c (jFR 2)) 0) := by
  unfold ownZero
  rw [bigSep_univ_eq_bigSepL [0, 1, 2, 3, 4, 5, 6, 7, 8, 9, 10, 11, 12, 13, 14] (by decide) (by decide)]
  rfl

/-! ## The body -/

set_option maxHeartbeats 3200000 in
/-- One device's body, stepped from `bodyPre` to `bodyPost`: one rule per effect, in program order. -/
theorem sound_body (K : Dev nD × Fin 16 → ℕ) (c : Dev nD) (Kt : PUnit → sProp 𝕄) :
    iprop(bodyPre m K c ∗ (bodyPost m c -∗ Kt ⟨⟩)) ⊢ wp frame (wpE (defs₀ (F := F)) 𝒱₀ c none) Set.univ
      (cc0_body (Memref.whole main_arg0) (Memref.isWhole_whole _) (Memref.whole main_v1) (Memref.isWhole_whole _)
        cc0_scratch0 cc0_scratch1 cc0_scratch2 cc0_scratch3 cc0_scratch4 cc0_scratch5 cc0_scratch6) Kt := by
  simp only [cc0_body_eq_skeleton]; unfold cc0_body_skel
  simp only [k0_part1_eq_skeleton, k0_part2_eq_skeleton, k0_part3_eq_skeleton, k0_part4_eq_skeleton, k0_part5_eq_skeleton,
    k0_part6_eq_skeleton, k0_part7_eq_skeleton]
  unfold k0_part1_skel k0_part2_skel k0_part3_skel k0_part4_skel k0_part5_skel k0_part6_skel k0_part7_skel
  simp only [semSignalWord, semWaitWord, Prog.lift, Prog.bind_op, Prog.bind_ret, Prog.pure_eq_ret, wp_deviceId]
  simp only [dev1_eq c, dev2_eq c]
  unfold bodyPre ghost payToks startCreds
  rw [positions_named]
  simp only [bigSep_fin3]
  iintro ⟨⟨⟨#Hrec, ⟨PL, PyS0, PyS1, PyS2, PyR0, PyR1, PyR2, PdS, PdR, PfS0, PfS1, PfS2, PfR0, PfR1, PfR2, PB⟩,
      ⟨TbY, TbX, ⟨TyR0, TyR1, TyR2⟩, TdR, ⟨TfR0, TfR1, TfR2⟩, TL, ⟨TyS0, TyS1, TyS2⟩, TdS, ⟨TfS0, TfS1, TfS2⟩⟩⟩,
      ⟨CB, ⟨CyR0, CyR1, CyR2⟩, CdR, ⟨CfR0, CfR1, CfR2⟩⟩, #Hlev, Harg, Hout, HO⟩, Hk⟩
  -- both whole buffers, by region
  ihave Hout := (out_split c (vin m c)).1 $$ Hout
  icases Hout with ⟨Hown, Ly0, Ly1, Ly2, Lyd, Lf0, Lf1, Lf2⟩
  ihave Harg := (arg_split c (xin m c)).1 $$ Harg
  icases Harg with ⟨Sown, Sy0, Sy1, Sy2, Syd, Srest⟩
  -- the signal to `yp c`: the four regions it will write
  unfold O₀
  iapply (step_signal m K c (yp c) false (Oh c) rfl) $$ [HO TbY Ly0 Ly1 Ly2 Lyd]
  · isplitr; · iexact Hrec
    isplitl [HO]; · iexact HO
    isplitl [TbY]; · iexact TbY
    iapply (barPayY_give m c (vin m c))
    isplitl [Ly0]; · iexact Ly0
    isplitl [Ly1]; · iexact Ly1
    isplitl [Ly2]; · iexact Ly2
    iexact Lyd
  iintro HO
  -- the signal to `xp c`: the three regions it will write
  unfold Oh
  iapply (step_signal m K c (xp c) true (Og c) rfl) $$ [HO TbX Lf0 Lf1 Lf2]
  · isplitr; · iexact Hrec
    isplitl [HO]; · iexact HO
    isplitl [TbX]; · iexact TbX
    iapply (barPayX_give m c (vin m c))
    isplitl [Lf0]; · iexact Lf0
    isplitl [Lf1]; · iexact Lf1
    iexact Lf2
  iintro HO
  -- the barrier wait: the seven regions of the peers' results this device writes
  iapply (step_barwait m K c (Og c) rfl) $$ [CB HO PB]
  · isplitr; · iexact Hrec
    isplitl [CB]; · iexact CB
    isplitl [HO]; · iexact HO
    isplitr; · iapply (mayWait_bar c); iexact Hlev
    iexact PB
  iintro ⟨HO, HpY, HpX⟩
  ihave HpY := (barPayY_take c) $$ HpY
  icases HpY with ⟨%fy, Dy0, Dy1, Dy2, Dyd⟩
  ihave HpX := (barPayX_take c) $$ HpX
  icases HpX with ⟨%fx, Df0, Df1, Df2⟩
  -- the local copy
  iapply (step_copy m K c (ownSrc c) (ownDst c) jLoc N512 rfl dmaAmt_loc (xin m c) (vin m c) (own_pay m c (vin m c))) $$ [Sown Hown TL]
  · isplitr; · iexact Hrec
    isplitl [Sown]; · unfold srcOwn; iexact Sown
    isplitl [Hown]; · unfold ownR; iexact Hown
    iexact TL
  iintro CL
  -- chunk 0 to `yp c`
  unfold Og
  iapply (step_send m K c (yp c) _ (dev3_eq c) (yfSrc c 0) (yfDst c 0) (jYfS 0) (jYfR 0) N64 rfl (dmaAmt_yfS 0) (dmaAmt_yfR 0)
      (xin m c) fy (Of c) (yf_pay_send m c 0) (yf_pay_recv m c 0 fy)) $$ [Sy0 Dy0 HO TyS0 TyR0]
  · isplitr; · iexact Hrec
    isplitl [Sy0]; · unfold srcYF; iexact Sy0
    isplitl [Dy0]; · iexact Dy0
    isplitl [HO]; · iexact HO
    isplitl [TyS0]; · iexact TyS0
    iexact TyR0
  iintro ⟨CyS0, HO⟩
  -- chunk 1 to `yp c`
  unfold Of
  iapply (step_send m K c (yp c) _ (dev4_eq c) (yfSrc c 1) (yfDst c 1) (jYfS 1) (jYfR 1) N64 rfl (dmaAmt_yfS 1) (dmaAmt_yfR 1)
      (xin m c) fy (Oe c) (yf_pay_send m c 1) (yf_pay_recv m c 1 fy)) $$ [Sy1 Dy1 HO TyS1 TyR1]
  · isplitr; · iexact Hrec
    isplitl [Sy1]; · unfold srcYF; iexact Sy1
    isplitl [Dy1]; · iexact Dy1
    isplitl [HO]; · iexact HO
    isplitl [TyS1]; · iexact TyS1
    iexact TyR1
  iintro ⟨CyS1, HO⟩
  -- chunk 2 to `yp c`
  unfold Oe
  iapply (step_send m K c (yp c) _ (dev5_eq c) (yfSrc c 2) (yfDst c 2) (jYfS 2) (jYfR 2) N64 rfl (dmaAmt_yfS 2) (dmaAmt_yfR 2)
      (xin m c) fy (Od c) (yf_pay_send m c 2) (yf_pay_recv m c 2 fy)) $$ [Sy2 Dy2 HO TyS2 TyR2]
  · isplitr; · iexact Hrec
    isplitl [Sy2]; · unfold srcYF; iexact Sy2
    isplitl [Dy2]; · iexact Dy2
    isplitl [HO]; · iexact HO
    isplitl [TyS2]; · iexact TyS2
    iexact TyR2
  iintro ⟨CyS2, HO⟩
  -- the direct stretch to `yp c`
  unfold Od
  iapply (step_send m K c (yp c) _ (dev6_eq c) (ydSrc c) (ydDst c) jYdS jYdR N128 rfl dmaAmt_ydS dmaAmt_ydR
      (xin m c) fy (Oc c) (yd_pay_send m c) (yd_pay_recv m c fy)) $$ [Syd Dyd HO TdS TdR]
  · isplitr; · iexact Hrec
    isplitl [Syd]; · unfold srcYD; iexact Syd
    isplitl [Dyd]; · iexact Dyd
    isplitl [HO]; · iexact HO
    isplitl [TdS]; · iexact TdS
    iexact TdR
  iintro ⟨CdS, HO⟩
  -- the wait for chunk 0 from `yp c`
  iapply (step_wait m K c (jYfR 0) N64 (dmaAmt_yfR 0) (dst := yfDst c 0) rfl (Oc c)) $$ [CyR0 HO PyR0]
  · isplitr; · iexact Hrec
    isplitl [CyR0]; · iexact CyR0
    isplitl [HO]; · iexact HO
    isplitr; · iapply (mayWait_yfR0 c); iexact Hlev
    iexact PyR0
  iintro ⟨HO, PyR0, Gy0⟩
  ihave Gy0 := (Entails.of_eq ((dmaPay_yfR m c 0).trans (landYF_eq c 0 _))) $$ Gy0
  -- chunk 0 forwarded to `xp c`
  unfold Oc
  iapply (step_send m K c (xp c) _ (dev7_eq c) (fwV c 0) (fwV c 0) (jFS 0) (jFR 0) N64 rfl (dmaAmt_fS 0) (dmaAmt_fR 0)
      (Fout m c) fx (Ob c) (fw_pay_send m c 0) (fw_pay_recv m c 0 fx)) $$ [Gy0 Df0 HO TfS0 TfR0]
  · isplitr; · iexact Hrec
    isplitl [Gy0]; · unfold fwSrcR; iexact Gy0
    isplitl [Df0]; · iexact Df0
    isplitl [HO]; · iexact HO
    isplitl [TfS0]; · iexact TfS0
    iexact TfR0
  iintro ⟨CfS0, HO⟩
  -- the wait for chunk 1 from `yp c`
  iapply (step_wait m K c (jYfR 1) N64 (dmaAmt_yfR 1) (dst := yfDst c 1) rfl (Ob c)) $$ [CyR1 HO PyR1]
  · isplitr; · iexact Hrec
    isplitl [CyR1]; · iexact CyR1
    isplitl [HO]; · iexact HO
    isplitr; · iapply (mayWait_yfR1 c); iexact Hlev
    iexact PyR1
  iintro ⟨HO, PyR1, Gy1⟩
  ihave Gy1 := (Entails.of_eq ((dmaPay_yfR m c 1).trans (landYF_eq c 1 _))) $$ Gy1
  -- chunk 1 forwarded to `xp c`
  unfold Ob
  iapply (step_send m K c (xp c) _ (dev8_eq c) (fwV c 1) (fwV c 1) (jFS 1) (jFR 1) N64 rfl (dmaAmt_fS 1) (dmaAmt_fR 1)
      (Fout m c) fx (Oa c) (fw_pay_send m c 1) (fw_pay_recv m c 1 fx)) $$ [Gy1 Df1 HO TfS1 TfR1]
  · isplitr; · iexact Hrec
    isplitl [Gy1]; · unfold fwSrcR; iexact Gy1
    isplitl [Df1]; · iexact Df1
    isplitl [HO]; · iexact HO
    isplitl [TfS1]; · iexact TfS1
    iexact TfR1
  iintro ⟨CfS1, HO⟩
  -- the wait for chunk 2 from `yp c`
  iapply (step_wait m K c (jYfR 2) N64 (dmaAmt_yfR 2) (dst := yfDst c 2) rfl (Oa c)) $$ [CyR2 HO PyR2]
  · isplitr; · iexact Hrec
    isplitl [CyR2]; · iexact CyR2
    isplitl [HO]; · iexact HO
    isplitr; · iapply (mayWait_yfR2 c); iexact Hlev
    iexact PyR2
  iintro ⟨HO, PyR2, Gy2⟩
  ihave Gy2 := (Entails.of_eq ((dmaPay_yfR m c 2).trans (landYF_eq c 2 _))) $$ Gy2
  -- chunk 2 forwarded to `xp c`
  rw [show Oa c = 0 + tallyAt (dcell (xp c) (jFR 2)) () N64 from (zero_add _).symm]
  iapply (step_send m K c (xp c) _ (dev9_eq c) (fwV c 2) (fwV c 2) (jFS 2) (jFR 2) N64 rfl (dmaAmt_fS 2) (dmaAmt_fR 2)
      (Fout m c) fx (0) (fw_pay_send m c 2) (fw_pay_recv m c 2 fx)) $$ [Gy2 Df2 HO TfS2 TfR2]
  · isplitr; · iexact Hrec
    isplitl [Gy2]; · unfold fwSrcR; iexact Gy2
    isplitl [Df2]; · iexact Df2
    isplitl [HO]; · iexact HO
    isplitl [TfS2]; · iexact TfS2
    iexact TfR2
  iintro ⟨CfS2, HO⟩
  -- the wait for chunk 0 forwarded by `xp c`
  iapply (step_wait m K c (jFR 0) N64 (dmaAmt_fR 0) (dst := fwLand c 0) rfl (0)) $$ [CfR0 HO PfR0]
  · isplitr; · iexact Hrec
    isplitl [CfR0]; · iexact CfR0
    isplitl [HO]; · iexact HO
    isplitr; · iapply (mayWait_none c _); iexact Hlev
    iexact PfR0
  iintro ⟨HO, PfR0, Gf0⟩
  ihave Gf0 := (Entails.of_eq (dmaPay_fR m c 0)) $$ Gf0
  -- the wait for chunk 1 forwarded by `xp c`
  iapply (step_wait m K c (jFR 1) N64 (dmaAmt_fR 1) (dst := fwLand c 1) rfl (0)) $$ [CfR1 HO PfR1]
  · isplitr; · iexact Hrec
    isplitl [CfR1]; · iexact CfR1
    isplitl [HO]; · iexact HO
    isplitr; · iapply (mayWait_none c _); iexact Hlev
    iexact PfR1
  iintro ⟨HO, PfR1, Gf1⟩
  ihave Gf1 := (Entails.of_eq (dmaPay_fR m c 1)) $$ Gf1
  -- the wait for chunk 2 forwarded by `xp c`
  iapply (step_wait m K c (jFR 2) N64 (dmaAmt_fR 2) (dst := fwLand c 2) rfl (0)) $$ [CfR2 HO PfR2]
  · isplitr; · iexact Hrec
    isplitl [CfR2]; · iexact CfR2
    isplitl [HO]; · iexact HO
    isplitr; · iapply (mayWait_none c _); iexact Hlev
    iexact PfR2
  iintro ⟨HO, PfR2, Gf2⟩
  ihave Gf2 := (Entails.of_eq (dmaPay_fR m c 2)) $$ Gf2
  -- the direct stretch has left
  iapply (step_wait m K c (jYdS) N128 dmaAmt_ydS (dst := ydSrc c) rfl (0)) $$ [CdS HO PdS]
  · isplitr; · iexact Hrec
    isplitl [CdS]; · iexact CdS
    isplitl [HO]; · iexact HO
    isplitr; · iapply (mayWait_none c _); iexact Hlev
    iexact PdS
  iintro ⟨HO, PdS, Syd⟩
  ihave Syd := (Entails.of_eq (dmaPay_ydS m c)) $$ Syd
  -- the direct stretch from `yp c` has landed
  iapply (step_wait m K c (jYdR) N128 dmaAmt_ydR (dst := ydDst c) rfl (0)) $$ [CdR HO PdR]
  · isplitr; · iexact Hrec
    isplitl [CdR]; · iexact CdR
    isplitl [HO]; · iexact HO
    isplitr; · iapply (mayWait_none c _); iexact Hlev
    iexact PdR
  iintro ⟨HO, PdR, Gyd⟩
  ihave Gyd := (Entails.of_eq (dmaPay_ydR m c)) $$ Gyd
  -- chunk 0 has left
  iapply (step_wait m K c (jYfS 0) N64 (dmaAmt_yfS 0) (dst := yfSrc c 0) rfl (0)) $$ [CyS0 HO PyS0]
  · isplitr; · iexact Hrec
    isplitl [CyS0]; · iexact CyS0
    isplitl [HO]; · iexact HO
    isplitr; · iapply (mayWait_none c _); iexact Hlev
    iexact PyS0
  iintro ⟨HO, PyS0, Sy0⟩
  ihave Sy0 := (Entails.of_eq (dmaPay_yfS m c 0)) $$ Sy0
  -- forwarded chunk 0 has left
  iapply (step_wait m K c (jFS 0) N64 (dmaAmt_fS 0) (dst := fwV c 0) rfl (0)) $$ [CfS0 HO PfS0]
  · isplitr; · iexact Hrec
    isplitl [CfS0]; · iexact CfS0
    isplitl [HO]; · iexact HO
    isplitr; · iapply (mayWait_none c _); iexact Hlev
    iexact PfS0
  iintro ⟨HO, PfS0, Gy0⟩
  ihave Gy0 := (Entails.of_eq (dmaPay_fS m c 0)) $$ Gy0
  -- chunk 1 has left
  iapply (step_wait m K c (jYfS 1) N64 (dmaAmt_yfS 1) (dst := yfSrc c 1) rfl (0)) $$ [CyS1 HO PyS1]
  · isplitr; · iexact Hrec
    isplitl [CyS1]; · iexact CyS1
    isplitl [HO]; · iexact HO
    isplitr; · iapply (mayWait_none c _); iexact Hlev
    iexact PyS1
  iintro ⟨HO, PyS1, Sy1⟩
  ihave Sy1 := (Entails.of_eq (dmaPay_yfS m c 1)) $$ Sy1
  -- forwarded chunk 1 has left
  iapply (step_wait m K c (jFS 1) N64 (dmaAmt_fS 1) (dst := fwV c 1) rfl (0)) $$ [CfS1 HO PfS1]
  · isplitr; · iexact Hrec
    isplitl [CfS1]; · iexact CfS1
    isplitl [HO]; · iexact HO
    isplitr; · iapply (mayWait_none c _); iexact Hlev
    iexact PfS1
  iintro ⟨HO, PfS1, Gy1⟩
  ihave Gy1 := (Entails.of_eq (dmaPay_fS m c 1)) $$ Gy1
  -- chunk 2 has left
  iapply (step_wait m K c (jYfS 2) N64 (dmaAmt_yfS 2) (dst := yfSrc c 2) rfl (0)) $$ [CyS2 HO PyS2]
  · isplitr; · iexact Hrec
    isplitl [CyS2]; · iexact CyS2
    isplitl [HO]; · iexact HO
    isplitr; · iapply (mayWait_none c _); iexact Hlev
    iexact PyS2
  iintro ⟨HO, PyS2, Sy2⟩
  ihave Sy2 := (Entails.of_eq (dmaPay_yfS m c 2)) $$ Sy2
  -- forwarded chunk 2 has left
  iapply (step_wait m K c (jFS 2) N64 (dmaAmt_fS 2) (dst := fwV c 2) rfl (0)) $$ [CfS2 HO PfS2]
  · isplitr; · iexact Hrec
    isplitl [CfS2]; · iexact CfS2
    isplitl [HO]; · iexact HO
    isplitr; · iapply (mayWait_none c _); iexact Hlev
    iexact PfS2
  iintro ⟨HO, PfS2, Gy2⟩
  ihave Gy2 := (Entails.of_eq (dmaPay_fS m c 2)) $$ Gy2
  -- the local copy is done
  iapply (step_wait m K c (jLoc) N512 dmaAmt_loc (dst := ownDst c) rfl (0)) $$ [CL HO PL]
  · isplitr; · iexact Hrec
    isplitl [CL]; · iexact CL
    isplitl [HO]; · iexact HO
    isplitr; · iapply (mayWait_none c _); iexact Hlev
    iexact PL
  iintro ⟨HO, PL, HL⟩
  ihave HL := (Entails.of_eq (dmaPay_loc m c)) $$ HL
  icases HL with ⟨Hown, Sown⟩
  -- the fifteen own cells close
  imod (step_close m K c (jLoc)) $$ [PL] with ZL
  · isplitr; · iexact Hrec
    iexact PL
  imod (step_close m K c (jYfS 0)) $$ [PyS0] with ZyS0
  · isplitr; · iexact Hrec
    iexact PyS0
  imod (step_close m K c (jYfS 1)) $$ [PyS1] with ZyS1
  · isplitr; · iexact Hrec
    iexact PyS1
  imod (step_close m K c (jYfS 2)) $$ [PyS2] with ZyS2
  · isplitr; · iexact Hrec
    iexact PyS2
  imod (step_close m K c (jYfR 0)) $$ [PyR0] with ZyR0
  · isplitr; · iexact Hrec
    iexact PyR0
  imod (step_close m K c (jYfR 1)) $$ [PyR1] with ZyR1
  · isplitr; · iexact Hrec
    iexact PyR1
  imod (step_close m K c (jYfR 2)) $$ [PyR2] with ZyR2
  · isplitr; · iexact Hrec
    iexact PyR2
  imod (step_close m K c (jYdS)) $$ [PdS] with ZdS
  · isplitr; · iexact Hrec
    iexact PdS
  imod (step_close m K c (jYdR)) $$ [PdR] with ZdR
  · isplitr; · iexact Hrec
    iexact PdR
  imod (step_close m K c (jFS 0)) $$ [PfS0] with ZfS0
  · isplitr; · iexact Hrec
    iexact PfS0
  imod (step_close m K c (jFS 1)) $$ [PfS1] with ZfS1
  · isplitr; · iexact Hrec
    iexact PfS1
  imod (step_close m K c (jFS 2)) $$ [PfS2] with ZfS2
  · isplitr; · iexact Hrec
    iexact PfS2
  imod (step_close m K c (jFR 0)) $$ [PfR0] with ZfR0
  · isplitr; · iexact Hrec
    iexact PfR0
  imod (step_close m K c (jFR 1)) $$ [PfR1] with ZfR1
  · isplitr; · iexact Hrec
    iexact PfR1
  imod (step_close m K c (jFR 2)) $$ [PfR2] with ZfR2
  · isplitr; · iexact Hrec
    iexact PfR2
  rw [wp_ret]; imodintro
  iapply Hk
  iapply (post_assemble m c)
  unfold bodyEndFlat
  rw [ownZero_named]
  isplitl [Hown Sown]
  · isplitl [Hown]; · iexact Hown
    iexact Sown
  isplitl [Sy0 Sy1 Sy2]
  · isplitl [Sy0]; · iexact Sy0
    isplitl [Sy1]; · iexact Sy1
    iexact Sy2
  isplitl [Syd]; · iexact Syd
  isplitl [Srest]; · iexact Srest
  isplitl [Gy0 Gy1 Gy2]
  · isplitl [Gy0]; · iexact Gy0
    isplitl [Gy1]; · iexact Gy1
    iexact Gy2
  isplitl [Gyd]; · iexact Gyd
  isplitl [Gf0 Gf1 Gf2]
  · isplitl [Gf0]; · iexact Gf0
    isplitl [Gf1]; · iexact Gf1
    iexact Gf2
  isplitr [HO]
  · isplitl [ZL]; · iexact ZL
    isplitl [ZyS0]; · iexact ZyS0
    isplitl [ZyS1]; · iexact ZyS1
    isplitl [ZyS2]; · iexact ZyS2
    isplitl [ZyR0]; · iexact ZyR0
    isplitl [ZyR1]; · iexact ZyR1
    isplitl [ZyR2]; · iexact ZyR2
    isplitl [ZdS]; · iexact ZdS
    isplitl [ZdR]; · iexact ZdR
    isplitl [ZfS0]; · iexact ZfS0
    isplitl [ZfS1]; · iexact ZfS1
    isplitl [ZfS2]; · iexact ZfS2
    isplitl [ZfR0]; · iexact ZfR0
    isplitl [ZfR1]; · iexact ZfR1
    iexact ZfR2
  · iexact HO

/-- info: 'Cert.KernelProof.sound_body' depends on axioms: [propext, Classical.choice, Quot.sound] -/
#guard_msgs in #print axioms sound_body

end Cert.KernelProof

end
-- ==== Proof.KernelLaunch.lean ====
/-
  The launch of the all-to-all kernel on the 2×2×4 mesh: the proof data of its one grid point, the body's obligation in
  the form the launch theorem takes it, the protocol's ghost state funded and dealt to the sixteen devices, the credit
  each device holds at launch on the cells its peers pay into, and the run.

  Every device has sixteen cells (fifteen DMA cells and its barrier cell) and seventeen duties are paid into them; the
  launch element mints one token per duty at the cell's owner, and the global step hands each token to the device that
  pays the duty: along `yp` for the first barrier duty and the four cells `yp` lands on, along `xp` for the second
  barrier duty and the three forward cells, and in place for the eight send-side duties.
-/
import proofs.«900641_g7700000000000642_dist_a2a_v7x_xyz2x2x4_y_m512_n512_f32_1_alg».proof.Proof.KernelBase
import proofs.«900641_g7700000000000642_dist_a2a_v7x_xyz2x2x4_y_m512_n512_f32_1_alg».proof.Proof.KernelSched
import proofs.«900641_g7700000000000642_dist_a2a_v7x_xyz2x2x4_y_m512_n512_f32_1_alg».proof.Proof.KernelBody
import Idealize.ShloMosaic.Lib.Pipeline.Launch
import Idealize.ShloMosaic.Lib.Pipeline.Kit
import Idealize.ShloMosaic.Lib.Tactic

noncomputable section

namespace Cert.KernelProof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Enumerations -/

omit [FloatOps F] in
/-- A `bigSep` over `Fin (n + 1)`: the last index, then the others. -/
theorem bigSep_fin_last {n : ℕ} (Φ : Fin (n + 1) → sProp 𝕄) :
    bigSep Finset.univ Φ = iprop(Φ (Fin.last n) ∗ bigSep Finset.univ fun j : Fin n => Φ j.castSucc) := by
  rw [Fin.univ_castSuccEmb, Finset.cons_eq_insert, bigSep_insert (by simp), bigSep_map]; rfl

omit [FloatOps F] in
theorem bigSep_fin15 (Φ : Fin 15 → sProp 𝕄) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14) :=
  bigSep_univ_eq_bigSepL [0, 1, 2, 3, 4, 5, 6, 7, 8, 9, 10, 11, 12, 13, 14] (by decide) (by decide) Φ

omit [FloatOps F] in
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-! ## The launch element of the protocol's copy of the algebra -/

theorem ownSemFacts : Pipeline.OwnSemFacts cfg0.spec osem := by decide

def allCells : Finset (GSem nD τ sig) := Finset.univ.map ⟨kcell, kcell_injective⟩

/-- The duties as minted, per device: duty `false` of each of its sixteen cells, then duty `true` of its barrier cell. -/
def tokSem (j : Fin 17) : SemLoc sig × Bool := if h : j.val < 16 then (csem ⟨j.val, h⟩, false) else (.reg barS, true)
theorem tokSem_injective : Function.Injective tokSem := by decide
def tokOf (cj : Dev nD × Fin 17) : GSem nD τ sig × ℕ × Bool := (((cj.1 : Thread nD τ), (tokSem cj.2).1), 0, (tokSem cj.2).2)

theorem tokOf_injective : Function.Injective (tokOf : Dev nD × Fin 17 → GSem nD τ sig × ℕ × Bool) := by
  rintro ⟨c, j⟩ ⟨c', j'⟩ h
  have h1 : c = c' := congrArg (fun x : GSem nD τ sig × ℕ × Bool => x.1.1.1) h
  subst h1
  have h2 : tokSem j = tokSem j' :=
    Prod.ext (congrArg (fun x : GSem nD τ sig × ℕ × Bool => x.1.2) h) (congrArg (fun x : GSem nD τ sig × ℕ × Bool => x.2.2) h)
  rw [tokSem_injective h2]

def allToks : Finset (GSem nD τ sig × ℕ × Bool) := Finset.univ.map ⟨tokOf, tokOf_injective⟩

def u₀ : UU := (initOf (Pipeline.cells cfgs cellOf_inj) (Pipeline.launchToks cfgs cellOf_inj), initOf allCells allToks)

/-- The tokens minted at device `c`. -/
def minted (c : Dev nD) : sProp 𝕄 :=
  iprop(dutyTok ER (barCell c) 0 true ∗ bigSep Finset.univ fun i : Fin 16 => dutyTok ER (kcell (c, i)) 0 false)

/-- What the launch element deals device `c` (the launch theorem's `G`). -/
def G (c : Dev nD) : sProp 𝕄 :=
  iprop((bigSep Finset.univ fun i : Fin 16 => roundState ER (sched m) (kcell (c, i)) 0)
    ∗ (bigSep Finset.univ fun i : Fin 16 => iprop(atPos ER (kcell (c, i)) 0 ∅ 0 ∗ reached ER (kcell (c, i)) 0)) ∗ minted (F := F) c)

/-- What the global step makes of it (`G'`). -/
def G' (c : Dev nD) : sProp 𝕄 := iprop(∃ K, ghost m K c)

omit [FloatOps F] in
theorem fund_cells : BI.own (ER (F := F) (initOf allCells allToks)) ⊢ (|==> bigSep Finset.univ (G m) : sProp 𝕄) := by
  have hX (Φ : GSem nD τ sig → sProp 𝕄) : bigSep allCells Φ = bigSep Finset.univ fun c : Dev nD => bigSep Finset.univ fun i : Fin 16 => Φ (kcell (c, i)) := by
    unfold allCells; rw [bigSep_map, bigSep_univ_prod]; rfl
  have hT : bigSep allToks (fun x => (dutyTok ER x.1 x.2.1 x.2.2 : sProp 𝕄)) = bigSep Finset.univ fun c : Dev nD => minted (F := F) c := by
    unfold allToks; rw [bigSep_map, bigSep_univ_prod]
    exact bigSep_congr fun c _ => by unfold minted; rw [bigSep_fin_last]; rfl
  iintro HX
  imod (Rounds.fund ER (sched m) allCells allToks) $$ HX with ⟨Hst, Hr, Hat, Htok⟩
  imodintro
  ihave Hst' := (Entails.of_eq (hX fun g => roundState ER (sched m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The global step: every cell's invariant, then the deal -/

omit [FloatOps F] in
/-- The barrier semaphore is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem ownSems0_eq (c : Dev nD) :
    (Pipeline.ownSems0 (Ix := Unit) (Name := ℕ) (U := UU) (Lvl := ℕ) (Val := Elt F) (τ := τ) osem c : sProp 𝕄) = ownZero c := rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun i : Fin 16 => semVal (kcell (c, i)) 0 : sProp 𝕄) := by
  rw [unscopedSems0_eq, bigSep_fin_last, bigSep_congr (s := Finset.univ) (fun (j : Fin 15) _ => by rw [kcell_castSucc])]
  unfold Pipeline.ownSems0
  iintro ⟨HO, HB⟩
  isplitl [HB]; · iexact HB
  iexact HO

omit [FloatOps F] in
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun i : Fin 16 => iprop(∃ κ : ℕ, cellInv ER (sched m) κ (kcell (c, i))))
          ∗ (bigSep Finset.univ fun i : Fin 16 => iprop(atPos ER (kcell (c, i)) 0 ∅ 0 ∗ reached ER (kcell (c, i)) 0)) ∗ minted (F := F) c) := by
  unfold G
  iintro ⟨Hos, Hus, Hst, Hat, Htok⟩
  ihave Hv := (sems0_eq (F := F) c) $$ [Hos Hus]
  · isplitl [Hos] <;> iassumption
  imod (show iprop((bigSep Finset.univ fun i : Fin 16 => semVal (kcell (c, i)) 0) ∗ bigSep Finset.univ fun i : Fin 16 => roundState ER (sched m) (kcell (c, i)) 0)
      ⊢ (|={Set.univ}=> bigSep Finset.univ fun i : Fin 16 => iprop(∃ κ : ℕ, cellInv ER (sched m) κ (kcell (c, i))) : sProp 𝕄) from by
        rw [← bigSep_sep']
        exact (bigSep_mono fun i _ => (Rounds.body_intro ER (sched m) (kcell (c, i))).trans inv_alloc).trans (bigSep_fupd _ _)) $$ [Hv Hst] with Hinv
  · isplitl [Hv] <;> iassumption
  imodintro
  isplitl [Hinv]; · iexact Hinv
  isplitl [Hat]; · iexact Hat
  iexact Htok

/-- The tokens minted at device `c`, grouped as the duties are paid. -/
def ownToks (c : Dev nD) : sProp 𝕄 :=
  iprop(dutyTok ER (barCell c) 0 false ∗ dutyTok ER (barCell c) 0 true
    ∗ (bigSep Finset.univ fun k : Fin 3 => dutyTok ER (dcell c (jYfR k)) 0 false) ∗ dutyTok ER (dcell c jYdR) 0 false
    ∗ (bigSep Finset.univ fun k : Fin 3 => dutyTok ER (dcell c (jFR k)) 0 false)
    ∗ dutyTok ER (dcell c jLoc) 0 false ∗ (bigSep Finset.univ fun k : Fin 3 => dutyTok ER (dcell c (jYfS k)) 0 false)
    ∗ dutyTok ER (dcell c jYdS) 0 false ∗ (bigSep Finset.univ fun k : Fin 3 => dutyTok ER (dcell c (jFS k)) 0 false))

omit [FloatOps F] in
theorem minted_own (c : Dev nD) : (minted c : sProp 𝕄) ⊢ ownToks c := by
  unfold minted ownToks
  rw [bigSep_fin_last, bigSep_congr (s := Finset.univ) (fun (j : Fin 15) _ => by rw [kcell_castSucc]), bigSep_fin15,
    bigSep_fin3, bigSep_fin3, bigSep_fin3, bigSep_fin3]
  iintro ⟨HT, HB, H0, H1, H2, H3, H4, H5, H6, H7, H8, H9, H10, H11, H12, H13, H14⟩
  isplitl [HB]; · iexact HB
  isplitl [HT]; · iexact HT
  isplitl [H4 H5 H6]
  · isplitl [H4]; · iexact H4
    isplitl [H5]; · iexact H5
    iexact H6
  isplitl [H8]; · iexact H8
  isplitl [H12 H13 H14]
  · isplitl [H12]; · iexact H12
    isplitl [H13]; · iexact H13
    iexact H14
  isplitl [H0]; · iexact H0
  isplitl [H1 H2 H3]
  · isplitl [H1]; · iexact H1
    isplitl [H2]; · iexact H2
    iexact H3
  isplitl [H7]; · iexact H7
  isplitl [H9]; · iexact H9
  isplitl [H10]; · iexact H10
  iexact H11

omit [FloatOps F] in
/-- The deal: each duty's token to the device that pays it. -/
theorem toks_around : (bigSep Finset.univ fun c : Dev nD => (ownToks c : sProp 𝕄)) ⊢ bigSep Finset.univ fun c : Dev nD => payToks c := by
  unfold ownToks payToks
  simp only [bigSep_sep']
  rw [bigSep_univ_equiv ypEquiv (fun c : Dev nD => (dutyTok ER (barCell c) 0 false : sProp 𝕄)),
    bigSep_univ_equiv xpEquiv (fun c : Dev nD => (dutyTok ER (barCell c) 0 true : sProp 𝕄)),
    bigSep_univ_equiv ypEquiv (fun c : Dev nD => (bigSep Finset.univ fun k : Fin 3 => dutyTok ER (dcell c (jYfR k)) 0 false : sProp 𝕄)),
    bigSep_univ_equiv ypEquiv (fun c : Dev nD => (dutyTok ER (dcell c jYdR) 0 false : sProp 𝕄)),
    bigSep_univ_equiv xpEquiv (fun c : Dev nD => (bigSep Finset.univ fun k : Fin 3 => dutyTok ER (dcell c (jFR k)) 0 false : sProp 𝕄))]
  exact .rfl

omit [FloatOps F] in
theorem ghost_intro (K : Dev nD × Fin 16 → ℕ) (c : Dev nD) : iprop(records m K ∗ (positions c ∗ payToks c)) ⊢ G' m c := by
  unfold G' ghost
  iintro ⟨HR, HP, HT⟩
  iexists K
  isplitl [HR]; · iexact HR
  isplitl [HP]; · iexact HP
  iexact HT

omit [FloatOps F] in
theorem regroup :
    (bigSep Finset.univ fun c : Dev nD => iprop((bigSep Finset.univ fun i : Fin 16 => iprop(∃ κ : ℕ, cellInv ER (sched m) κ (kcell (c, i))))
          ∗ (bigSep Finset.univ fun i : Fin 16 => iprop(atPos ER (kcell (c, i)) 0 ∅ 0 ∗ reached ER (kcell (c, i)) 0)) ∗ minted (F := F) c) : sProp 𝕄)
      ⊢ bigSep Finset.univ (G' m) := by
  rw [bigSep_sep', bigSep_sep', ← bigSep_univ_prod (fun ck : Dev nD × Fin 16 => iprop(∃ κ : ℕ, cellInv ER (sched m) κ (kcell ck))),
    bigSep_congr (s := Finset.univ) (fun (c : Dev nD) _ => bigSep_sep' Finset.univ (fun i : Fin 16 => (atPos ER (kcell (c, i)) 0 ∅ 0 : sProp 𝕄)) (fun i => reached ER (kcell (c, i)) 0)),
    bigSep_sep', ← bigSep_univ_prod (fun ck : Dev nD × Fin 16 => (reached ER (kcell ck) 0 : sProp 𝕄))]
  have htk : (bigSep Finset.univ fun c : Dev nD => (minted c : sProp 𝕄)) ⊢ bigSep Finset.univ fun c : Dev nD => payToks c :=
    (bigSep_mono fun c _ => minted_own (F := F) c).trans (toks_around (F := F))
  iintro ⟨HI, ⟨Hat, #HR⟩, Htok⟩
  ihave HK := (BI.bigSep_exists_pi Finset.univ (fun (ck : Dev nD × Fin 16) (κ : ℕ) => (cellInv ER (sched m) κ (kcell ck) : sProp 𝕄))) $$ HI
  icases HK with ⟨%K, #HI⟩
  ihave Htk := htk $$ Htok
  iapply (bigSep_with_persistent (R := records m K) fun c _ => ghost_intro m K c)
  isplitr
  · unfold records; isplitl; · iexact HI
    iexact HR
  · iapply (Entails.of_eq (bigSep_sep' Finset.univ (fun c : Dev nD => (positions c : sProp 𝕄)) payToks).symm)
    isplitl [Hat]
    · unfold positions; iexact Hat
    iexact Htk

omit [FloatOps F] in
/-- The global step (`hglob`): own and unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credit -/

omit [FloatOps F] in
/-- What the launch deals a device for its peers' dues: a token per due, the two barrier units joined. -/
theorem creds (c : Dev nD) : (Pipeline.launchCred O₀ c : sProp 𝕄) ⊢ startCreds c := by
  have hX (j : Fin 15) (n : ℕ) : (Pipeline.launchCred (fun d : Dev nD => (tallyAt (dcell (xp d) j) () n : CellTallies nD τ sig Unit)) c : sProp 𝕄)
      ⊢ cred (tallyAt (dcell c j) () n) := Pipeline.launchCred_tallyAt (Ix := Unit) (Name := ℕ) (U := UU) (Lvl := ℕ) (Val := Elt F) (nD := nD) (τ := τ) (sig := sig) (SemLoc.dma (j : DmaSem sig)) xp xp xp_xp xp_xp () n c
  have hY (j : Fin 15) (n : ℕ) : (Pipeline.launchCred (fun d : Dev nD => (tallyAt (dcell (yp d) j) () n : CellTallies nD τ sig Unit)) c : sProp 𝕄)
      ⊢ cred (tallyAt (dcell c j) () n) := Pipeline.launchCred_tallyAt (Ix := Unit) (Name := ℕ) (U := UU) (Lvl := ℕ) (Val := Elt F) (nD := nD) (τ := τ) (sig := sig) (SemLoc.dma (j : DmaSem sig)) yp yp yp_yp yp_yp () n c
  have hBX : (Pipeline.launchCred (fun d : Dev nD => (tallyAt (barCell (xp d)) () 1 : CellTallies nD τ sig Unit)) c : sProp 𝕄)
      ⊢ cred (tallyAt (barCell c) () 1) := Pipeline.launchCred_tallyAt (Ix := Unit) (Name := ℕ) (U := UU) (Lvl := ℕ) (Val := Elt F) (nD := nD) (τ := τ) (sig := sig) (SemLoc.reg barS) xp xp xp_xp xp_xp () 1 c
  have hBY : (Pipeline.launchCred (fun d : Dev nD => (tallyAt (barCell (yp d)) () 1 : CellTallies nD τ sig Unit)) c : sProp 𝕄)
      ⊢ cred (tallyAt (barCell c) () 1) := Pipeline.launchCred_tallyAt (Ix := Unit) (Name := ℕ) (U := UU) (Lvl := ℕ) (Val := Elt F) (nD := nD) (τ := τ) (sig := sig) (SemLoc.reg barS) yp yp yp_yp yp_yp () 1 c
  have hbar : iprop(cred (tallyAt (barCell c) () 1) ∗ cred (tallyAt (barCell c) () 1)) ⊢ (cred (tallyAt (barCell c) () 2) : sProp 𝕄) := by
    show _ ⊢ cred (tallyAt (barCell c) () (1 + 1))
    rw [← tallyAt_add (barCell c) () 1 1]; exact (cred_add _ _).2
  have e : (Pipeline.launchCred O₀ c : sProp 𝕄)
      = Pipeline.launchCred (fun d : Dev nD => ((((((((tallyAt (dcell (xp d) (jFR 2)) () N64 + tallyAt (dcell (xp d) (jFR 1)) () N64)
          + tallyAt (dcell (xp d) (jFR 0)) () N64) + tallyAt (dcell (yp d) jYdR) () N128) + tallyAt (dcell (yp d) (jYfR 2)) () N64)
          + tallyAt (dcell (yp d) (jYfR 1)) () N64) + tallyAt (dcell (yp d) (jYfR 0)) () N64) + tallyAt (barCell (xp d)) () 1)
          + tallyAt (barCell (yp d)) () 1 : CellTallies nD τ sig Unit)) c := rfl
  rw [e, Pipeline.launchCred_add, Pipeline.launchCred_add, Pipeline.launchCred_add, Pipeline.launchCred_add, Pipeline.launchCred_add,
    Pipeline.launchCred_add, Pipeline.launchCred_add, Pipeline.launchCred_add]
  unfold startCreds
  rw [bigSep_fin3, bigSep_fin3]
  iintro ⟨⟨⟨⟨⟨⟨⟨⟨Ha, Hb⟩, Hc⟩, Hd⟩, He⟩, Hf⟩, Hg⟩, Hx⟩, Hy⟩
  ihave Ha := (hX (jFR 2) N64) $$ Ha
  ihave Hb := (hX (jFR 1) N64) $$ Hb
  ihave Hc := (hX (jFR 0) N64) $$ Hc
  ihave Hd := (hY jYdR N128) $$ Hd
  ihave He := (hY (jYfR 2) N64) $$ He
  ihave Hf := (hY (jYfR 1) N64) $$ Hf
  ihave Hg := (hY (jYfR 0) N64) $$ Hg
  ihave Hx := hBX $$ Hx
  ihave Hy := hBY $$ Hy
  isplitl [Hx Hy]
  · iapply hbar; isplitl [Hx] <;> iassumption
  isplitl [Hg Hf He]
  · isplitl [Hg]; · iexact Hg
    isplitl [Hf]; · iexact Hf
    iexact He
  isplitl [Hd]; · iexact Hd
  isplitl [Hc]; · iexact Hc
  isplitl [Hb]; · iexact Hb
  iexact Ha

/-! ## The proof data of the one grid point, and the body's obligation -/

/-- No window: the two buffers travel through the invariant. Before the point the device holds its ghost state, its
    credit and both buffers as launched; after it both buffers, the result at its final contents, and its fifteen
    counters back at zero. It owes `O₀ c` before and nothing after. -/
def dats (_ : Fin 1) (c : Dev nD) : Dat τ (Elt F) Unit ℕ UU ℕ cfg0 c where
  A w := w.elim0
  after w _ := w.elim0
  Φ t := match t with
    | ⟨0, _⟩ => Φ₀ m c
    | ⟨_ + 1, _⟩ => Φ₁ m c
  q _ := fullShare
  owed t := match t with
    | ⟨0, _⟩ => O₀ c
    | ⟨_ + 1, _⟩ => 0

theorem share_eq (c : Dev nD) (w : Fin cfg0.W) : (dats m 0 c).share w = fullShare := w.elim0

/-- The library's body obligation on device `c`. -/
theorem body_obligation (c : Dev nD) : BodyObligation (dats (F := F) m 0 c) (defs₀ (F := F)) 𝒱₀ () Set.univ := fun t => by
  rw [fin_N0 t]
  rw [show (Finset.univ : Finset (Fin cfg0.W)) = ∅ from Finset.univ_eq_empty, bigSep_empty, bigSep_empty]
  show iprop(Φ₀ m c ∗ (dats m 0 c).owesAt () t0_0.castSucc ∗ emp) ⊢ wp frame (wpE (defs₀ (F := F)) 𝒱₀ c none) Set.univ
    (cc0_body (Memref.whole main_arg0) (Memref.isWhole_whole _) (Memref.whole main_v1) (Memref.isWhole_whole _)
      cc0_scratch0 cc0_scratch1 cc0_scratch2 cc0_scratch3 cc0_scratch4 cc0_scratch5 cc0_scratch6)
    (fun _ => iprop(Φ₁ m c ∗ (dats m 0 c).owesAt () t0_0.succ ∗ emp))
  unfold Φ₀ start
  iintro ⟨⟨⟨⟨%K, Hg⟩, Hcr, Hlev⟩, Ha, Hv⟩, ⟨%W, -, Ho⟩, -⟩
  iapply (sound_body m K c fun _ => iprop(Φ₁ m c ∗ (dats m 0 c).owesAt () t0_0.succ ∗ emp))
  isplitr []
  · unfold bodyPre
    isplitl [Hg]; · iexact Hg
    isplitl [Hcr]; · iexact Hcr
    isplitl [Hlev]; · iexact Hlev
    isplitl [Ha]; · iexact Ha
    isplitl [Hv]; · iexact Hv
    iexists W; iexact Ho
  · unfold bodyPost
    iintro ⟨HΦ, ⟨%W', Ho'⟩⟩
    isplitl [HΦ]; · iexact HΦ
    isplitl
    · iexists W'
      isplitr; · ipureintro; exact fun _ _ => Or.inl (Set.mem_univ _)
      iexact Ho'
    · iempintro

/-! ## The launch theorem's side conditions -/

omit [FloatOps F] in
/-- The unscoped buffers no window stages: the two HBM buffers, whole. -/
theorem rest_eq (c : Dev nD) (V : (b : Ref sig .tc) → Buf (Elt F) ((c : Thread nD τ).loc b)) :
    (Pipeline.unscopedRestP Pipeline.Prefetch.none cfg0.spec c V : sProp 𝕄)
      = iprop((((c : Thread nD τ).loc main_arg0) ↦{fullShare} V main_arg0) ∗ (((c : Thread nD τ).loc main_v1) ↦{fullShare} V main_v1)) := by
  rw [Pipeline.unscopedRestP_none, unscopedRest0_eq]

omit [FloatOps F] in
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(Φ₀ m c ∗ emp) := by
  rw [rest_eq]
  iintro ⟨⟨Ha, Hv⟩, Hlev, Hcr, -, HG⟩
  ihave Hc := (creds (F := F) c) $$ Hcr
  imodintro
  unfold Φ₀ start G' argW outW
  isplitl
  · isplitl [HG Hc Hlev]
    · isplitl [HG]; · iexact HG
      isplitl [Hc]; · iexact Hc
      iexact Hlev
    · isplitl [Ha]; · iexact Ha
      iexact Hv
  · iempintro

theorem phi0_intro (c : Dev nD) :
    iprop(Φ₀ m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl]
  iintro ⟨Hs, -, -⟩
  iexact Hs

theorem phi1_exit (c : Dev nD) :
    (dats m 0 c).Φ (Fin.last cfg0.N)
      ⊢ iprop((argW c (xin m c) ∗ outW c (Fout m c)) ∗ Pipeline.ownSems0 osem c ∗ Pipeline.scopedRest cfg0.spec c) := by
  rw [show (dats m 0 c).Φ (Fin.last cfg0.N) = Φ₁ m c from rfl, scopedRest0_eq, ownSems0_eq]
  unfold Φ₁
  iintro ⟨Ha, Hv, Hz⟩
  isplitl [Ha Hv]
  · isplitl [Ha]; · iexact Ha
    iexact Hv
  isplitl [Hz]; · iexact Hz
  iempintro

/-- No window, so no staging cell to wait on. -/
theorem waits (c : Dev nD) : (levAts L lv : sProp 𝕄) ⊢ Pipeline.cellsWaits cfgs (dats m) () 0 c :=
  Pipeline.cellsWaits_intro cfgs (dats m) () 0 c fun w _ _ => w.elim0

/-! ## The run -/

set_option maxRecDepth 8000 in
/-- At the compiled mesh of sixteen devices, for any float values, from any memory with zero counters: every weakly fair
    execution of @main terminates, and every final state has each device's result buffer at `Fout m c` and its argument
    buffer as launched. -/
theorem run_main : θ_run defs (onTc (τ := τ) (main (F := F))) ⟨m, fun _ => 0, ρ⟩
    (fun r => ∀ c : Dev nD, r.2.mem ((c.tc : Thread nD τ).loc main_v1) = Fout m c
      ∧ r.2.mem ((c.tc : Thread nD τ).loc main_arg0) = m ((c.tc : Thread nD τ).loc main_arg0)) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => w.elim0) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_cells m) $$ HX with HG
      imodintro
      isplitl [HP] <;> iassumption)
    (hglob := glob m)
    (hA := fun _ w => w.elim0) (hpf := fun _ k => k.elim0)
    (X := Φ₀ m) (Y := fun c => iprop(argW c (xin m c) ∗ outW c (Fout m c))) (Z := fun _ => iprop(emp))
    (hX := start_intro m ρ) (hin := phi0_intro m) (hout := phi1_exit m)
    (QY := fun c s => s.mem ((c : Thread nD τ).loc main_v1) = Fout m c ∧ s.mem ((c : Thread nD τ).loc main_arg0) = m ((c : Thread nD τ).loc main_arg0))
    (hY := fun c s' => by
      unfold argW outW
      iintro ⟨⟨Ha, Hv⟩, -, HSI⟩
      icombine HSI Ha gives %ha
      icombine HSI Hv gives %hv
      imodintro
      isplitr; · ipureintro; exact ⟨Buf.eq_of_forall_mem_univ hv, Buf.eq_of_forall_mem_univ ha⟩
      iexact HSI)
    (hQ := fun _ h c => (h c).2.2)

/-- info: 'Cert.KernelProof.run_main' depends on axioms: [propext, Classical.choice, Quot.sound] -/
#guard_msgs in #print axioms run_main

end Cert.KernelProof

end
-- ==== Proof.KernelIdealBase.lean ====
/-
  Shared vocabulary of the all-to-all kernel's proof on the 2×2×4 mesh.

  Device `c` sits at mesh coordinates (x, y, z) = (c / 8, c / 4 % 2, c % 4). Its argument buffer holds rows
  [512·y, 512·y + 512) of the whole 1024 × 1024 array, and its result buffer must end holding the whole array's
  columns [512·y, 512·y + 512). Two involutions of the mesh carry the whole protocol: `yp` flips the y-coordinate,
  `xp` the x-coordinate. A device copies its own half of the result locally, pushes rows [320·x, 320·x + 192) (three
  chunks of 64) and rows [192, 320) of its other column half to `yp c`, and forwards each chunk it receives from
  `yp c` on to `xp c`; so every device receives rows [0, 320) or [192, 512) of its missing half from `yp c` and the
  remaining 192 rows, relayed, from `xp c`.
-/
import proofs.«900641_g7700000000000642_dist_a2a_v7x_xyz2x2x4_y_m512_n512_f32_1_alg».proof.Proof.Gen.KernelIdeal
import proofs.«900641_g7700000000000642_dist_a2a_v7x_xyz2x2x4_y_m512_n512_f32_1_alg».proof.Proof.Gen.KernelIdeal.Skeleton
import proofs.«900641_g7700000000000642_dist_a2a_v7x_xyz2x2x4_y_m512_n512_f32_1_alg».proof.Proof.Gen.KernelIdeal.Launch
import Idealize.ShloMosaic.Lib.Pipeline.Launch
import Idealize.ShloMosaic.Lib.Pipeline.Kit
import Idealize.ShloMosaic.Lib.ValueIdx
import Idealize.ShloMosaic.Lib.Tactic

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix2)

variable {F : FTy → Type} [FloatOps F]

/-! ## The resource algebra: the pipeline library's copy and the protocol's (duties `Bool`) -/

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## The two peers -/

/-- The device with the other y-coordinate. -/
def yp (c : Dev nD) : Dev nD := ⟨(8 * (c.val / 8) + (c.val % 4) + 4) - 4 * ((c.val / 4) % 2), by have h : c.val < 16 := c.isLt; show _ < 16; omega⟩
/-- The device with the other x-coordinate. -/
def xp (c : Dev nD) : Dev nD := ⟨(4 * ((c.val / 4) % 2) + (c.val % 4) + 8) - 8 * (c.val / 8), by have h : c.val < 16 := c.isLt; show _ < 16; omega⟩

theorem yp_yp (c : Dev nD) : yp (yp c) = c := by revert c; decide
theorem xp_xp (c : Dev nD) : xp (xp c) = c := by revert c; decide
theorem yp_xp (c : Dev nD) : yp (xp c) = xp (yp c) := by revert c; decide
theorem yp_ne (c : Dev nD) : yp c ≠ c := by revert c; decide
theorem xp_ne (c : Dev nD) : xp c ≠ c := by revert c; decide
theorem yp_ne_xp (c : Dev nD) : yp c ≠ xp c := by revert c; decide

def ypEquiv : Dev nD ≃ Dev nD := ⟨yp, yp, yp_yp, yp_yp⟩
def xpEquiv : Dev nD ≃ Dev nD := ⟨xp, xp, xp_xp, xp_xp⟩

/-- The kernel's `device_id` chains: both signals' and every transfer's target. -/
theorem dev1_eq (c : Dev nD) : (⟨k0_dev1 c, k0_dev1_lt c⟩ : Dev nD) = yp c := Fin.ext (k0_dev1_eq c)
theorem dev2_eq (c : Dev nD) : (⟨k0_dev2 c, k0_dev2_lt c⟩ : Dev nD) = xp c := Fin.ext (k0_dev2_eq c)
theorem dev3_eq (c : Dev nD) : (⟨k0_dev3 c, k0_dev3_lt c⟩ : Dev nD) = yp c := Fin.ext (k0_dev3_eq c)
theorem dev4_eq (c : Dev nD) : (⟨k0_dev4 c, k0_dev4_lt c⟩ : Dev nD) = yp c := Fin.ext (k0_dev4_eq c)
theorem dev5_eq (c : Dev nD) : (⟨k0_dev5 c, k0_dev5_lt c⟩ : Dev nD) = yp c := Fin.ext (k0_dev5_eq c)
theorem dev6_eq (c : Dev nD) : (⟨k0_dev6 c, k0_dev6_lt c⟩ : Dev nD) = yp c := Fin.ext (k0_dev6_eq c)
theorem dev7_eq (c : Dev nD) : (⟨k0_dev7 c, k0_dev7_lt c⟩ : Dev nD) = xp c := Fin.ext (k0_dev7_eq c)
theorem dev8_eq (c : Dev nD) : (⟨k0_dev8 c, k0_dev8_lt c⟩ : Dev nD) = xp c := Fin.ext (k0_dev8_eq c)
theorem dev9_eq (c : Dev nD) : (⟨k0_dev9 c, k0_dev9_lt c⟩ : Dev nD) = xp c := Fin.ext (k0_dev9_eq c)

/-! ## The memrefs: the two whole buffers and the protocol's slices of them -/

abbrev A0 : Memref sig .tc .hbm S512x1024 .f32 := Memref.whole main_arg0
abbrev A1 : Memref sig .tc .hbm S1024x512 .f32 := Memref.whole main_v1

/-- Chunk `k`'s row offset inside a 192-row stretch, as the word the kernel adds. -/
abbrev K (k : Fin 3) : BitVec 32 := BitVec.ofNat 32 (64 * k.val)

/-- The local copy: the device's own column half of its argument, into its own row half of the result. -/
abbrev ownSrc (c : Dev nD) : Memref sig .tc .hbm S512x512 .f32 :=
  A0.slice (Rect.unit (s := S512x1024) (k0_off2 c) S512x512.size (k0_off2_inb c)) (fun _ => rfl)
abbrev ownDst (c : Dev nD) : Memref sig .tc .hbm S512x512 .f32 :=
  A1.slice (Rect.unit (s := S1024x512) (k0_off1 c) S512x512.size (k0_off1_inb c)) (fun _ => rfl)
/-- Chunk `k` sent to `yp c`: 64 rows of the other column half, into the sender's row half of the receiver's result. -/
abbrev yfSrc (c : Dev nD) (k : Fin 3) : Memref sig .tc .hbm S64x512 .f32 :=
  A0.slice (Rect.unit (s := S512x1024) (k0_off4 c (K k)) S64x512.size (k0_off4_inb c k)) (fun _ => rfl)
abbrev yfDst (c : Dev nD) (k : Fin 3) : Memref sig .tc .hbm S64x512 .f32 :=
  A1.slice (Rect.unit (s := S1024x512) (k0_off3 c (K k)) S64x512.size (k0_off3_inb c k)) (fun _ => rfl)
/-- The direct stretch sent to `yp c`: rows [192, 320) of the other column half. -/
abbrev ydSrc (c : Dev nD) : Memref sig .tc .hbm S128x512 .f32 :=
  A0.slice (Rect.unit (s := S512x1024) (k0_off6 c) S128x512.size (k0_off6_inb c)) (fun _ => rfl)
abbrev ydDst (c : Dev nD) : Memref sig .tc .hbm S128x512 .f32 :=
  A1.slice (Rect.unit (s := S1024x512) (k0_off5 c) S128x512.size (k0_off5_inb c)) (fun _ => rfl)
/-- Chunk `k` forwarded to `xp c`: the same 64 rows of the result on both devices. -/
abbrev fwV (c : Dev nD) (k : Fin 3) : Memref sig .tc .hbm S64x512 .f32 :=
  A1.slice (Rect.unit (s := S1024x512) (k0_off7 c (K k)) S64x512.size (k0_off7_inb c k)) (fun _ => rfl)
/-- Where the chunk forwarded BY `xp c` lands on `c`, as `c`'s own wait names it. -/
abbrev fwLand (c : Dev nD) (k : Fin 3) : Memref sig .tc .hbm S64x512 .f32 :=
  A1.slice (Rect.unit (s := S1024x512) (k0_off8 c (K k)) S64x512.size (k0_off8_inb c k)) (fun _ => rfl)

/-! ## The cells -/

/-- The runtime's barrier semaphore of collective id 0 (unscoped). -/
abbrev barS : Sem sig := (SemArray.scalar (sig.barrier 0 rfl) : Sems sig S_).sem
abbrev barCell (c : Dev nD) : GSem nD τ sig := ((c : Thread nD τ), .reg barS)
/-- The fifteen DMA semaphores (scoped scratch), by their number in the core's pool. -/
abbrev dcell (c : Dev nD) (j : Fin 15) : GSem nD τ sig := ((c : Thread nD τ), .dma (j : DmaSem sig))

abbrev jLoc : Fin 15 := 0
abbrev jYfS (k : Fin 3) : Fin 15 := ⟨1 + k.val, by omega⟩
abbrev jYfR (k : Fin 3) : Fin 15 := ⟨4 + k.val, by omega⟩
abbrev jYdS : Fin 15 := 7
abbrev jYdR : Fin 15 := 8
abbrev jFS (k : Fin 3) : Fin 15 := ⟨9 + k.val, by omega⟩
abbrev jFR (k : Fin 3) : Fin 15 := ⟨12 + k.val, by omega⟩

/-- The printed semaphore views name these numbers. -/
theorem sem_loc : (cc0_scratch0 : DmaSems sig S_).sem = (jLoc : DmaSem sig) := rfl
theorem sem_ydS : (cc0_scratch3 : DmaSems sig S_).sem = (jYdS : DmaSem sig) := rfl
theorem sem_ydR : (cc0_scratch4 : DmaSems sig S_).sem = (jYdR : DmaSem sig) := rfl

/-! ## Contents -/

/-- Device `d`'s argument block as launched, and its result buffer as launched. -/
abbrev xin (d : Dev nD) : Buf (Elt F) ((d : Thread nD τ).loc main_arg0) := m ((d : Thread nD τ).loc main_arg0)
abbrev vin (d : Dev nD) : Buf (Elt F) ((d : Thread nD τ).loc main_v1) := m ((d : Thread nD τ).loc main_v1)

/-- Which device's argument block row `r` of `c`'s result comes from: its own for its own row half; for the other half
    `yp c`'s, except the 192 rows `yp c` does not send — rows [320, 512) of that half when x = 0, rows [0, 192) when
    x = 1 —, which come from `yp (xp c)` by way of `xp c`. -/
def srcDev (c : Dev nD) (r : ℕ) : Dev nD :=
  if r / 512 = c.val / 4 % 2 then c
  else if (c.val / 8 = 0 ∧ 320 ≤ r % 512) ∨ (c.val / 8 = 1 ∧ r % 512 < 192) then yp (xp c) else yp c

/-- What device `c`'s result buffer ends holding: entry (r, q) is entry (r mod 512, 512·y + q) of the argument block of
    `srcDev c r`. -/
def Fout (c : Dev nD) : Buf (Elt F) ((c : Thread nD τ).loc main_v1) := fun (i : S1024x512.Idx) =>
  xin m (srcDev c (i 0).val) (ix2 (⟨(i 0).val % 512, Nat.mod_lt _ (by decide)⟩ : Fin 512)
    (⟨512 * (c.val / 4 % 2) + (i 1).val, by have h : (i 1).val < 512 := (i 1).isLt; omega⟩ : Fin 1024))

/-! ## The regions of a device's two buffers, as assertions -/

def argW (c : Dev nD) (f : Buf (Elt F) ((c : Thread nD τ).loc main_arg0)) : sProp 𝕄 := ((c : Thread nD τ).loc main_arg0) ↦{fullShare} f
def outW (c : Dev nD) (f : Buf (Elt F) ((c : Thread nD τ).loc main_v1)) : sProp 𝕄 := ((c : Thread nD τ).loc main_v1) ↦{fullShare} f

/-- The device's own row half of its result (the local copy's destination). -/
def ownR (c : Dev nD) (f : Buf (Elt F) ((c : Thread nD τ).loc main_v1)) : sProp 𝕄 :=
  (ownDst c).view.loc (c : Thread nD τ) ↦[(ownDst c).view.set]{fullShare} f
/-- Where chunk `k` from `yp c` lands on `c` (named through the sender's slice). -/
def landYF (c : Dev nD) (k : Fin 3) (f : Buf (Elt F) ((c : Thread nD τ).loc main_v1)) : sProp 𝕄 :=
  (yfDst (yp c) k).view.loc (c : Thread nD τ) ↦[(yfDst (yp c) k).view.set]{fullShare} f
/-- Where the direct stretch from `yp c` lands on `c`. -/
def landYD (c : Dev nD) (f : Buf (Elt F) ((c : Thread nD τ).loc main_v1)) : sProp 𝕄 :=
  (ydDst (yp c)).view.loc (c : Thread nD τ) ↦[(ydDst (yp c)).view.set]{fullShare} f
/-- Where chunk `k` forwarded by `xp c` lands on `c`. -/
def landFW (c : Dev nD) (k : Fin 3) (f : Buf (Elt F) ((c : Thread nD τ).loc main_v1)) : sProp 𝕄 :=
  (fwV (xp c) k).view.loc (c : Thread nD τ) ↦[(fwV (xp c) k).view.set]{fullShare} f
/-- Chunk `k` on `c` as the source of `c`'s own forward (the same rows as `landYF c k`). -/
def fwSrcR (c : Dev nD) (k : Fin 3) (f : Buf (Elt F) ((c : Thread nD τ).loc main_v1)) : sProp 𝕄 :=
  (fwV c k).view.loc (c : Thread nD τ) ↦[(fwV c k).view.set]{fullShare} f
/-- The source regions of the argument buffer. -/
def srcOwn (c : Dev nD) (f : Buf (Elt F) ((c : Thread nD τ).loc main_arg0)) : sProp 𝕄 :=
  (ownSrc c).view.loc (c : Thread nD τ) ↦[(ownSrc c).view.set]{fullShare} f
def srcYF (c : Dev nD) (k : Fin 3) (f : Buf (Elt F) ((c : Thread nD τ).loc main_arg0)) : sProp 𝕄 :=
  (yfSrc c k).view.loc (c : Thread nD τ) ↦[(yfSrc c k).view.set]{fullShare} f
def srcYD (c : Dev nD) (f : Buf (Elt F) ((c : Thread nD τ).loc main_arg0)) : sProp 𝕄 :=
  (ydSrc c).view.loc (c : Thread nD τ) ↦[(ydSrc c).view.set]{fullShare} f

/-! ## The schedule: one round -/

/-- The DMA credit of a 64 × 512, a 128 × 512 and a 512 × 512 slice. -/
abbrev N64 : ℕ := (fwV (0 : Dev nD) (0 : Fin 3)).view.dmaCredit
abbrev N128 : ℕ := (ydDst (0 : Dev nD)).view.dmaCredit
abbrev N512 : ℕ := (ownDst (0 : Dev nD)).view.dmaCredit

/-- The units of the one duty of DMA cell `j`. -/
def dmaAmt (j : Fin 15) : ℕ := if j = 0 then N512 else if j = 7 ∨ j = 8 then N128 else N64

theorem dmaAmt_pos (j : Fin 15) : 0 < dmaAmt j := by
  unfold dmaAmt
  split
  · exact View.dmaCredit_pos _ (by decide)
  · split <;> exact View.dmaCredit_pos _ (by decide)

/-- What the one duty of `c`'s DMA cell `j` hands `c`: a send cell the source region back, a receive cell the landing
    region at its final contents, the local copy's cell both. -/
def dmaPay (c : Dev nD) (j : Fin 15) : sProp 𝕄 :=
  match j with
  | 0 => iprop(ownR c (Fout m c) ∗ srcOwn c (xin m c))
  | 1 => srcYF c 0 (xin m c) | 2 => srcYF c 1 (xin m c) | 3 => srcYF c 2 (xin m c)
  | 4 => landYF c 0 (Fout m c) | 5 => landYF c 1 (Fout m c) | 6 => landYF c 2 (Fout m c)
  | 7 => srcYD c (xin m c)
  | 8 => landYD c (Fout m c)
  | 9 => fwSrcR c 0 (Fout m c) | 10 => fwSrcR c 1 (Fout m c) | 11 => fwSrcR c 2 (Fout m c)
  | 12 => landFW c 0 (Fout m c) | 13 => landFW c 1 (Fout m c) | 14 => landFW c 2 (Fout m c)

/-- What `yp c`'s barrier signal hands `c`: the four regions of `yp c`'s result that `c` writes. -/
def barPayY (c : Dev nD) : sProp 𝕄 := iprop(∃ f, landYF (yp c) 0 f ∗ landYF (yp c) 1 f ∗ landYF (yp c) 2 f ∗ landYD (yp c) f)
/-- What `xp c`'s barrier signal hands `c`: the three regions of `xp c`'s result that `c` writes. -/
def barPayX (c : Dev nD) : sProp 𝕄 := iprop(∃ f, landFW (xp c) 0 f ∗ landFW (xp c) 1 f ∗ landFW (xp c) 2 f)

abbrev IsBar (g : GSem nD τ sig) : Prop := g.1.2 = .tc ∧ g.2 = .reg barS
abbrev IsDma (g : GSem nD τ sig) : Prop := g.1.2 = .tc ∧ g.2.isDma = true

/-- One round, round 0: a barrier cell has the duties `false` (from `yp`) and `true` (from `xp`) of one unit each; a DMA
    cell the one duty `false` of its slice's credit. -/
def sched : Rounds.Schedule (GSem nD τ sig) Bool 𝕄 where
  duties g r := if r = 0 ∧ IsBar g then Finset.univ else if r = 0 ∧ IsDma g then {false} else ∅
  unitless _ := False
  amount g _ _ := match g.2 with | .reg _ => 1 | .dma j => dmaAmt j
  payload g _ d := match g.2 with
    | .reg _ => if d then barPayX g.1.1 else barPayY g.1.1
    | .dma j => dmaPay m g.1.1 j
  amount_pos g _ _ _ := by
    rcases g with ⟨t, s⟩
    cases s with
    | reg _ => exact Nat.one_pos
    | dma j => exact dmaAmt_pos j

/-! ## What each device owes at launch, in the order it pays; the levels -/

/-- Summed so that each payment peels the last summand: the two barrier signals first (to `yp c`, then to `xp c`), then
    the three chunks and the direct stretch to `yp c`, then the three forwards to `xp c`. -/
def Oa (c : Dev nD) : CellTallies nD τ sig Unit := tallyAt (dcell (xp c) (jFR 2)) () N64
def Ob (c : Dev nD) : CellTallies nD τ sig Unit := Oa c + tallyAt (dcell (xp c) (jFR 1)) () N64
def Oc (c : Dev nD) : CellTallies nD τ sig Unit := Ob c + tallyAt (dcell (xp c) (jFR 0)) () N64
def Od (c : Dev nD) : CellTallies nD τ sig Unit := Oc c + tallyAt (dcell (yp c) jYdR) () N128
def Oe (c : Dev nD) : CellTallies nD τ sig Unit := Od c + tallyAt (dcell (yp c) (jYfR 2)) () N64
def Of (c : Dev nD) : CellTallies nD τ sig Unit := Oe c + tallyAt (dcell (yp c) (jYfR 1)) () N64
def Og (c : Dev nD) : CellTallies nD τ sig Unit := Of c + tallyAt (dcell (yp c) (jYfR 0)) () N64
def Oh (c : Dev nD) : CellTallies nD τ sig Unit := Og c + tallyAt (barCell (xp c)) () 1
def O₀ (c : Dev nD) : CellTallies nD τ sig Unit := Oh c + tallyAt (barCell (yp c)) () 1

def L (g : GSem nD τ sig) : Finset Unit := if g.1.2 = .tc then {()} else ∅
/-- Barrier cells at 1; the cells `yp` pays into (chunk and direct receive cells) at 2; the forward receive cells at 3;
    every send cell and the local copy's cell at 0. -/
def lv (g : GSem nD τ sig) (_ : Unit) : ℕ := match g.2 with
  | .reg _ => 1
  | .dma j => if (4 ≤ j.val ∧ j.val ≤ 6) ∨ j.val = 8 then 2 else if 12 ≤ j.val then 3 else 0

/-! ## Ghost state -/

/-- A device's sixteen cells as this proof indexes them: the fifteen DMA cells, then the barrier cell. -/
abbrev csem (i : Fin 16) : SemLoc sig := if h : i.val < 15 then .dma ((⟨i.val, h⟩ : Fin 15) : DmaSem sig) else .reg barS
abbrev kcell (ck : Dev nD × Fin 16) : GSem nD τ sig := ((ck.1 : Thread nD τ), csem ck.2)
/-- The kernel's own (scoped) semaphores, as the launch theorem indexes them. -/
abbrev osem : Fin 15 → SemLoc sig := fun j => .dma (j : DmaSem sig)

/-- Every cell's invariant, under the names `K` the launch allocated them at, and that every cell is at round 0 at least. -/
def records (K : Dev nD × Fin 16 → ℕ) : sProp 𝕄 :=
  iprop((bigSep Finset.univ fun ck : Dev nD × Fin 16 => cellInv ER (sched m) (K ck) (kcell ck))
    ∗ bigSep Finset.univ fun ck : Dev nD × Fin 16 => reached ER (kcell ck) 0)

/-- The device's positions on its own sixteen cells. -/
def positions (c : Dev nD) : sProp 𝕄 := bigSep Finset.univ fun i : Fin 16 => atPos ER (kcell (c, i)) 0 ∅ 0

/-- The tokens of the seventeen duties the device pays: a barrier duty of each peer, the seven receive duties its
    transfers land on, and the eight duties of its own send cells and local copy's cell. -/
def payToks (c : Dev nD) : sProp 𝕄 :=
  iprop(dutyTok ER (barCell (yp c)) 0 false ∗ dutyTok ER (barCell (xp c)) 0 true
    ∗ (bigSep Finset.univ fun k : Fin 3 => dutyTok ER (dcell (yp c) (jYfR k)) 0 false) ∗ dutyTok ER (dcell (yp c) jYdR) 0 false
    ∗ (bigSep Finset.univ fun k : Fin 3 => dutyTok ER (dcell (xp c) (jFR k)) 0 false)
    ∗ dutyTok ER (dcell c jLoc) 0 false ∗ (bigSep Finset.univ fun k : Fin 3 => dutyTok ER (dcell c (jYfS k)) 0 false)
    ∗ dutyTok ER (dcell c jYdS) 0 false ∗ (bigSep Finset.univ fun k : Fin 3 => dutyTok ER (dcell c (jFS k)) 0 false))

def ghost (K : Dev nD × Fin 16 → ℕ) (c : Dev nD) : sProp 𝕄 := iprop(records m K ∗ positions c ∗ payToks c)

/-- The credit the device holds at launch on the cells others pay into: two units on its barrier cell, the slices' credits
    on its seven receive cells. -/
def startCreds (c : Dev nD) : sProp 𝕄 :=
  iprop(cred (tallyAt (barCell c) () 2) ∗ (bigSep Finset.univ fun k : Fin 3 => cred (tallyAt (dcell c (jYfR k)) () N64))
    ∗ cred (tallyAt (dcell c jYdR) () N128) ∗ (bigSep Finset.univ fun k : Fin 3 => cred (tallyAt (dcell c (jFR k)) () N64)))

def start (c : Dev nD) : sProp 𝕄 := iprop((∃ K, ghost m K c) ∗ startCreds c ∗ levAts L lv)

/-- The device's fifteen own DMA counters at zero. -/
def ownZero (c : Dev nD) : sProp 𝕄 := bigSep Finset.univ fun j : Fin 15 => semVal (dcell c j) 0

def Φ₀ (c : Dev nD) : sProp 𝕄 := iprop(start m c ∗ argW c (xin m c) ∗ outW c (vin m c))
def Φ₁ (c : Dev nD) : sProp 𝕄 := iprop(argW c (xin m c) ∗ outW c (Fout m c) ∗ ownZero c)

abbrev 𝒱₀ : Variants := Variants.none

/-- What one device's body starts from, the names fixed, and what it ends with. -/
def bodyPre (K : Dev nD × Fin 16 → ℕ) (c : Dev nD) : sProp 𝕄 :=
  iprop(ghost m K c ∗ startCreds c ∗ levAts L lv ∗ argW c (xin m c) ∗ outW c (vin m c) ∗ ∃ W, owes (c : Thread nD τ) (O₀ c) W)
def bodyPost (c : Dev nD) : sProp 𝕄 := iprop(Φ₁ m c ∗ ∃ W, owes (c : Thread nD τ) 0 W)

end Cert.KernelIdealProof

end
-- ==== Proof.KernelIdealSched.lean ====
/-
  The schedule's tables for the all-to-all kernel: per cell of a device, the duties of its one round, their amounts and
  payloads and the units the round expects; the sixteen cells as the ghost state indexes them; the levels, the cells a
  device's debt sits on while it runs, and that each of its waits is on a cell below everything it owes then.
-/
import proofs.«900641_g7700000000000642_dist_a2a_v7x_xyz2x2x4_y_m512_n512_f32_1_alg».proof.Proof.KernelIdealBase

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix2)

variable {F : FTy → Type} [FloatOps F]

local notation "𝕄" => MT nD τ sig Unit (Elt F) ℕ UU ℕ

variable (m : (ℓ : Loc nD τ sig) → Buf (Elt F) ℓ) (ρ : Dev nD → PrngReg)

/-! ## The payloads can be stored in an invariant -/

instance ownR_storable (c : Dev nD) (f : Buf (Elt F) ((c : Thread nD τ).loc main_v1)) : BI.Storable (upEmb : UEmb _ 𝕄) (ownR c f) := by
  unfold ownR; infer_instance
instance landYF_storable (c : Dev nD) (k : Fin 3) (f : Buf (Elt F) ((c : Thread nD τ).loc main_v1)) : BI.Storable (upEmb : UEmb _ 𝕄) (landYF c k f) := by
  unfold landYF; infer_instance
instance landYD_storable (c : Dev nD) (f : Buf (Elt F) ((c : Thread nD τ).loc main_v1)) : BI.Storable (upEmb : UEmb _ 𝕄) (landYD c f) := by
  unfold landYD; infer_instance
instance landFW_storable (c : Dev nD) (k : Fin 3) (f : Buf (Elt F) ((c : Thread nD τ).loc main_v1)) : BI.Storable (upEmb : UEmb _ 𝕄) (landFW c k f) := by
  unfold landFW; infer_instance
instance fwSrcR_storable (c : Dev nD) (k : Fin 3) (f : Buf (Elt F) ((c : Thread nD τ).loc main_v1)) : BI.Storable (upEmb : UEmb _ 𝕄) (fwSrcR c k f) := by
  unfold fwSrcR; infer_instance
instance srcOwn_storable (c : Dev nD) (f : Buf (Elt F) ((c : Thread nD τ).loc main_arg0)) : BI.Storable (upEmb : UEmb _ 𝕄) (srcOwn c f) := by
  unfold srcOwn; infer_instance
instance srcYF_storable (c : Dev nD) (k : Fin 3) (f : Buf (Elt F) ((c : Thread nD τ).loc main_arg0)) : BI.Storable (upEmb : UEmb _ 𝕄) (srcYF c k f) := by
  unfold srcYF; infer_instance
instance srcYD_storable (c : Dev nD) (f : Buf (Elt F) ((c : Thread nD τ).loc main_arg0)) : BI.Storable (upEmb : UEmb _ 𝕄) (srcYD c f) := by
  unfold srcYD; infer_instance
instance barPayY_storable (c : Dev nD) : BI.Storable (upEmb : UEmb _ 𝕄) (barPayY (F := F) c) := by unfold barPayY; infer_instance
instance barPayX_storable (c : Dev nD) : BI.Storable (upEmb : UEmb _ 𝕄) (barPayX (F := F) c) := by unfold barPayX; infer_instance
instance dmaPay_storable (c : Dev nD) (j : Fin 15) : BI.Storable (upEmb : UEmb _ 𝕄) (dmaPay m c j) := by
  fin_cases j <;> (dsimp only [dmaPay]; infer_instance)

instance sched_payload_storable (g : GSem nD τ sig) (r : ℕ) (d : Bool) :
    BI.Storable (upEmb : UEmb _ 𝕄) ((sched (F := F) m).payload g r d) := by
  rcases g with ⟨t, s⟩
  cases s with
  | reg s =>
    show BI.Storable upEmb (if d then barPayX t.1 else barPayY t.1)
    split <;> infer_instance
  | dma j =>
    show BI.Storable upEmb (dmaPay m t.1 j)
    infer_instance

/-! ## The schedule's tables -/

section Sched
variable (c : Dev nD)

theorem not_bar_dma (j : Fin 15) : ¬ IsBar (dcell c j) := fun h => by cases h.2

theorem duties_bar : (sched (F := F) m).duties (barCell c) 0 = Finset.univ := by
  dsimp only [sched]; exact if_pos ⟨rfl, rfl, rfl⟩
theorem duties_dma (j : Fin 15) : (sched (F := F) m).duties (dcell c j) 0 = {false} := by
  dsimp only [sched]; rw [if_neg (fun h => not_bar_dma c j h.2)]; exact if_pos ⟨rfl, rfl, rfl⟩
theorem duties_later (g : GSem nD τ sig) : ∀ r, 1 ≤ r → (sched (F := F) m).duties g r = ∅ :=
  fun r hr => by dsimp only [sched]; rw [if_neg fun h => by omega, if_neg fun h => by omega]

theorem false_mem_duties_bar : false ∈ (sched (F := F) m).duties (barCell c) 0 := by rw [duties_bar]; exact Finset.mem_univ _
theorem true_mem_duties_bar : true ∈ (sched (F := F) m).duties (barCell c) 0 := by rw [duties_bar]; exact Finset.mem_univ _
theorem false_mem_duties_dma (j : Fin 15) : false ∈ (sched (F := F) m).duties (dcell c j) 0 := by
  rw [duties_dma]; exact Finset.mem_singleton_self _

theorem amount_bar (d : Bool) : (sched (F := F) m).amount (barCell c) 0 d = 1 := rfl
theorem amount_dma (j : Fin 15) (d : Bool) : (sched (F := F) m).amount (dcell c j) 0 d = dmaAmt j := rfl

/-- The units of each named cell's duty. -/
theorem dmaAmt_loc : dmaAmt jLoc = N512 := rfl
theorem dmaAmt_yfS (k : Fin 3) : dmaAmt (jYfS k) = N64 := by revert k; decide
theorem dmaAmt_yfR (k : Fin 3) : dmaAmt (jYfR k) = N64 := by revert k; decide
theorem dmaAmt_ydS : dmaAmt jYdS = N128 := by decide
theorem dmaAmt_ydR : dmaAmt jYdR = N128 := by decide
theorem dmaAmt_fS (k : Fin 3) : dmaAmt (jFS k) = N64 := by revert k; decide
theorem dmaAmt_fR (k : Fin 3) : dmaAmt (jFR k) = N64 := by revert k; decide

theorem amount_loc (d : Bool) : (sched (F := F) m).amount (dcell c jLoc) 0 d = N512 := rfl
theorem amount_yfS (k : Fin 3) (d : Bool) : (sched (F := F) m).amount (dcell c (jYfS k)) 0 d = N64 := dmaAmt_yfS k
theorem amount_yfR (k : Fin 3) (d : Bool) : (sched (F := F) m).amount (dcell c (jYfR k)) 0 d = N64 := dmaAmt_yfR k
theorem amount_ydS (d : Bool) : (sched (F := F) m).amount (dcell c jYdS) 0 d = N128 := dmaAmt_ydS
theorem amount_ydR (d : Bool) : (sched (F := F) m).amount (dcell c jYdR) 0 d = N128 := dmaAmt_ydR
theorem amount_fS (k : Fin 3) (d : Bool) : (sched (F := F) m).amount (dcell c (jFS k)) 0 d = N64 := dmaAmt_fS k
theorem amount_fR (k : Fin 3) (d : Bool) : (sched (F := F) m).amount (dcell c (jFR k)) 0 d = N64 := dmaAmt_fR k

/-- A slice's credit depends on its buffer and its shape only. -/
theorem credit_ownDst : (ownDst c).view.dmaCredit = N512 := rfl
theorem credit_ownSrc : (ownSrc c).view.dmaCredit = N512 := rfl
theorem credit_yfDst (k : Fin 3) : (yfDst c k).view.dmaCredit = N64 := rfl
theorem credit_yfSrc (k : Fin 3) : (yfSrc c k).view.dmaCredit = N64 := rfl
theorem credit_ydDst : (ydDst c).view.dmaCredit = N128 := rfl
theorem credit_ydSrc : (ydSrc c).view.dmaCredit = N128 := rfl
theorem credit_fwV (k : Fin 3) : (fwV c k).view.dmaCredit = N64 := rfl
theorem credit_fwLand (k : Fin 3) : (fwLand c k).view.dmaCredit = N64 := rfl

theorem expect_bar : (sched (F := F) m).expect (barCell c) 0 = 2 := by
  unfold Schedule.expect Schedule.amountOf
  rw [duties_bar, Finset.sum_congr rfl fun d _ => amount_bar m c d, Finset.sum_const, Finset.card_univ, Fintype.card_bool, smul_eq_mul]
theorem expect_dma (j : Fin 15) : (sched (F := F) m).expect (dcell c j) 0 = dmaAmt j := by
  unfold Schedule.expect Schedule.amountOf; rw [duties_dma, Finset.sum_singleton, amount_dma]
theorem expect_loc : (sched (F := F) m).expect (dcell c jLoc) 0 = N512 := by rw [expect_dma, dmaAmt_loc]
theorem expect_yfS (k : Fin 3) : (sched (F := F) m).expect (dcell c (jYfS k)) 0 = N64 := by rw [expect_dma, dmaAmt_yfS]
theorem expect_yfR (k : Fin 3) : (sched (F := F) m).expect (dcell c (jYfR k)) 0 = N64 := by rw [expect_dma, dmaAmt_yfR]
theorem expect_ydS : (sched (F := F) m).expect (dcell c jYdS) 0 = N128 := by rw [expect_dma, dmaAmt_ydS]
theorem expect_ydR : (sched (F := F) m).expect (dcell c jYdR) 0 = N128 := by rw [expect_dma, dmaAmt_ydR]
theorem expect_fS (k : Fin 3) : (sched (F := F) m).expect (dcell c (jFS k)) 0 = N64 := by rw [expect_dma, dmaAmt_fS]
theorem expect_fR (k : Fin 3) : (sched (F := F) m).expect (dcell c (jFR k)) 0 = N64 := by rw [expect_dma, dmaAmt_fR]

theorem payload_bar_false : (sched (F := F) m).payload (barCell c) 0 false = barPayY c := rfl
theorem payload_bar_true : (sched (F := F) m).payload (barCell c) 0 true = barPayX c := rfl
theorem payload_dma (j : Fin 15) (d : Bool) : (sched (F := F) m).payload (dcell c j) 0 d = dmaPay m c j := rfl

/-- Each named cell's payload, as the region assertion it is. -/
theorem payload_loc (d : Bool) : (sched (F := F) m).payload (dcell c jLoc) 0 d = iprop(ownR c (Fout m c) ∗ srcOwn c (xin m c)) := rfl
theorem payload_yfS (k : Fin 3) (d : Bool) : (sched (F := F) m).payload (dcell c (jYfS k)) 0 d = srcYF c k (xin m c) := by fin_cases k <;> rfl
theorem payload_yfR (k : Fin 3) (d : Bool) : (sched (F := F) m).payload (dcell c (jYfR k)) 0 d = landYF c k (Fout m c) := by fin_cases k <;> rfl
theorem payload_ydS (d : Bool) : (sched (F := F) m).payload (dcell c jYdS) 0 d = srcYD c (xin m c) := rfl
theorem payload_ydR (d : Bool) : (sched (F := F) m).payload (dcell c jYdR) 0 d = landYD c (Fout m c) := rfl
theorem payload_fS (k : Fin 3) (d : Bool) : (sched (F := F) m).payload (dcell c (jFS k)) 0 d = fwSrcR c k (Fout m c) := by fin_cases k <;> rfl
theorem payload_fR (k : Fin 3) (d : Bool) : (sched (F := F) m).payload (dcell c (jFR k)) 0 d = landFW c k (Fout m c) := by fin_cases k <;> rfl

/-- The rest of the barrier cell's round, no duty taken: what `yp c` hands over, then what `xp c` hands over. -/
theorem rest_bar : bigSep ((sched (F := F) m).duties (barCell c) 0 \ ∅) (fun d => (sched (F := F) m).payload (barCell c) 0 d) = iprop(barPayY c ∗ barPayX c) := by
  rw [Finset.sdiff_empty, duties_bar, bigSep_univ_eq_bigSepL [false, true] (by decide) (by decide), bigSepL_cons_cons, bigSepL_singleton,
    payload_bar_false, payload_bar_true]
  rfl
theorem rest_dma (j : Fin 15) : bigSep ((sched (F := F) m).duties (dcell c j) 0 \ ∅) (fun d => (sched (F := F) m).payload (dcell c j) 0 d) = dmaPay m c j := by
  rw [Finset.sdiff_empty, duties_dma, bigSep_singleton, payload_dma]
theorem rest_loc : bigSep ((sched (F := F) m).duties (dcell c jLoc) 0 \ ∅) (fun d => (sched (F := F) m).payload (dcell c jLoc) 0 d) = iprop(ownR c (Fout m c) ∗ srcOwn c (xin m c)) := by
  rw [rest_dma]; rfl
theorem rest_yfS (k : Fin 3) : bigSep ((sched (F := F) m).duties (dcell c (jYfS k)) 0 \ ∅) (fun d => (sched (F := F) m).payload (dcell c (jYfS k)) 0 d) = srcYF c k (xin m c) := by
  rw [Finset.sdiff_empty, duties_dma, bigSep_singleton, payload_yfS]
theorem rest_yfR (k : Fin 3) : bigSep ((sched (F := F) m).duties (dcell c (jYfR k)) 0 \ ∅) (fun d => (sched (F := F) m).payload (dcell c (jYfR k)) 0 d) = landYF c k (Fout m c) := by
  rw [Finset.sdiff_empty, duties_dma, bigSep_singleton, payload_yfR]
theorem rest_ydS : bigSep ((sched (F := F) m).duties (dcell c jYdS) 0 \ ∅) (fun d => (sched (F := F) m).payload (dcell c jYdS) 0 d) = srcYD c (xin m c) := by
  rw [Finset.sdiff_empty, duties_dma, bigSep_singleton, payload_ydS]
theorem rest_ydR : bigSep ((sched (F := F) m).duties (dcell c jYdR) 0 \ ∅) (fun d => (sched (F := F) m).payload (dcell c jYdR) 0 d) = landYD c (Fout m c) := by
  rw [Finset.sdiff_empty, duties_dma, bigSep_singleton, payload_ydR]
theorem rest_fS (k : Fin 3) : bigSep ((sched (F := F) m).duties (dcell c (jFS k)) 0 \ ∅) (fun d => (sched (F := F) m).payload (dcell c (jFS k)) 0 d) = fwSrcR c k (Fout m c) := by
  rw [Finset.sdiff_empty, duties_dma, bigSep_singleton, payload_fS]
theorem rest_fR (k : Fin 3) : bigSep ((sched (F := F) m).duties (dcell c (jFR k)) 0 \ ∅) (fun d => (sched (F := F) m).payload (dcell c (jFR k)) 0 d) = landFW c k (Fout m c) := by
  rw [Finset.sdiff_empty, duties_dma, bigSep_singleton, payload_fR]

end Sched

/-! ## The sixteen cells of a device, as the ghost state indexes them -/

theorem kcell_dma (c : Dev nD) (j : Fin 15) : kcell (c, (⟨j.val, Nat.lt_succ_of_lt j.isLt⟩ : Fin 16)) = dcell c j := by
  show ((c : Thread nD τ), csem ⟨j.val, _⟩) = dcell c j
  unfold csem; rw [dif_pos j.isLt]
theorem kcell_castSucc (c : Dev nD) (j : Fin 15) : kcell (c, Fin.castSucc j) = dcell c j := kcell_dma c j
theorem kcell_bar (c : Dev nD) : kcell (c, (15 : Fin 16)) = barCell c := by
  show ((c : Thread nD τ), csem 15) = barCell c
  unfold csem; rw [dif_neg (by decide)]
theorem kcell_last (c : Dev nD) : kcell (c, Fin.last 15) = barCell c := kcell_bar c

theorem csem_injective : Function.Injective csem := by
  intro i i' h
  unfold csem at h
  by_cases hi : i.val < 15 <;> by_cases hi' : i'.val < 15
  · rw [dif_pos hi, dif_pos hi'] at h
    have h3 := SemLoc.dma.inj h
    exact Fin.ext (Fin.mk.inj h3)
  · rw [dif_pos hi, dif_neg hi'] at h; cases h
  · rw [dif_neg hi, dif_pos hi'] at h; cases h
  · exact Fin.ext (by have := i.isLt; have := i'.isLt; omega)

theorem kcell_injective : Function.Injective kcell := by
  rintro ⟨c, i⟩ ⟨c', i'⟩ h
  have h1 : c = c' := congrArg (fun g : GSem nD τ sig => g.1.1) h
  have h2 : csem i = csem i' := congrArg Prod.snd h
  rw [h1, csem_injective h2]

/-- Every cell of a TensorCore is one of the sixteen. -/
theorem kcell_surj (c : Dev nD) (sm : SemLoc sig) : ∃ i : Fin 16, kcell (c, i) = ((c : Thread nD τ), sm) := by
  cases sm with
  | reg s =>
    refine ⟨15, ?_⟩
    rw [kcell_bar]
    have hs : s = barS := Subsingleton.elim (α := Fin 1) s barS
    rw [hs]
  | dma j => exact ⟨⟨(j : Fin 15).val, Nat.lt_succ_of_lt (j : Fin 15).isLt⟩, kcell_dma c j⟩

/-! ## The levels; where a device's debt sits -/

open Idealize.ShloMosaic.Pipeline (add_pos_cases tallyAt_pos)

theorem L_of_ne (g : GSem nD τ sig) (h : g.1.2 ≠ .tc) : L g = ∅ := if_neg h
theorem L_tc (c : Dev nD) (sm : SemLoc sig) : L ((c : Thread nD τ), sm) = {()} := if_pos rfl
/-- The form the launch theorem asks for. -/
theorem hL : ∀ g : GSem nD τ sig, g.1.2 ≠ .tc → L g = ∅ := L_of_ne

theorem lv_bar (c : Dev nD) : lv (barCell c) () = 1 := rfl
theorem lv_dcell (c : Dev nD) (j : Fin 15) :
    lv (dcell c j) () = if (4 ≤ j.val ∧ j.val ≤ 6) ∨ j.val = 8 then 2 else if 12 ≤ j.val then 3 else 0 := rfl
theorem lv_loc (c : Dev nD) : lv (dcell c jLoc) () = 0 := by rw [lv_dcell]; decide
theorem lv_yfS (c : Dev nD) (k : Fin 3) : lv (dcell c (jYfS k)) () = 0 := by rw [lv_dcell]; revert k; decide
theorem lv_yfR (c : Dev nD) (k : Fin 3) : lv (dcell c (jYfR k)) () = 2 := by rw [lv_dcell]; revert k; decide
theorem lv_ydS (c : Dev nD) : lv (dcell c jYdS) () = 0 := by rw [lv_dcell]; decide
theorem lv_ydR (c : Dev nD) : lv (dcell c jYdR) () = 2 := by rw [lv_dcell]; decide
theorem lv_fS (c : Dev nD) (k : Fin 3) : lv (dcell c (jFS k)) () = 0 := by rw [lv_dcell]; revert k; decide
theorem lv_fR (c : Dev nD) (k : Fin 3) : lv (dcell c (jFR k)) () = 3 := by rw [lv_dcell]; revert k; decide

/-- The cells a device may owe units to: both peers' barrier cells, the four cells its transfers to `yp c` land on, the
    three its forwards to `xp c` land on. -/
inductive Owed (c : Dev nD) : GSem nD τ sig → Prop
  | barY : Owed c (barCell (yp c))
  | barX : Owed c (barCell (xp c))
  | yf (k : Fin 3) : Owed c (dcell (yp c) (jYfR k))
  | yd : Owed c (dcell (yp c) jYdR)
  | fw (k : Fin 3) : Owed c (dcell (xp c) (jFR k))

theorem Owed.tc {c : Dev nD} {g : GSem nD τ sig} (h : Owed c g) : g.1.2 = .tc := by cases h <;> rfl
theorem Owed.lv_pos {c : Dev nD} {g : GSem nD τ sig} (h : Owed c g) : 0 < lv g () := by
  cases h with
  | barY => rw [lv_bar]; decide
  | barX => rw [lv_bar]; decide
  | yf k => rw [lv_yfR]; decide
  | yd => rw [lv_ydR]; decide
  | fw k => rw [lv_fR]; decide

/-- The forwards' debt: cells of `xp c` at level 3. -/
theorem Oa_pos {c : Dev nD} {g : GSem nD τ sig} {u : Unit} (h : 0 < Oa c g u) : ∃ k, g = dcell (xp c) (jFR k) :=
  ⟨2, (tallyAt_pos h).1⟩
theorem Ob_pos {c : Dev nD} {g : GSem nD τ sig} {u : Unit} (h : 0 < Ob c g u) : ∃ k, g = dcell (xp c) (jFR k) := by
  rcases add_pos_cases h with h | h
  · exact Oa_pos h
  · exact ⟨1, (tallyAt_pos h).1⟩
theorem Oc_pos {c : Dev nD} {g : GSem nD τ sig} {u : Unit} (h : 0 < Oc c g u) : ∃ k, g = dcell (xp c) (jFR k) := by
  rcases add_pos_cases h with h | h
  · exact Ob_pos h
  · exact ⟨0, (tallyAt_pos h).1⟩
/-- With the transfers to `yp c` still to pay: those cells too, at level 2. -/
theorem Od_pos {c : Dev nD} {g : GSem nD τ sig} {u : Unit} (h : 0 < Od c g u) :
    (∃ k, g = dcell (xp c) (jFR k)) ∨ g = dcell (yp c) jYdR ∨ ∃ k, g = dcell (yp c) (jYfR k) := by
  rcases add_pos_cases h with h | h
  · exact .inl (Oc_pos h)
  · exact .inr (.inl (tallyAt_pos h).1)
theorem Oe_pos {c : Dev nD} {g : GSem nD τ sig} {u : Unit} (h : 0 < Oe c g u) :
    (∃ k, g = dcell (xp c) (jFR k)) ∨ g = dcell (yp c) jYdR ∨ ∃ k, g = dcell (yp c) (jYfR k) := by
  rcases add_pos_cases h with h | h
  · exact Od_pos h
  · exact .inr (.inr ⟨2, (tallyAt_pos h).1⟩)
theorem Of_pos {c : Dev nD} {g : GSem nD τ sig} {u : Unit} (h : 0 < Of c g u) :
    (∃ k, g = dcell (xp c) (jFR k)) ∨ g = dcell (yp c) jYdR ∨ ∃ k, g = dcell (yp c) (jYfR k) := by
  rcases add_pos_cases h with h | h
  · exact Oe_pos h
  · exact .inr (.inr ⟨1, (tallyAt_pos h).1⟩)
theorem Og_pos {c : Dev nD} {g : GSem nD τ sig} {u : Unit} (h : 0 < Og c g u) :
    (∃ k, g = dcell (xp c) (jFR k)) ∨ g = dcell (yp c) jYdR ∨ ∃ k, g = dcell (yp c) (jYfR k) := by
  rcases add_pos_cases h with h | h
  · exact Of_pos h
  · exact .inr (.inr ⟨0, (tallyAt_pos h).1⟩)

theorem Og_owed {c : Dev nD} {g : GSem nD τ sig} {u : Unit} (h : 0 < Og c g u) : Owed c g := by
  rcases Og_pos h with ⟨k, rfl⟩ | rfl | ⟨k, rfl⟩
  · exact .fw k
  · exact .yd
  · exact .yf k
theorem Oh_pos {c : Dev nD} {g : GSem nD τ sig} {u : Unit} (h : 0 < Oh c g u) : Owed c g := by
  rcases add_pos_cases h with h | h
  · exact Og_owed h
  · rw [(tallyAt_pos h).1]; exact .barX
/-- Everything a device owes at launch sits on one of the nine cells. -/
theorem O₀_pos {c : Dev nD} {g : GSem nD τ sig} {u : Unit} (h : 0 < O₀ c g u) : Owed c g := by
  rcases add_pos_cases h with h | h
  · exact Oh_pos h
  · rw [(tallyAt_pos h).1]; exact .barY

/-! ## The waits are below what is owed -/

/-- A wait on a cell at level at most `b` while every cell owed sits on a TensorCore above `b`. -/
theorem mayWait_cut (c : Dev nD) (s : SemLoc sig) (b : ℕ) (O : CellTallies nD τ sig Unit) (hs : lv ((c : Thread nD τ), s) () ≤ b)
    (hO : ∀ g u, 0 < O g u → g.1.2 = .tc ∧ b < lv g u) :
    (levAts L lv : sProp 𝕄) ⊢ MayWait (c : Thread nD τ) s () O :=
  MayOwe.of_cut (L := L) (lev := lv) b (fun p hp => by rw [Finset.mem_singleton.mp hp, L_tc]; exact Finset.mem_singleton_self _)
    (fun g u hg => by unfold L; rw [if_pos (hO g u hg).1]; exact Finset.mem_singleton_self _)
    (fun p hp => by rw [Finset.mem_singleton.mp hp]; exact hs)
    (fun g u hg => (hO g u hg).2)

/-- The barrier wait: level 1, below every receive cell (levels 2 and 3). -/
theorem mayWait_bar (c : Dev nD) : (levAts L lv : sProp 𝕄) ⊢ MayWait (c : Thread nD τ) (.reg barS) () (Og c) :=
  mayWait_cut c _ 1 _ (le_refl _) fun g u hg => by
    rcases Og_pos hg with ⟨k, rfl⟩ | rfl | ⟨k, rfl⟩
    · exact ⟨rfl, by rw [lv_fR]; decide⟩
    · exact ⟨rfl, by rw [lv_ydR]; decide⟩
    · exact ⟨rfl, by rw [lv_yfR]; decide⟩

/-- A wait for a chunk from `yp c` (level 2) while only forwards to `xp c` are owed (level 3). -/
theorem mayWait_yfR_of (c : Dev nD) (k : Fin 3) (O : CellTallies nD τ sig Unit) (hO : ∀ g u, 0 < O g u → ∃ k', g = dcell (xp c) (jFR k')) :
    (levAts L lv : sProp 𝕄) ⊢ MayWait (c : Thread nD τ) (.dma (jYfR k : DmaSem sig)) () O :=
  mayWait_cut c _ 2 _ (by show lv (dcell c (jYfR k)) () ≤ 2; rw [lv_yfR]) fun g u hg => by
    obtain ⟨k', rfl⟩ := hO g u hg
    exact ⟨rfl, by rw [lv_fR]; decide⟩
theorem mayWait_yfR0 (c : Dev nD) : (levAts L lv : sProp 𝕄) ⊢ MayWait (c : Thread nD τ) (.dma (jYfR 0 : DmaSem sig)) () (Oc c) :=
  mayWait_yfR_of c 0 _ fun _ _ h => Oc_pos h
theorem mayWait_yfR1 (c : Dev nD) : (levAts L lv : sProp 𝕄) ⊢ MayWait (c : Thread nD τ) (.dma (jYfR 1 : DmaSem sig)) () (Ob c) :=
  mayWait_yfR_of c 1 _ fun _ _ h => Ob_pos h
theorem mayWait_yfR2 (c : Dev nD) : (levAts L lv : sProp 𝕄) ⊢ MayWait (c : Thread nD τ) (.dma (jYfR 2 : DmaSem sig)) () (Oa c) :=
  mayWait_yfR_of c 2 _ fun _ _ h => Oa_pos h

/-- A wait on a cell at level 0 (the local copy's cell, a send cell) under any debt on the nine cells. -/
theorem mayWait_lv0 (c : Dev nD) (s : SemLoc sig) (hs : lv ((c : Thread nD τ), s) () = 0) (O : CellTallies nD τ sig Unit)
    (hO : ∀ g u, 0 < O g u → Owed c g) :
    (levAts L lv : sProp 𝕄) ⊢ MayWait (c : Thread nD τ) s () O :=
  mayWait_cut c _ 0 _ (le_of_eq hs) fun g u hg => ⟨(hO g u hg).tc, (hO g u hg).lv_pos⟩

/-- Owing nothing, any wait. -/
theorem mayWait_none (c : Dev nD) (s : SemLoc sig) : (levAts L lv : sProp 𝕄) ⊢ MayWait (c : Thread nD τ) s () 0 := by
  rw [MayWait_zero]; iintro -; iempintro

/-- info: 'Cert.KernelIdealProof.mayWait_bar' depends on axioms: [propext, Classical.choice, Quot.sound] -/
#guard_msgs in #print axioms mayWait_bar

end Cert.KernelIdealProof

end
-- ==== Proof.KernelIdealRegions.lean ====
/-
  The regions of a device's two HBM buffers.

  Device `c` sits at mesh coordinates x = c / 8, y = c / 4 % 2. Its result buffer has 1024 rows of 512 columns, and the
  protocol's eight regions are bands of whole rows that partition them: the device's own half, rows [512·y, 512·y + 512);
  and, inside the other half, which starts at row 512·(1 − y): the three chunks `yp c` sends, rows 320·x + 64·k onwards
  (64 each); the direct stretch from `yp c`, rows [192, 320); the three chunks `xp c` forwards, rows 320·(1 − x) + 64·k
  onwards (64 each). For x = 0 the other half reads chunks, stretch, forwards; for x = 1 forwards, stretch, chunks.
  Its argument buffer has 512 rows of 1024 columns; the transfers read five rectangles of it: the own column half
  (all rows, columns [512·y, 512·y + 512)) and, in the other column half, the three chunks (rows 320·x + 64·k onwards)
  and the stretch (rows [192, 320)); 192 rows of the other column half are read by no transfer.

  Every region is a unit-stride rectangle of a whole buffer, so its element set is the rectangle's, and membership is
  two inequalities per axis; with the offsets in closed form all that remains is linear arithmetic in x, y ∈ {0, 1}.
  A points-to on a disjoint union is the ∗ of the points-tos on the parts, at one contents function: that is the whole
  of the two splitting lemmas.
-/
import proofs.«900641_g7700000000000642_dist_a2a_v7x_xyz2x2x4_y_m512_n512_f32_1_alg».proof.Proof.KernelIdealBase

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix2)

variable {F : FTy → Type} [FloatOps F]

local notation "𝕄" => MT nD τ sig Unit (Elt F) ℕ UU ℕ

variable (m : (ℓ : Loc nD τ sig) → Buf (Elt F) ℓ) (ρ : Dev nD → PrngReg)

namespace Regions

/-! ## Membership in a unit-stride rectangle of a matrix, by coordinates -/

theorem mem_rect2 {R C : Nat} {off : Fin 2 → Nat} {n p : Nat} {inb} (o₀ o₁ : Nat) (h : off = ![o₀, o₁])
    (i : (⟨2, ![R, C]⟩ : Shape).Idx) :
    i ∈ (Rect.unit (s := ⟨2, ![R, C]⟩) off ![n, p] inb).set ↔
      (o₀ ≤ (i 0 : Nat) ∧ (i 0 : Nat) < o₀ + n) ∧ (o₁ ≤ (i 1 : Nat) ∧ (i 1 : Nat) < o₁ + p) := by
  subst h
  rw [Rect.mem_set_unit, Fin.forall_fin_two]
  simp only [Matrix.cons_val_zero, Matrix.cons_val_one, Matrix.head_cons]

/-- A band of whole rows. -/
theorem mem_rows {R C : Nat} {off : Fin 2 → Nat} {n : Nat} {inb} (o : Nat) (h : off = ![o, 0])
    (i : (⟨2, ![R, C]⟩ : Shape).Idx) :
    i ∈ (Rect.unit (s := ⟨2, ![R, C]⟩) off ![n, C] inb).set ↔ o ≤ (i 0 : Nat) ∧ (i 0 : Nat) < o + n := by
  have h1 : (i 1 : Nat) < C := (i 1).isLt
  rw [mem_rect2 o 0 h]
  omega

/-! ## The peers' mesh coordinates -/

theorem yp_x (c : Dev nD) : (yp c).val / 8 = c.val / 8 := by revert c; decide
theorem yp_y (c : Dev nD) : (yp c).val / 4 % 2 = 1 - c.val / 4 % 2 := by revert c; decide
theorem xp_x (c : Dev nD) : (xp c).val / 8 = 1 - c.val / 8 := by revert c; decide
theorem xp_y (c : Dev nD) : (xp c).val / 4 % 2 = c.val / 4 % 2 := by revert c; decide

/-- Both coordinates are 0 or 1. -/
theorem xy_cases (c : Dev nD) : (c.val / 8 = 0 ∨ c.val / 8 = 1) ∧ (c.val / 4 % 2 = 0 ∨ c.val / 4 % 2 = 1) := by
  have hc : c.val < 16 := c.isLt
  omega

/-! ## The rows of the result buffer's regions, in the device's own coordinates -/

theorem mem_ownDst (c : Dev nD) (i : S1024x512.Idx) :
    i ∈ (ownDst c).view.set ↔ 512 * (c.val / 4 % 2) ≤ (i 0 : Nat) ∧ (i 0 : Nat) < 512 * (c.val / 4 % 2) + 512 := by
  rw [show (ownDst c).view.set = _ from View.set_slice_whole main_v1 _]
  exact mem_rows _ (k0_off1_eq c) i

theorem mem_yfLand (c : Dev nD) (k : Fin 3) (i : S1024x512.Idx) :
    i ∈ (yfDst (yp c) k).view.set ↔ 512 * (1 - c.val / 4 % 2) + 320 * (c.val / 8) + 64 * k.val ≤ (i 0 : Nat)
      ∧ (i 0 : Nat) < 512 * (1 - c.val / 4 % 2) + 320 * (c.val / 8) + 64 * k.val + 64 := by
  rw [show (yfDst (yp c) k).view.set = _ from View.set_slice_whole main_v1 _, ← yp_y, ← yp_x]
  exact mem_rows _ (k0_off3_eq (yp c) k) i

theorem mem_ydLand (c : Dev nD) (i : S1024x512.Idx) :
    i ∈ (ydDst (yp c)).view.set ↔ 512 * (1 - c.val / 4 % 2) + 192 ≤ (i 0 : Nat)
      ∧ (i 0 : Nat) < 512 * (1 - c.val / 4 % 2) + 192 + 128 := by
  rw [show (ydDst (yp c)).view.set = _ from View.set_slice_whole main_v1 _, ← yp_y]
  exact mem_rows _ (k0_off5_eq (yp c)) i

theorem mem_fwLand (c : Dev nD) (k : Fin 3) (i : S1024x512.Idx) :
    i ∈ (fwV (xp c) k).view.set ↔ (320 * (1 - c.val / 8) + 64 * k.val + 512) - 512 * (c.val / 4 % 2) ≤ (i 0 : Nat)
      ∧ (i 0 : Nat) < (320 * (1 - c.val / 8) + 64 * k.val + 512) - 512 * (c.val / 4 % 2) + 64 := by
  rw [show (fwV (xp c) k).view.set = _ from View.set_slice_whole main_v1 _, ← xp_y, ← xp_x]
  exact mem_rows _ (k0_off7_eq (xp c) k) i

/-! ## The result buffer: the eight regions cover it and are pairwise disjoint -/

theorem out_cover (c : Dev nD) :
    (Finset.univ : Finset S1024x512.Idx) = (ownDst c).view.set ∪ ((yfDst (yp c) 0).view.set ∪ ((yfDst (yp c) 1).view.set ∪
      ((yfDst (yp c) 2).view.set ∪ ((ydDst (yp c)).view.set ∪ ((fwV (xp c) 0).view.set ∪ ((fwV (xp c) 1).view.set ∪
        (fwV (xp c) 2).view.set)))))) := by
  ext i
  have hi : (i 0 : Nat) < 1024 := (i 0).isLt
  rw [Finset.mem_union, Finset.mem_union, Finset.mem_union, Finset.mem_union, Finset.mem_union, Finset.mem_union,
    Finset.mem_union, mem_ownDst, mem_yfLand, mem_yfLand, mem_yfLand, mem_ydLand, mem_fwLand, mem_fwLand, mem_fwLand]
  simp only [Finset.mem_univ, true_iff, Fin.val_zero, Fin.val_one, Fin.val_two]
  obtain ⟨hx | hx, hy | hy⟩ := xy_cases c <;> omega

theorem out_disj₁ (c : Dev nD) :
    Disjoint (ownDst c).view.set ((yfDst (yp c) 0).view.set ∪ ((yfDst (yp c) 1).view.set ∪
      ((yfDst (yp c) 2).view.set ∪ ((ydDst (yp c)).view.set ∪ ((fwV (xp c) 0).view.set ∪ ((fwV (xp c) 1).view.set ∪
        (fwV (xp c) 2).view.set)))))) := by
  refine Finset.disjoint_left.mpr fun i h1 h2 => ?_
  rw [Finset.mem_union, Finset.mem_union, Finset.mem_union, Finset.mem_union, Finset.mem_union, Finset.mem_union,
    mem_yfLand, mem_yfLand, mem_yfLand, mem_ydLand, mem_fwLand, mem_fwLand, mem_fwLand] at h2
  rw [mem_ownDst] at h1
  simp only [Fin.val_zero, Fin.val_one, Fin.val_two] at h2
  obtain ⟨hx | hx, hy | hy⟩ := xy_cases c <;> omega

theorem out_disj₂ (c : Dev nD) :
    Disjoint (yfDst (yp c) 0).view.set ((yfDst (yp c) 1).view.set ∪
      ((yfDst (yp c) 2).view.set ∪ ((ydDst (yp c)).view.set ∪ ((fwV (xp c) 0).view.set ∪ ((fwV (xp c) 1).view.set ∪
        (fwV (xp c) 2).view.set))))) := by
  refine Finset.disjoint_left.mpr fun i h1 h2 => ?_
  rw [Finset.mem_union, Finset.mem_union, Finset.mem_union, Finset.mem_union, Finset.mem_union,
    mem_yfLand, mem_yfLand, mem_ydLand, mem_fwLand, mem_fwLand, mem_fwLand] at h2
  rw [mem_yfLand] at h1
  simp only [Fin.val_zero, Fin.val_one, Fin.val_two] at h1 h2
  obtain ⟨hx | hx, hy | hy⟩ := xy_cases c <;> omega

theorem out_disj₃ (c : Dev nD) :
    Disjoint (yfDst (yp c) 1).view.set ((yfDst (yp c) 2).view.set ∪ ((ydDst (yp c)).view.set ∪
      ((fwV (xp c) 0).view.set ∪ ((fwV (xp c) 1).view.set ∪ (fwV (xp c) 2).view.set)))) := by
  refine Finset.disjoint_left.mpr fun i h1 h2 => ?_
  rw [Finset.mem_union, Finset.mem_union, Finset.mem_union, Finset.mem_union,
    mem_yfLand, mem_ydLand, mem_fwLand, mem_fwLand, mem_fwLand] at h2
  rw [mem_yfLand] at h1
  simp only [Fin.val_zero, Fin.val_one, Fin.val_two] at h1 h2
  obtain ⟨hx | hx, hy | hy⟩ := xy_cases c <;> omega

theorem out_disj₄ (c : Dev nD) :
    Disjoint (yfDst (yp c) 2).view.set ((ydDst (yp c)).view.set ∪
      ((fwV (xp c) 0).view.set ∪ ((fwV (xp c) 1).view.set ∪ (fwV (xp c) 2).view.set))) := by
  refine Finset.disjoint_left.mpr fun i h1 h2 => ?_
  rw [Finset.mem_union, Finset.mem_union, Finset.mem_union, mem_ydLand, mem_fwLand, mem_fwLand, mem_fwLand] at h2
  rw [mem_yfLand] at h1
  simp only [Fin.val_zero, Fin.val_one, Fin.val_two] at h1 h2
  obtain ⟨hx | hx, hy | hy⟩ := xy_cases c <;> omega

theorem out_disj₅ (c : Dev nD) :
    Disjoint (ydDst (yp c)).view.set ((fwV (xp c) 0).view.set ∪ ((fwV (xp c) 1).view.set ∪ (fwV (xp c) 2).view.set)) := by
  refine Finset.disjoint_left.mpr fun i h1 h2 => ?_
  rw [Finset.mem_union, Finset.mem_union, mem_fwLand, mem_fwLand, mem_fwLand] at h2
  rw [mem_ydLand] at h1
  simp only [Fin.val_zero, Fin.val_one, Fin.val_two] at h2
  obtain ⟨hx | hx, hy | hy⟩ := xy_cases c <;> omega

theorem out_disj₆ (c : Dev nD) :
    Disjoint (fwV (xp c) 0).view.set ((fwV (xp c) 1).view.set ∪ (fwV (xp c) 2).view.set) := by
  refine Finset.disjoint_left.mpr fun i h1 h2 => ?_
  rw [Finset.mem_union, mem_fwLand, mem_fwLand] at h2
  rw [mem_fwLand] at h1
  simp only [Fin.val_zero, Fin.val_one, Fin.val_two] at h1 h2
  obtain ⟨hx | hx, hy | hy⟩ := xy_cases c <;> omega

theorem out_disj₇ (c : Dev nD) : Disjoint (fwV (xp c) 1).view.set (fwV (xp c) 2).view.set := by
  refine Finset.disjoint_left.mpr fun i h1 h2 => ?_
  rw [mem_fwLand] at h1 h2
  simp only [Fin.val_zero, Fin.val_one, Fin.val_two] at h1 h2
  obtain ⟨hx | hx, hy | hy⟩ := xy_cases c <;> omega

/-! ## The argument buffer's source rectangles -/

theorem mem_ownSrc (c : Dev nD) (i : S512x1024.Idx) :
    i ∈ (ownSrc c).view.set ↔ 512 * (c.val / 4 % 2) ≤ (i 1 : Nat) ∧ (i 1 : Nat) < 512 * (c.val / 4 % 2) + 512 := by
  have h0 : (i 0 : Nat) < 512 := (i 0).isLt
  rw [show (ownSrc c).view.set = _ from View.set_slice_whole main_arg0 _, mem_rect2 0 _ (k0_off2_eq c) i]
  omega

theorem mem_yfSrc (c : Dev nD) (k : Fin 3) (i : S512x1024.Idx) :
    i ∈ (yfSrc c k).view.set ↔
      (320 * (c.val / 8) + 64 * k.val ≤ (i 0 : Nat) ∧ (i 0 : Nat) < 320 * (c.val / 8) + 64 * k.val + 64)
        ∧ (512 - 512 * (c.val / 4 % 2) ≤ (i 1 : Nat) ∧ (i 1 : Nat) < 512 - 512 * (c.val / 4 % 2) + 512) := by
  rw [show (yfSrc c k).view.set = _ from View.set_slice_whole main_arg0 _]
  exact mem_rect2 _ _ (k0_off4_eq c k) i

theorem mem_ydSrc (c : Dev nD) (i : S512x1024.Idx) :
    i ∈ (ydSrc c).view.set ↔
      (192 ≤ (i 0 : Nat) ∧ (i 0 : Nat) < 192 + 128)
        ∧ (512 - 512 * (c.val / 4 % 2) ≤ (i 1 : Nat) ∧ (i 1 : Nat) < 512 - 512 * (c.val / 4 % 2) + 512) := by
  rw [show (ydSrc c).view.set = _ from View.set_slice_whole main_arg0 _]
  exact mem_rect2 _ _ (k0_off6_eq c) i

/-- The elements of the argument buffer some transfer reads. -/
def argRead (c : Dev nD) : Finset S512x1024.Idx :=
  (ownSrc c).view.set ∪ ((yfSrc c 0).view.set ∪ ((yfSrc c 1).view.set ∪ ((yfSrc c 2).view.set ∪ (ydSrc c).view.set)))

theorem arg_disj₁ (c : Dev nD) :
    Disjoint (ownSrc c).view.set ((yfSrc c 0).view.set ∪ ((yfSrc c 1).view.set ∪ ((yfSrc c 2).view.set ∪ (ydSrc c).view.set))) := by
  refine Finset.disjoint_left.mpr fun i h1 h2 => ?_
  rw [Finset.mem_union, Finset.mem_union, Finset.mem_union, mem_yfSrc, mem_yfSrc, mem_yfSrc, mem_ydSrc] at h2
  rw [mem_ownSrc] at h1
  obtain ⟨hx | hx, hy | hy⟩ := xy_cases c <;> omega

theorem arg_disj₂ (c : Dev nD) :
    Disjoint (yfSrc c 0).view.set ((yfSrc c 1).view.set ∪ ((yfSrc c 2).view.set ∪ (ydSrc c).view.set)) := by
  refine Finset.disjoint_left.mpr fun i h1 h2 => ?_
  rw [Finset.mem_union, Finset.mem_union, mem_yfSrc, mem_yfSrc, mem_ydSrc] at h2
  rw [mem_yfSrc] at h1
  simp only [Fin.val_zero, Fin.val_one, Fin.val_two] at h1 h2
  obtain ⟨hx | hx, hy | hy⟩ := xy_cases c <;> omega

theorem arg_disj₃ (c : Dev nD) : Disjoint (yfSrc c 1).view.set ((yfSrc c 2).view.set ∪ (ydSrc c).view.set) := by
  refine Finset.disjoint_left.mpr fun i h1 h2 => ?_
  rw [Finset.mem_union, mem_yfSrc, mem_ydSrc] at h2
  rw [mem_yfSrc] at h1
  simp only [Fin.val_zero, Fin.val_one, Fin.val_two] at h1 h2
  obtain ⟨hx | hx, hy | hy⟩ := xy_cases c <;> omega

theorem arg_disj₄ (c : Dev nD) : Disjoint (yfSrc c 2).view.set (ydSrc c).view.set := by
  refine Finset.disjoint_left.mpr fun i h1 h2 => ?_
  rw [mem_ydSrc] at h2
  rw [mem_yfSrc] at h1
  simp only [Fin.val_zero, Fin.val_one, Fin.val_two] at h1
  obtain ⟨hx | hx, hy | hy⟩ := xy_cases c <;> omega

/-! ## Offsets that name the same rows -/

/-- The rows `yp c` writes chunk `k` to are the rows `c` forwards. -/
theorem off3_yp (c : Dev nD) (k : Fin 3) : k0_off3 (yp c) (K k) = k0_off7 c (K k) := by
  rw [show k0_off3 (yp c) (K k) = _ from k0_off3_eq (yp c) k, show k0_off7 c (K k) = _ from k0_off7_eq c k, yp_x, yp_y]
  refine congrArg (fun t : Nat => ![t, 0]) ?_
  obtain ⟨hx | hx, hy | hy⟩ := xy_cases c <;> omega

/-- The rows `xp c` forwards chunk `k` to are the rows `c`'s wait names. -/
theorem off7_xp (c : Dev nD) (k : Fin 3) : k0_off7 (xp c) (K k) = k0_off8 c (K k) := by
  rw [show k0_off7 (xp c) (K k) = _ from k0_off7_eq (xp c) k, show k0_off8 c (K k) = _ from k0_off8_eq c k, xp_x, xp_y]
  refine congrArg (fun t : Nat => ![t, 0]) ?_
  obtain ⟨hx | hx, hy | hy⟩ := xy_cases c <;> omega

/-- One more part in front of a split. -/
theorem pointsTo_union_cons {ℓ : Loc nD τ sig} {I J : Finset (Idx ℓ)} {q : PosShare TreeShare} {f : Buf (Elt F) ℓ}
    {P : sProp 𝕄} (h : Disjoint I J) (hJ : (ℓ ↦[J]{q} f : sProp 𝕄) ⊣⊢ P) :
    (ℓ ↦[I ∪ J]{q} f : sProp 𝕄) ⊣⊢ iprop((ℓ ↦[I]{q} f) ∗ P) :=
  (pointsTo_union h).trans (sep_congr_right hJ)

end Regions

open Regions

/-! ## The statements the other modules use -/

/-- The part of the argument buffer no transfer reads. -/
def argRest (c : Dev nD) (f : Buf (Elt F) ((c : Thread nD τ).loc main_arg0)) : sProp 𝕄 :=
  ((c : Thread nD τ).loc main_arg0) ↦[Finset.univ \ argRead c]{fullShare} f

/-- The whole result buffer is its eight regions, at one contents function. -/
theorem out_split (c : Dev nD) (f : Buf (Elt F) ((c : Thread nD τ).loc main_v1)) :
    outW (F := F) c f ⊣⊢ iprop(ownR c f ∗ landYF c 0 f ∗ landYF c 1 f ∗ landYF c 2 f ∗ landYD c f ∗ landFW c 0 f ∗ landFW c 1 f ∗ landFW c 2 f) := by
  have h := pointsTo_union_cons (F := F) (ℓ := (c : Thread nD τ).loc main_v1) (q := fullShare) (f := f) (out_disj₁ c)
    (pointsTo_union_cons (out_disj₂ c) (pointsTo_union_cons (out_disj₃ c) (pointsTo_union_cons (out_disj₄ c)
      (pointsTo_union_cons (out_disj₅ c) (pointsTo_union_cons (out_disj₆ c) (pointsTo_union (out_disj₇ c)))))))
  rw [← out_cover c] at h
  exact h

/-- The whole argument buffer is its five source rectangles and the rest. -/
theorem arg_split (c : Dev nD) (f : Buf (Elt F) ((c : Thread nD τ).loc main_arg0)) :
    argW (F := F) c f ⊣⊢ iprop(srcOwn c f ∗ srcYF c 0 f ∗ srcYF c 1 f ∗ srcYF c 2 f ∗ srcYD c f ∗ argRest c f) := by
  have h5 := pointsTo_union_cons (F := F) (ℓ := (c : Thread nD τ).loc main_arg0) (q := fullShare) (f := f) (arg_disj₁ c)
    (pointsTo_union_cons (arg_disj₂ c) (pointsTo_union_cons (arg_disj₃ c) (pointsTo_union (arg_disj₄ c))))
  have h := (pointsTo_split_subset (ℓ := (c : Thread nD τ).loc main_arg0) (q := fullShare) (f := f)
    (Finset.subset_univ (argRead c))).trans (sep_congr_left h5)
  exact h.trans (sep_assoc.trans (sep_congr_right (sep_assoc.trans (sep_congr_right (sep_assoc.trans
    (sep_congr_right sep_assoc))))))

/-- The chunk `yp c` sends lands on the rows `c` forwards. -/
theorem yfDst_yp (c : Dev nD) (k : Fin 3) : yfDst (yp c) k = fwV c k :=
  Memref.slice_unit_congr A1 (off3_yp c k) _ _ _ _

/-- The chunk `xp c` forwards lands on the rows `c`'s wait names. -/
theorem fwV_xp (c : Dev nD) (k : Fin 3) : fwV (xp c) k = fwLand c k :=
  Memref.slice_unit_congr A1 (off7_xp c k) _ _ _ _

theorem yfDst_yp_set (c : Dev nD) (k : Fin 3) :
    ((yfDst (yp c) k).view.set : Finset S1024x512.Idx) = (fwV c k).view.set := by
  rw [show (yfDst (yp c) k).view.set = _ from View.set_slice_whole main_v1 _,
    show (fwV c k).view.set = _ from View.set_slice_whole main_v1 _]
  exact congrArg (fun r : Rect S1024x512 => r.set) (Rect.unit_congr (off3_yp c k) _ _)

theorem fwV_xp_set (c : Dev nD) (k : Fin 3) :
    ((fwV (xp c) k).view.set : Finset S1024x512.Idx) = (fwLand c k).view.set := by
  rw [show (fwV (xp c) k).view.set = _ from View.set_slice_whole main_v1 _,
    show (fwLand c k).view.set = _ from View.set_slice_whole main_v1 _]
  exact congrArg (fun r : Rect S1024x512 => r.set) (Rect.unit_congr (off7_xp c k) _ _)

/-- A landed chunk is the source of the device's own forward. -/
theorem landYF_eq (c : Dev nD) (k : Fin 3) (f : Buf (Elt F) ((c : Thread nD τ).loc main_v1)) :
    landYF (F := F) c k f = fwSrcR c k f := by
  unfold landYF fwSrcR
  show pointsTo ((c : Thread nD τ).loc main_v1) (yfDst (yp c) k).view.set fullShare f
    = pointsTo ((c : Thread nD τ).loc main_v1) (fwV c k).view.set fullShare f
  rw [yfDst_yp_set]

/-- Contents off a region are irrelevant to its points-to. -/
theorem region_congr {s : Shape} (M : Memref sig .tc .hbm s .f32) (c : Dev nD)
    (f g : Buf (Elt F) (M.view.loc (c : Thread nD τ))) (h : ∀ i ∈ M.view.set, f i = g i) :
    ((M.view.loc (c : Thread nD τ) ↦[M.view.set]{fullShare} f : sProp 𝕄))
      = (M.view.loc (c : Thread nD τ) ↦[M.view.set]{fullShare} g) :=
  pointsTo_congr h

/-- info: 'Cert.KernelIdealProof.out_split' depends on axioms: [propext, Classical.choice, Quot.sound] -/
#guard_msgs in #print axioms out_split

/-- info: 'Cert.KernelIdealProof.arg_split' depends on axioms: [propext, Classical.choice, Quot.sound] -/
#guard_msgs in #print axioms arg_split

end Cert.KernelIdealProof

end
-- ==== Proof.KernelIdealContents.lean ====
/-
  What each of the kernel's copies writes. Entry (r, q) of device `c`'s final result is entry
  (r mod 512, 512·y + q) of the argument block of `srcDev c r` (`Fout`). Each copy moves a rectangle of rows between
  two buffers at fixed offsets; under its destination rectangle the written contents are the final result of the
  destination's device, because the rectangle's rows all come from one device (the sender, or for a forwarded chunk the
  device the sender received it from) and the row and column offsets of source and destination differ by exactly the
  shift `Fout` prescribes.
-/
import proofs.«900641_g7700000000000642_dist_a2a_v7x_xyz2x2x4_y_m512_n512_f32_1_alg».proof.Proof.KernelIdealBase
import Idealize.ShloMosaic.Lib.Pipeline.Value

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix2)

variable {F : FTy → Type} [FloatOps F]

local notation "𝕄" => MT nD τ sig Unit (Elt F) ℕ UU ℕ

variable (m : (ℓ : Loc nD τ sig) → Buf (Elt F) ℓ) (ρ : Dev nD → PrngReg)

/-! ## A copy between two views, and where a slice's element sits -/

/-- If `H` read through the destination view is `G` read through the source view, then copying what the source view
    reads off `G` leaves, under the destination view, the contents `H` — whatever the destination held. -/
theorem copy_lands {sig : RefSig} {Val : EltTy → Type} {κ κ' : Kind} {sp sp' : Space} {s : Shape} {e : EltTy}
    (src : View sig κ sp s e) (dst : View sig κ' sp' s e) (G : src.ty.Contents Val) (fd H : dst.ty.Contents Val)
    (hGH : dst.read Val H = src.read Val G) :
    ∀ i ∈ dst.set, dst.write Val fd (src.read Val G) Finset.univ i = H i := by
  intro i hi
  obtain ⟨y, rfl⟩ := View.exists_emb_of_mem_set _ hi
  rw [View.write_emb_of_mem _ _ (Finset.mem_univ y), ← hGH, View.read_apply, cast_cast, cast_eq]

/-- An element under a unit-stride slice of a whole buffer sits, on each axis, at the slice's offset plus its own
    coordinate. -/
theorem emb_slice_whole_val {sig : RefSig} {κ : Kind} (b : Ref sig κ) (off size : Fin b.ty.shape.rank → Nat)
    (inb : ∀ a, off a + size a ≤ b.ty.shape.size a) (hr : ∀ a, (Rect.unit off size inb).stride a = 1)
    (y : (Rect.unit off size inb).shape.Idx) (a : Fin b.ty.shape.rank) :
    ((((Memref.whole b).slice (Rect.unit off size inb) hr).view.emb y) a : Nat) = off a + (y a : Nat) := by
  simp only [Memref.view_slice, Memref.view_whole, View.emb_slice, View.emb_whole, Function.Embedding.trans_apply,
    Function.Embedding.refl_apply, Rect.emb_apply]
  show off a + 1 * (y a : Nat) = _
  omega

/-! ## The mesh coordinates of the peers -/

theorem yp_val (c : Dev nD) : (yp c).val = (8 * (c.val / 8) + (c.val % 4) + 4) - 4 * ((c.val / 4) % 2) := rfl
theorem xp_val (c : Dev nD) : (xp c).val = (4 * ((c.val / 4) % 2) + (c.val % 4) + 8) - 8 * (c.val / 8) := rfl

/-- `yp` flips the y-coordinate and keeps the x-coordinate; `xp` the other way round. -/
theorem yp_y (c : Dev nD) : (yp c).val / 4 % 2 = 1 - c.val / 4 % 2 := by
  have h := yp_val c; have hc : c.val < 16 := c.isLt; omega
theorem yp_x (c : Dev nD) : (yp c).val / 8 = c.val / 8 := by
  have h := yp_val c; have hc : c.val < 16 := c.isLt; omega
theorem xp_y (c : Dev nD) : (xp c).val / 4 % 2 = c.val / 4 % 2 := by
  have h := xp_val c; have hc : c.val < 16 := c.isLt; omega
theorem xp_x (c : Dev nD) : (xp c).val / 8 = 1 - c.val / 8 := by
  have h := xp_val c; have hc : c.val < 16 := c.isLt; omega

/-! ## Which device a row comes from, by cases -/

theorem srcDev_own (c : Dev nD) (r : ℕ) (h : r / 512 = c.val / 4 % 2) : srcDev c r = c := if_pos h

theorem srcDev_direct (c : Dev nD) (r : ℕ) (h : ¬r / 512 = c.val / 4 % 2)
    (h' : ¬((c.val / 8 = 0 ∧ 320 ≤ r % 512) ∨ (c.val / 8 = 1 ∧ r % 512 < 192))) : srcDev c r = yp c := by
  unfold srcDev; rw [if_neg h, if_neg h']

theorem srcDev_relay (c : Dev nD) (r : ℕ) (h : ¬r / 512 = c.val / 4 % 2)
    (h' : (c.val / 8 = 0 ∧ 320 ≤ r % 512) ∨ (c.val / 8 = 1 ∧ r % 512 < 192)) : srcDev c r = yp (xp c) := by
  unfold srcDev; rw [if_neg h, if_pos h']

/-- Whatever the case, row `r` of a result comes from a device whose y-coordinate is the row's half `r / 512`. -/
theorem srcDev_y (c : Dev nD) (r : ℕ) (hr : r < 1024) : (srcDev c r).val / 4 % 2 = r / 512 := by
  have hc : c.val < 16 := c.isLt
  unfold srcDev
  split
  · next h => exact h.symm
  · next h =>
    split
    · rw [yp_y, xp_y]; omega
    · rw [yp_y]; omega

/-- The final result at an index, once the row's source device and the argument block's index are named. -/
theorem Fout_apply (c : Dev nD) (i : S1024x512.Idx) (d : Dev nD) (j : S512x1024.Idx)
    (hd : srcDev c (i 0).val = d) (h0 : (j 0).val = (i 0).val % 512)
    (h1 : (j 1).val = 512 * (c.val / 4 % 2) + (i 1).val) : Fout m c i = xin m d j := by
  subst hd
  unfold Fout
  congr 1
  funext a
  match a with
  | ⟨0, _⟩ => exact Fin.ext h0.symm
  | ⟨1, _⟩ => exact Fin.ext h1.symm

/-! ## The four kinds of copy -/

/-- The local copy writes the device's own row half of its final result. -/
theorem own_content (c : Dev nD) (fd : Buf (Elt F) ((ownDst c).view.loc (c : Thread nD τ))) :
    ∀ i ∈ (ownDst c).view.set,
      ((ownDst c).view.write (Elt F) fd ((ownSrc c).view.read (Elt F) (xin m c)) Finset.univ) i = Fout m c i := by
  refine copy_lands (ownSrc c).view (ownDst c).view (xin m c) fd (Fout m c) (funext fun y => ?_)
  rw [View.read_apply, View.read_apply]
  show Fout m c ((ownDst c).view.emb y) = xin m c ((ownSrc c).view.emb y)
  have hc : c.val < 16 := c.isLt
  have hy0 : (y 0 : Nat) < 512 := (y 0).isLt
  have hy1 : (y 1 : Nat) < 512 := (y 1).isLt
  have d0 : (((ownDst c).view.emb y) 0 : Nat) = 512 * (c.val / 4 % 2) + (y 0 : Nat) :=
    (emb_slice_whole_val main_v1 (k0_off1 c) S512x512.size (k0_off1_inb c) (fun _ => rfl) y 0).trans
      (congrArg (· + (y 0 : Nat)) (congrFun (k0_off1_eq c) 0))
  have d1 : (((ownDst c).view.emb y) 1 : Nat) = 0 + (y 1 : Nat) :=
    (emb_slice_whole_val main_v1 (k0_off1 c) S512x512.size (k0_off1_inb c) (fun _ => rfl) y 1).trans
      (congrArg (· + (y 1 : Nat)) (congrFun (k0_off1_eq c) 1))
  have s0 : (((ownSrc c).view.emb y) 0 : Nat) = 0 + (y 0 : Nat) :=
    (emb_slice_whole_val main_arg0 (k0_off2 c) S512x512.size (k0_off2_inb c) (fun _ => rfl) y 0).trans
      (congrArg (· + (y 0 : Nat)) (congrFun (k0_off2_eq c) 0))
  have s1 : (((ownSrc c).view.emb y) 1 : Nat) = 512 * (c.val / 4 % 2) + (y 1 : Nat) :=
    (emb_slice_whole_val main_arg0 (k0_off2 c) S512x512.size (k0_off2_inb c) (fun _ => rfl) y 1).trans
      (congrArg (· + (y 1 : Nat)) (congrFun (k0_off2_eq c) 1))
  refine Fout_apply m c _ c _ (srcDev_own c _ ?_) ?_ ?_
  · rw [d0]; omega
  · rw [s0, d0]; omega
  · rw [s1, d1]; omega

/-- Chunk `k` sent to `yp c` writes 64 rows of `yp c`'s final result. -/
theorem yf_content (c : Dev nD) (k : Fin 3) (fd : Buf (Elt F) ((yfDst c k).view.loc (yp c : Thread nD τ))) :
    ∀ i ∈ (yfDst c k).view.set,
      ((yfDst c k).view.write (Elt F) fd ((yfSrc c k).view.read (Elt F) (xin m c)) Finset.univ) i = Fout m (yp c) i := by
  refine copy_lands (yfSrc c k).view (yfDst c k).view (xin m c) fd (Fout m (yp c)) (funext fun y => ?_)
  rw [View.read_apply, View.read_apply]
  show Fout m (yp c) ((yfDst c k).view.emb y) = xin m c ((yfSrc c k).view.emb y)
  have hc : c.val < 16 := c.isLt
  have hk : k.val < 3 := k.isLt
  have hy0 : (y 0 : Nat) < 64 := (y 0).isLt
  have hy1 : (y 1 : Nat) < 512 := (y 1).isLt
  have d0 : (((yfDst c k).view.emb y) 0 : Nat) = 512 * (c.val / 4 % 2) + 320 * (c.val / 8) + 64 * k.val + (y 0 : Nat) :=
    (emb_slice_whole_val main_v1 (k0_off3 c (K k)) S64x512.size (k0_off3_inb c k) (fun _ => rfl) y 0).trans
      (congrArg (· + (y 0 : Nat)) (congrFun (k0_off3_eq c k) 0))
  have d1 : (((yfDst c k).view.emb y) 1 : Nat) = 0 + (y 1 : Nat) :=
    (emb_slice_whole_val main_v1 (k0_off3 c (K k)) S64x512.size (k0_off3_inb c k) (fun _ => rfl) y 1).trans
      (congrArg (· + (y 1 : Nat)) (congrFun (k0_off3_eq c k) 1))
  have s0 : (((yfSrc c k).view.emb y) 0 : Nat) = 320 * (c.val / 8) + 64 * k.val + (y 0 : Nat) :=
    (emb_slice_whole_val main_arg0 (k0_off4 c (K k)) S64x512.size (k0_off4_inb c k) (fun _ => rfl) y 0).trans
      (congrArg (· + (y 0 : Nat)) (congrFun (k0_off4_eq c k) 0))
  have s1 : (((yfSrc c k).view.emb y) 1 : Nat) = 512 - 512 * (c.val / 4 % 2) + (y 1 : Nat) :=
    (emb_slice_whole_val main_arg0 (k0_off4 c (K k)) S64x512.size (k0_off4_inb c k) (fun _ => rfl) y 1).trans
      (congrArg (· + (y 1 : Nat)) (congrFun (k0_off4_eq c k) 1))
  have py := yp_y c
  have px := yp_x c
  refine Fout_apply m (yp c) _ c _ ((srcDev_direct (yp c) _ ?_ ?_).trans (yp_yp c)) ?_ ?_
  · rw [d0]; omega
  · rw [d0]; omega
  · rw [s0, d0]; omega
  · rw [s1, d1]; omega

/-- The direct stretch sent to `yp c` writes 128 rows of `yp c`'s final result. -/
theorem yd_content (c : Dev nD) (fd : Buf (Elt F) ((ydDst c).view.loc (yp c : Thread nD τ))) :
    ∀ i ∈ (ydDst c).view.set,
      ((ydDst c).view.write (Elt F) fd ((ydSrc c).view.read (Elt F) (xin m c)) Finset.univ) i = Fout m (yp c) i := by
  refine copy_lands (ydSrc c).view (ydDst c).view (xin m c) fd (Fout m (yp c)) (funext fun y => ?_)
  rw [View.read_apply, View.read_apply]
  show Fout m (yp c) ((ydDst c).view.emb y) = xin m c ((ydSrc c).view.emb y)
  have hc : c.val < 16 := c.isLt
  have hy0 : (y 0 : Nat) < 128 := (y 0).isLt
  have hy1 : (y 1 : Nat) < 512 := (y 1).isLt
  have d0 : (((ydDst c).view.emb y) 0 : Nat) = 512 * (c.val / 4 % 2) + 192 + (y 0 : Nat) :=
    (emb_slice_whole_val main_v1 (k0_off5 c) S128x512.size (k0_off5_inb c) (fun _ => rfl) y 0).trans
      (congrArg (· + (y 0 : Nat)) (congrFun (k0_off5_eq c) 0))
  have d1 : (((ydDst c).view.emb y) 1 : Nat) = 0 + (y 1 : Nat) :=
    (emb_slice_whole_val main_v1 (k0_off5 c) S128x512.size (k0_off5_inb c) (fun _ => rfl) y 1).trans
      (congrArg (· + (y 1 : Nat)) (congrFun (k0_off5_eq c) 1))
  have s0 : (((ydSrc c).view.emb y) 0 : Nat) = 192 + (y 0 : Nat) :=
    (emb_slice_whole_val main_arg0 (k0_off6 c) S128x512.size (k0_off6_inb c) (fun _ => rfl) y 0).trans
      (congrArg (· + (y 0 : Nat)) (congrFun (k0_off6_eq c) 0))
  have s1 : (((ydSrc c).view.emb y) 1 : Nat) = 512 - 512 * (c.val / 4 % 2) + (y 1 : Nat) :=
    (emb_slice_whole_val main_arg0 (k0_off6 c) S128x512.size (k0_off6_inb c) (fun _ => rfl) y 1).trans
      (congrArg (· + (y 1 : Nat)) (congrFun (k0_off6_eq c) 1))
  have py := yp_y c
  have px := yp_x c
  refine Fout_apply m (yp c) _ c _ ((srcDev_direct (yp c) _ ?_ ?_).trans (yp_yp c)) ?_ ?_
  · rw [d0]; omega
  · rw [d0]; omega
  · rw [s0, d0]; omega
  · rw [s1, d1]; omega

/-- Chunk `k` forwarded to `xp c` writes 64 rows of `xp c`'s final result: on both devices these rows come from
    `yp c`'s argument block, and the two devices have the same y-coordinate. -/
theorem fw_content (c : Dev nD) (k : Fin 3) (fd : Buf (Elt F) ((fwV c k).view.loc (xp c : Thread nD τ))) :
    ∀ i ∈ (fwV c k).view.set,
      ((fwV c k).view.write (Elt F) fd ((fwV c k).view.read (Elt F) (Fout m c)) Finset.univ) i = Fout m (xp c) i := by
  refine copy_lands (fwV c k).view (fwV c k).view (Fout m c) fd (Fout m (xp c)) (funext fun y => ?_)
  rw [View.read_apply, View.read_apply]
  show Fout m (xp c) ((fwV c k).view.emb y) = Fout m c ((fwV c k).view.emb y)
  have hc : c.val < 16 := c.isLt
  have hk : k.val < 3 := k.isLt
  have hy0 : (y 0 : Nat) < 64 := (y 0).isLt
  have hy1 : (y 1 : Nat) < 512 := (y 1).isLt
  have d0 : (((fwV c k).view.emb y) 0 : Nat) = (320 * (c.val / 8) + 64 * k.val + 512) - 512 * (c.val / 4 % 2) + (y 0 : Nat) :=
    (emb_slice_whole_val main_v1 (k0_off7 c (K k)) S64x512.size (k0_off7_inb c k) (fun _ => rfl) y 0).trans
      (congrArg (· + (y 0 : Nat)) (congrFun (k0_off7_eq c k) 0))
  have py := xp_y c
  have px := xp_x c
  -- the forwarded rows lie in the other row half, at 320·x + 64·k + (0 … 63) inside it
  have rdiv : (((fwV c k).view.emb y) 0 : Nat) / 512 = 1 - c.val / 4 % 2 := by rw [d0]; omega
  have rmod : (((fwV c k).view.emb y) 0 : Nat) % 512 = 320 * (c.val / 8) + 64 * k.val + (y 0 : Nat) := by rw [d0]; omega
  have e1 : Fout m c ((fwV c k).view.emb y) = xin m (yp c)
      (ix2 (⟨(((fwV c k).view.emb y) 0 : Nat) % 512, Nat.mod_lt _ (by decide)⟩ : Fin 512)
        (⟨512 * (c.val / 4 % 2) + (((fwV c k).view.emb y) 1 : Nat), by
          have h : (((fwV c k).view.emb y) 1 : Nat) < 512 := (((fwV c k).view.emb y) 1).isLt; omega⟩ : Fin 1024)) :=
    Fout_apply m c _ (yp c) _ (srcDev_direct c _ (by rw [rdiv]; omega) (by rw [rmod]; omega)) rfl rfl
  rw [e1]
  refine Fout_apply m (xp c) _ (yp c) _ ((srcDev_relay (xp c) _ ?_ ?_).trans (congrArg yp (xp_xp c))) rfl ?_
  · rw [rdiv]; omega
  · rw [rmod]; omega
  · show 512 * (c.val / 4 % 2) + _ = 512 * ((xp c).val / 4 % 2) + _
    rw [py]

/-- info: 'Cert.KernelIdealProof.fw_content' depends on axioms: [propext, Classical.choice, Quot.sound] -/
#guard_msgs in #print axioms fw_content

end Cert.KernelIdealProof

end
-- ==== Proof.KernelIdealPay.lean ====
/-
  What each duty of the schedule hands over, as the entailments the transfer and signal rules ask for.

  A barrier signal to a peer carries the regions of the signaller's result buffer that the peer will write, at
  whatever they hold; a transfer's send duty carries its source rectangle back, unchanged; its receive duty
  carries the destination region at the contents the transfer leaves there, which agree with the device's final
  result on that region. The schedule names each region through the device that OWNS the buffer; a transfer
  names it through the device that WRITES it. The two namings differ by one application of an involution
  (`yp (yp c) = c`, `xp (xp c) = c`), which is all these lemmas have to undo.
-/
import proofs.«900641_g7700000000000642_dist_a2a_v7x_xyz2x2x4_y_m512_n512_f32_1_alg».proof.Proof.KernelIdealBase
import proofs.«900641_g7700000000000642_dist_a2a_v7x_xyz2x2x4_y_m512_n512_f32_1_alg».proof.Proof.KernelIdealRegions
import proofs.«900641_g7700000000000642_dist_a2a_v7x_xyz2x2x4_y_m512_n512_f32_1_alg».proof.Proof.KernelIdealContents

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix2)

variable {F : FTy → Type} [FloatOps F]

local notation "𝕄" => MT nD τ sig Unit (Elt F) ℕ UU ℕ

variable (m : (ℓ : Loc nD τ sig) → Buf (Elt F) ℓ) (ρ : Dev nD → PrngReg)

/-! ## A peer's landing regions, named through the device that writes them -/

theorem landYF_yp (c : Dev nD) (k : Fin 3) (f : Buf (Elt F) ((yp c : Thread nD τ).loc main_v1)) :
    landYF (F := F) (yp c) k f = ((yfDst c k).view.loc (yp c : Thread nD τ) ↦[(yfDst c k).view.set]{fullShare} f) := by
  unfold landYF; rw [yp_yp c]

theorem landYD_yp (c : Dev nD) (f : Buf (Elt F) ((yp c : Thread nD τ).loc main_v1)) :
    landYD (F := F) (yp c) f = ((ydDst c).view.loc (yp c : Thread nD τ) ↦[(ydDst c).view.set]{fullShare} f) := by
  unfold landYD; rw [yp_yp c]

theorem landFW_xp (c : Dev nD) (k : Fin 3) (f : Buf (Elt F) ((xp c : Thread nD τ).loc main_v1)) :
    landFW (F := F) (xp c) k f = ((fwV c k).view.loc (xp c : Thread nD τ) ↦[(fwV c k).view.set]{fullShare} f) := by
  unfold landFW; rw [xp_xp c]

/-! ## The barrier's two duties -/

/-- What `c` hands `yp c` with its barrier signal: the four regions of its own result that `yp c` will write. -/
theorem barPayY_give (c : Dev nD) (f : Buf (Elt F) ((c : Thread nD τ).loc main_v1)) :
    iprop(landYF (F := F) c 0 f ∗ landYF c 1 f ∗ landYF c 2 f ∗ landYD c f) ⊢ (sched m).payload (barCell (yp c)) 0 false := by
  show _ ⊢ barPayY (F := F) (yp c)
  unfold barPayY
  rw [yp_yp c]
  iintro H
  iexists f
  iexact H

/-- What `c` hands `xp c` with its barrier signal: the three regions of its own result that `xp c` will write. -/
theorem barPayX_give (c : Dev nD) (f : Buf (Elt F) ((c : Thread nD τ).loc main_v1)) :
    iprop(landFW (F := F) c 0 f ∗ landFW c 1 f ∗ landFW c 2 f) ⊢ (sched m).payload (barCell (xp c)) 0 true := by
  show _ ⊢ barPayX (F := F) (xp c)
  unfold barPayX
  rw [xp_xp c]
  iintro H
  iexists f
  iexact H

/-- What `c` receives from `yp c`'s signal, as the destinations of its own four transfers to `yp c`. -/
theorem barPayY_take (c : Dev nD) :
    barPayY (F := F) c ⊢ iprop(∃ f : Buf (Elt F) ((yp c : Thread nD τ).loc main_v1),
      ((yfDst c 0).view.loc (yp c : Thread nD τ) ↦[(yfDst c 0).view.set]{fullShare} f)
      ∗ ((yfDst c 1).view.loc (yp c : Thread nD τ) ↦[(yfDst c 1).view.set]{fullShare} f)
      ∗ ((yfDst c 2).view.loc (yp c : Thread nD τ) ↦[(yfDst c 2).view.set]{fullShare} f)
      ∗ ((ydDst c).view.loc (yp c : Thread nD τ) ↦[(ydDst c).view.set]{fullShare} f)) := by
  unfold barPayY
  iintro H
  icases H with ⟨%f, H⟩
  iexists f
  rw [landYF_yp, landYF_yp, landYF_yp, landYD_yp]
  iexact H

/-- What `c` receives from `xp c`'s signal, as the destinations of its own three forwards to `xp c`. -/
theorem barPayX_take (c : Dev nD) :
    barPayX (F := F) c ⊢ iprop(∃ f : Buf (Elt F) ((xp c : Thread nD τ).loc main_v1),
      ((fwV c 0).view.loc (xp c : Thread nD τ) ↦[(fwV c 0).view.set]{fullShare} f)
      ∗ ((fwV c 1).view.loc (xp c : Thread nD τ) ↦[(fwV c 1).view.set]{fullShare} f)
      ∗ ((fwV c 2).view.loc (xp c : Thread nD τ) ↦[(fwV c 2).view.set]{fullShare} f)) := by
  unfold barPayX
  iintro H
  icases H with ⟨%f, H⟩
  iexists f
  rw [landFW_xp, landFW_xp, landFW_xp]
  iexact H

/-! ## The local copy -/

theorem own_pay (c : Dev nD) (fd : Buf (Elt F) ((ownDst c).view.loc (c : Thread nD τ))) :
    iprop(((ownDst c).view.loc (c : Thread nD τ) ↦[(ownDst c).view.set]{fullShare}
        ((ownDst c).view.write (Elt F) fd ((ownSrc c).view.read (Elt F) (xin m c)) Finset.univ))
      ∗ ((ownSrc c).view.loc (c : Thread nD τ) ↦[(ownSrc c).view.set]{fullShare} xin m c))
      ⊢ (sched m).payload (dcell c jLoc) 0 false := by
  show _ ⊢ iprop(ownR c (Fout m c) ∗ srcOwn c (xin m c))
  unfold ownR srcOwn
  rw [region_congr (ownDst c) c _ _ (own_content m c fd)]

/-! ## The chunks and the direct stretch sent to `yp c` -/

theorem yf_pay_send (c : Dev nD) (k : Fin 3) :
    ((yfSrc c k).view.loc (c : Thread nD τ) ↦[(yfSrc c k).view.set]{fullShare} xin m c)
      ⊢ (sched m).payload (dcell c (jYfS k)) 0 false := by
  fin_cases k <;> exact .rfl

theorem yf_pay_recv (c : Dev nD) (k : Fin 3) (fd : Buf (Elt F) ((yfDst c k).view.loc (yp c : Thread nD τ))) :
    ((yfDst c k).view.loc (yp c : Thread nD τ) ↦[(yfDst c k).view.set]{fullShare}
        ((yfDst c k).view.write (Elt F) fd ((yfSrc c k).view.read (Elt F) (xin m c)) Finset.univ))
      ⊢ (sched m).payload (dcell (yp c) (jYfR k)) 0 false := by
  rw [region_congr (yfDst c k) (yp c) _ _ (yf_content m c k fd)]
  have h : (sched m).payload (dcell (yp c) (jYfR k)) 0 false = landYF (F := F) (yp c) k (Fout m (yp c)) := by
    fin_cases k <;> rfl
  rw [h, landYF_yp]

theorem yd_pay_send (c : Dev nD) :
    ((ydSrc c).view.loc (c : Thread nD τ) ↦[(ydSrc c).view.set]{fullShare} xin m c)
      ⊢ (sched m).payload (dcell c jYdS) 0 false :=
  .rfl

theorem yd_pay_recv (c : Dev nD) (fd : Buf (Elt F) ((ydDst c).view.loc (yp c : Thread nD τ))) :
    ((ydDst c).view.loc (yp c : Thread nD τ) ↦[(ydDst c).view.set]{fullShare}
        ((ydDst c).view.write (Elt F) fd ((ydSrc c).view.read (Elt F) (xin m c)) Finset.univ))
      ⊢ (sched m).payload (dcell (yp c) jYdR) 0 false := by
  rw [region_congr (ydDst c) (yp c) _ _ (yd_content m c fd)]
  show _ ⊢ landYD (F := F) (yp c) (Fout m (yp c))
  rw [landYD_yp]

/-! ## The chunks forwarded to `xp c` -/

theorem fw_pay_send (c : Dev nD) (k : Fin 3) :
    ((fwV c k).view.loc (c : Thread nD τ) ↦[(fwV c k).view.set]{fullShare} Fout m c)
      ⊢ (sched m).payload (dcell c (jFS k)) 0 false := by
  fin_cases k <;> exact .rfl

theorem fw_pay_recv (c : Dev nD) (k : Fin 3) (fd : Buf (Elt F) ((fwV c k).view.loc (xp c : Thread nD τ))) :
    ((fwV c k).view.loc (xp c : Thread nD τ) ↦[(fwV c k).view.set]{fullShare}
        ((fwV c k).view.write (Elt F) fd ((fwV c k).view.read (Elt F) (Fout m c)) Finset.univ))
      ⊢ (sched m).payload (dcell (xp c) (jFR k)) 0 false := by
  rw [region_congr (fwV c k) (xp c) _ _ (fw_content m c k fd)]
  have h : (sched m).payload (dcell (xp c) (jFR k)) 0 false = landFW (F := F) (xp c) k (Fout m (xp c)) := by
    fin_cases k <;> rfl
  rw [h, landFW_xp]

/-- info: 'Cert.KernelIdealProof.own_pay' depends on axioms: [propext, Classical.choice, Quot.sound] -/
#guard_msgs in #print axioms own_pay

/-- info: 'Cert.KernelIdealProof.fw_pay_recv' depends on axioms: [propext, Classical.choice, Quot.sound] -/
#guard_msgs in #print axioms fw_pay_recv

/-- info: 'Cert.KernelIdealProof.yf_pay_recv' depends on axioms: [propext, Classical.choice, Quot.sound] -/
#guard_msgs in #print axioms yf_pay_recv

/-- info: 'Cert.KernelIdealProof.yd_pay_recv' depends on axioms: [propext, Classical.choice, Quot.sound] -/
#guard_msgs in #print axioms yd_pay_recv

/-- info: 'Cert.KernelIdealProof.barPayX_give' depends on axioms: [propext, Classical.choice, Quot.sound] -/
#guard_msgs in #print axioms barPayX_give

/-- info: 'Cert.KernelIdealProof.barPayY_take' depends on axioms: [propext, Classical.choice, Quot.sound] -/
#guard_msgs in #print axioms barPayY_take

end Cert.KernelIdealProof

end
-- ==== Proof.KernelIdealEnds.lean ====
/-
  The end of a device's run, reassembled: the regions of the two buffers the body ends with, each region at its final
  contents, are the two whole buffers at theirs.
-/
import proofs.«900641_g7700000000000642_dist_a2a_v7x_xyz2x2x4_y_m512_n512_f32_1_alg».proof.Proof.KernelIdealRegions
import proofs.«900641_g7700000000000642_dist_a2a_v7x_xyz2x2x4_y_m512_n512_f32_1_alg».proof.Proof.KernelIdealSched

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix2)

variable {F : FTy → Type} [FloatOps F]

local notation "𝕄" => MT nD τ sig Unit (Elt F) ℕ UU ℕ

variable (m : (ℓ : Loc nD τ sig) → Buf (Elt F) ℓ) (ρ : Dev nD → PrngReg)

/-- What a device holds after its last wait: the local copy's two regions; the sources of its transfers to `yp c` and the
    part of its argument no transfer reads, all unchanged; the three chunks it forwarded, the direct stretch and the three
    forwarded chunks it received, at the result's contents; its fifteen own counters at zero; and that it owes nothing. -/
def bodyEndFlat (c : Dev nD) : sProp 𝕄 := iprop((ownR c (Fout m c) ∗ srcOwn c (xin m c)) ∗ (srcYF c 0 (xin m c) ∗ srcYF c 1 (xin m c) ∗ srcYF c 2 (xin m c)) ∗ srcYD c (xin m c) ∗ argRest c (xin m c) ∗ (fwSrcR c 0 (Fout m c) ∗ fwSrcR c 1 (Fout m c) ∗ fwSrcR c 2 (Fout m c)) ∗ landYD c (Fout m c) ∗ (landFW c 0 (Fout m c) ∗ landFW c 1 (Fout m c) ∗ landFW c 2 (Fout m c)) ∗ ownZero c ∗ ∃ W, owes (c : Thread nD τ) 0 W)

/-- The regions rejoin: the argument buffer whole and unchanged, the result buffer whole at the result's contents. -/
theorem post_assemble (c : Dev nD) : bodyEndFlat m c ⊢ bodyPost m c := by
  unfold bodyEndFlat bodyPost Φ₁
  rw [← landYF_eq c 0, ← landYF_eq c 1, ← landYF_eq c 2]
  iintro ⟨⟨HownR, HsrcOwn⟩, ⟨Hy0, Hy1, Hy2⟩, Hyd, Hrest, ⟨Hf0, Hf1, Hf2⟩, Hlyd, ⟨Hl0, Hl1, Hl2⟩, Hz, Ho⟩
  isplitr [Ho]
  · isplitl [HsrcOwn Hy0 Hy1 Hy2 Hyd Hrest]
    · iapply (arg_split (F := F) c (xin m c)).2
      isplitl [HsrcOwn]; · iexact HsrcOwn
      isplitl [Hy0]; · iexact Hy0
      isplitl [Hy1]; · iexact Hy1
      isplitl [Hy2]; · iexact Hy2
      isplitl [Hyd]; · iexact Hyd
      iexact Hrest
    isplitr [Hz]
    · iapply (out_split (F := F) c (Fout m c)).2
      isplitl [HownR]; · iexact HownR
      isplitl [Hf0]; · iexact Hf0
      isplitl [Hf1]; · iexact Hf1
      isplitl [Hf2]; · iexact Hf2
      isplitl [Hlyd]; · iexact Hlyd
      isplitl [Hl0]; · iexact Hl0
      isplitl [Hl1]; · iexact Hl1
      iexact Hl2
    · iexact Hz
  · iexact Ho

/-- info: 'Cert.KernelIdealProof.post_assemble' depends on axioms: [propext, Classical.choice, Quot.sound] -/
#guard_msgs in #print axioms post_assemble

end Cert.KernelIdealProof

end
-- ==== Proof.KernelIdealBody.lean ====
/-
  One device's kernel body, stepped from the start assertion to the end assertion.

  The body is a straight line of twenty-seven effects: two barrier signals, the barrier wait, the local copy, four
  transfers to `yp c`, three waits each followed by a forward to `xp c`, twelve further waits. Each effect is one rule
  of the rounds discipline at the schedule's cells: a signal pays a duty of a peer's barrier cell with the regions that
  peer will write; the barrier wait returns the regions of the peers' results this device writes; a transfer pays the send
  duty of an own cell with its source region and the receive duty of the destination's cell with the region at its final
  contents; a wait on an own cell returns that cell's payload. At the end the fifteen own cells are closed at zero and both
  buffers are joined from their regions.
-/
import proofs.«900641_g7700000000000642_dist_a2a_v7x_xyz2x2x4_y_m512_n512_f32_1_alg».proof.Proof.KernelIdealSched
import proofs.«900641_g7700000000000642_dist_a2a_v7x_xyz2x2x4_y_m512_n512_f32_1_alg».proof.Proof.KernelIdealRegions
import proofs.«900641_g7700000000000642_dist_a2a_v7x_xyz2x2x4_y_m512_n512_f32_1_alg».proof.Proof.KernelIdealPay
import proofs.«900641_g7700000000000642_dist_a2a_v7x_xyz2x2x4_y_m512_n512_f32_1_alg».proof.Proof.KernelIdealEnds

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The ghost state, opened -/

omit [FloatOps F] in
theorem bigSep_fin3 (Φ : Fin 3 → sProp 𝕄) : bigSep Finset.univ Φ = iprop(Φ 0 ∗ Φ 1 ∗ Φ 2) := by
  rw [bigSep_univ_eq_bigSepL [0, 1, 2] (by decide) (by decide)]; rfl

omit [FloatOps F] in
instance records_persistent (K : Dev nD × Fin 16 → ℕ) : BI.Persistent (records (F := F) m K) := by unfold records; infer_instance

omit [FloatOps F] in
/-- A DMA cell's invariant and its round 0, out of the records. -/
theorem records_dma (K : Dev nD × Fin 16 → ℕ) (d : Dev nD) (j : Fin 15) :
    records (F := F) m K ⊢ iprop(cellInv ER (sched m) (K (d, j.castSucc)) (dcell d j) ∗ reached ER (dcell d j) 0) := by
  have hk : kcell (d, j.castSucc) = dcell d j := by
    show ((d : Thread nD τ), csem j.castSucc) = _
    unfold csem; rw [dif_pos (by exact j.isLt)]; rfl
  unfold records
  rw [← hk]
  exact BIClass.sep_mono (bigSep_elim (Finset.mem_univ (d, j.castSucc))) (bigSep_elim (Finset.mem_univ (d, j.castSucc)))

omit [FloatOps F] in
/-- A barrier cell's invariant and its round 0, out of the records. -/
theorem records_bar (K : Dev nD × Fin 16 → ℕ) (d : Dev nD) :
    records (F := F) m K ⊢ iprop(cellInv ER (sched m) (K (d, Fin.last 15)) (barCell d) ∗ reached ER (barCell d) 0) := by
  unfold records
  exact BIClass.sep_mono (bigSep_elim (Finset.mem_univ (d, Fin.last 15))) (bigSep_elim (Finset.mem_univ (d, Fin.last 15)))

/-! ## The payload table, cell by cell -/

omit [FloatOps F] in
theorem dmaPay_loc (c : Dev nD) : dmaPay m c jLoc = iprop(ownR c (Fout m c) ∗ srcOwn c (xin m c)) := rfl
omit [FloatOps F] in
theorem dmaPay_yfS (c : Dev nD) (k : Fin 3) : dmaPay m c (jYfS k) = srcYF c k (xin m c) := by fin_cases k <;> rfl
omit [FloatOps F] in
theorem dmaPay_yfR (c : Dev nD) (k : Fin 3) : dmaPay m c (jYfR k) = landYF c k (Fout m c) := by fin_cases k <;> rfl
omit [FloatOps F] in
theorem dmaPay_ydS (c : Dev nD) : dmaPay m c jYdS = srcYD c (xin m c) := rfl
omit [FloatOps F] in
theorem dmaPay_ydR (c : Dev nD) : dmaPay m c jYdR = landYD c (Fout m c) := rfl
omit [FloatOps F] in
theorem dmaPay_fS (c : Dev nD) (k : Fin 3) : dmaPay m c (jFS k) = fwSrcR c k (Fout m c) := by fin_cases k <;> rfl
omit [FloatOps F] in
theorem dmaPay_fR (c : Dev nD) (k : Fin 3) : dmaPay m c (jFR k) = landFW c k (Fout m c) := by fin_cases k <;> rfl

/-! ## The step lemmas -/

/-- A remote copy from `c` to `n` (the printed device word `n₀`), paying the send duty of `c`'s cell `jS` and the receive
    duty of `n`'s cell `jR`. -/
theorem step_send {s : Shape} (K : Dev nD × Fin 16 → ℕ) (c n n₀ : Dev nD) (hn : n₀ = n) (src dst : Memref sig .tc .hbm s .f32) (jS jR : Fin 15)
    (N : ℕ) (hN : dst.view.dmaCredit = N) (hS : dmaAmt jS = N) (hR : dmaAmt jR = N)
    (fs : Buf (Elt F) (src.view.loc (c : Thread nD τ))) (fd : Buf (Elt F) (dst.view.loc (n : Thread nD τ)))
    (O : CellTallies nD τ sig Unit)
    (hpay₁ : (src.view.loc (c : Thread nD τ) ↦[src.view.set]{fullShare} fs : sProp 𝕄) ⊢ (sched m).payload (dcell c jS) 0 false)
    (hpay₂ : (dst.view.loc (n : Thread nD τ) ↦[dst.view.set]{fullShare} (dst.view.write (Elt F) fd (src.view.read (Elt F) fs) Finset.univ) : sProp 𝕄)
      ⊢ (sched m).payload (dcell n jR) 0 false)
    {hsc : (dst : Memref sig (Dev.tc n₀ : Thread nD τ).2.kind .hbm s .f32).view.ref.isScScratch = false}
    {hsrc : src.view.WordExact} {hdst : dst.view.WordExact}
    {hsem : DmaTarget.Typed .hbm (.dma (jR : DmaSem sig)) (.remote (Dev.tc n₀ : Thread nD τ) dst (.dma (jS : DmaSem sig)) hsc)}
    {α : Type} {Q : α → sProp 𝕄} {k : PUnit → Prog (TpuEff nD τ sig (Elt F) Λ₀ .tc) α} :
    iprop(records m K
        ∗ (src.view.loc (c : Thread nD τ) ↦[src.view.set]{fullShare} fs) ∗ (dst.view.loc (n : Thread nD τ) ↦[dst.view.set]{fullShare} fd)
        ∗ (∃ W, owes (c : Thread nD τ) (O + tallyAt (dcell n jR) () N) W)
        ∗ dutyTok ER (dcell c jS) 0 false ∗ dutyTok ER (dcell n jR) 0 false)
      ⊢ iprop(((cred (tallyAt (dcell c jS) () N) ∗ ∃ W, owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.remote (Dev.tc n₀ : Thread nD τ) dst (.dma (jS : DmaSem sig)) hsc) (.dma (jR : DmaSem sig)) hsrc hdst hsem) k) Q) := by
  subst hn
  iintro ⟨#Hrec, Hs, Hd, ⟨%W, HO⟩, Ht1, Ht2⟩ Hk
  ihave X := (records_dma m K c jS) $$ Hrec; icases X with ⟨#I1, #R1⟩
  ihave X := (records_dma m K n₀ jR) $$ Hrec; icases X with ⟨#I2, #R2⟩
  iapply (Rounds.wp_send_pointsTo 𝒱₀ ER (sched m) (c : Thread nD τ) none (c' := (n₀ : Thread nD τ)) (src := src) (dst := dst)
    (sS := .dma (jS : DmaSem sig)) (sem := .dma (jR : DmaSem sig)) (q := fullShare) (fs := fs) (fd := fd)
    (κ₁ := K (c, jS.castSucc)) (κ₂ := K (n₀, jR.castSucc)) (r₁ := 0) (r₂ := 0) (d₁ := false) (d₂ := false)
    (false_mem_duties_dma m c jS) (false_mem_duties_dma m n₀ jR)
    () () N (show dst.view.amount (.dma (jR : DmaSem sig)) = N from hN) ((amount_dma m c jS false).trans hS) ((amount_dma m n₀ jR false).trans hR) O rfl (W := W)
    hpay₁ hpay₂) $$ [Hs Hd HO Ht1 Ht2]
  · isplitr; · iexact I1
    isplitr; · iexact I2
    isplitl [Hs]; · iexact Hs
    isplitl [Hd]; · iexact Hd
    isplitl [HO]; · iexact HO
    isplitl [Ht1]; · iexact Ht1
    isplitr; · iexact R1
    isplitl [Ht2]; · iexact Ht2
    iexact R2
  iintro ⟨Hc, HO⟩
  iapply Hk
  isplitl [Hc]; · iexact Hc
  iexists W; iexact HO

/-- The local copy, paying the one duty of `c`'s own cell `j`. -/
theorem step_copy {s : Shape} (K : Dev nD × Fin 16 → ℕ) (c : Dev nD) (src dst : Memref sig .tc .hbm s .f32) (j : Fin 15)
    (N : ℕ) (hN : dst.view.dmaCredit = N) (hA : dmaAmt j = N)
    (fs : Buf (Elt F) (src.view.loc (c : Thread nD τ))) (fd : Buf (Elt F) (dst.view.loc (c : Thread nD τ)))
    (hpay : iprop((dst.view.loc (c : Thread nD τ) ↦[dst.view.set]{fullShare} (dst.view.write (Elt F) fd (src.view.read (Elt F) fs) Finset.univ))
              ∗ (src.view.loc (c : Thread nD τ) ↦[src.view.set]{fullShare} fs) : sProp 𝕄) ⊢ (sched m).payload (dcell c j) 0 false)
    {hsrc : src.view.WordExact} {hdst : dst.view.WordExact}
    {hsem : DmaTarget.Typed .hbm (.dma (j : DmaSem sig)) (DmaTarget.here dst : DmaTarget nD τ sig (Dev.tc c : Thread nD τ).2 .hbm s .f32)}
    {α : Type} {Q : α → sProp 𝕄} {k : PUnit → Prog (TpuEff nD τ sig (Elt F) Λ₀ .tc) α} :
    iprop(records m K ∗ (src.view.loc (c : Thread nD τ) ↦[src.view.set]{fullShare} fs)
        ∗ (dst.view.loc (c : Thread nD τ) ↦[dst.view.set]{fullShare} fd)
        ∗ dutyTok ER (dcell c j) 0 false)
      ⊢ iprop((cred (tallyAt (dcell c j) () N) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.here dst) (.dma (j : DmaSem sig)) hsrc hdst hsem) k) Q) := by
  iintro ⟨#Hrec, Hs, Hd, Ht⟩ Hk
  ihave X := (records_dma m K c j) $$ Hrec; icases X with ⟨#I1, #R1⟩
  iapply (Rounds.wp_copy_pointsTo 𝒱₀ ER (sched m) (c : Thread nD τ) none (src := src) (dst := dst) (sem := .dma (j : DmaSem sig)) (q := fullShare) (fs := fs) (fd := fd)
    (κ := K (c, j.castSucc)) (r := 0) (d := false) (false_mem_duties_dma m c j) () N (show dst.view.amount (.dma (j : DmaSem sig)) = N from hN) ((amount_dma m c j false).trans hA)
    hpay) $$ [Hs Hd Ht]
  · isplitr; · iexact I1
    isplitl [Hs]; · iexact Hs
    isplitl [Hd]; · iexact Hd
    isplitl [Ht]; · iexact Ht
    iexact R1
  iexact Hk

/-- A wait on `c`'s own DMA cell `j` for its whole round: the duty's payload comes back. -/
theorem step_wait {sp sp' : Space} {s s' : Shape} {e e' : EltTy} (K : Dev nD × Fin 16 → ℕ) (c : Dev nD) (j : Fin 15) (N : ℕ) (hA : dmaAmt j = N)
    {src : Memref sig .tc sp' s' e'} {κ' : Kind} {dst : Memref sig κ' sp s e} (hN : dst.view.dmaCredit = N)
    {hsrc : src.view.WordExact} {hdst : dst.view.WordExact}
    (O : CellTallies nD τ sig Unit)
    {α : Type} {Q : α → sProp 𝕄} {k : PUnit → Prog (TpuEff nD τ sig (Elt F) Λ₀ .tc) α} :
    iprop(records m K ∗ cred (tallyAt (dcell c j) () N) ∗ (∃ W, owes (c : Thread nD τ) O W)
        ∗ MayWait (c : Thread nD τ) (.dma (j : DmaSem sig)) () O ∗ atPos ER (dcell c j) 0 ∅ 0)
      ⊢ iprop((((∃ W, owes (c : Thread nD τ) O W) ∗ atPos ER (dcell c j) 1 ∅ 0 ∗ dmaPay m c j)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 (j : DmaSem sig) src dst hsrc hdst) k) Q) := by
  subst hN
  iintro ⟨#Hrec, Hc, ⟨%W, HO⟩, HM, Hat⟩ Hk
  ihave X := (records_dma m K c j) $$ Hrec; icases X with ⟨#I1, -⟩
  iapply (Rounds.wp_wait_rest_token 𝒱₀ ER (sched m) (c : Thread nD τ) none (κ := K (c, j.castSucc))
      (wpE_waitDma2_eq 𝒱₀ (c : Thread nD τ) none Set.univ) (Set.mem_univ _) () (O := O) (W := W) (R := 0) (m := 0) (T := ∅)
      (by rw [Nat.zero_add, expect_dma, hA])) $$ [Hc HO HM Hat]
  · isplitr; · iexact I1
    isplitl [Hc]; · iexact Hc
    isplitl [HO]; · iexact HO
    isplitl [HM]; · iexact HM
    iexact Hat
  iintro ⟨HO, Hat, -, Hpay⟩
  ihave Hp := (Entails.of_eq (rest_dma m c j)) $$ Hpay
  iapply Hk
  isplitl [HO]; · iexists _; iexact HO
  isplitl [Hat]; · iexact Hat
  iexact Hp

/-- Closing `c`'s own DMA cell `j` after its one round. -/
theorem step_close (K : Dev nD × Fin 16 → ℕ) (c : Dev nD) (j : Fin 15) :
    iprop(records m K ∗ atPos ER (dcell c j) 1 ∅ 0) ⊢ iprop(|={Set.univ}=> semVal (dcell c j) 0) := by
  iintro ⟨#Hrec, Hat⟩
  ihave X := (records_dma m K c j) $$ Hrec; icases X with ⟨#I1, -⟩
  iapply (Rounds.cell_close ER (sched m) (Set.mem_univ (K (c, j.castSucc))) (fun h => h) (R := 1) (duties_later m (dcell c j)))
  isplitr; · iexact I1
  iexact Hat

/-- A barrier signal to peer `n`, paying duty `d` of its barrier cell with that duty's payload. -/
theorem step_signal (K : Dev nD × Fin 16 → ℕ) (c n : Dev nD) (d : Bool) (O : CellTallies nD τ sig Unit) {k' : ℕ} (hk' : 1 = k')
    {α : Type} {Q : α → sProp 𝕄} {k : PUnit → Prog (TpuEff nD τ sig (Elt F) Λ₀ .tc) α} :
    iprop(records m K ∗ (∃ W, owes (c : Thread nD τ) (O + tallyAt (barCell n) () 1) W)
        ∗ dutyTok ER (barCell n) 0 d ∗ (sched m).payload (barCell n) 0 d)
      ⊢ iprop(((∃ W, owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (n : Thread nD τ) barS k') k) Q) := by
  subst hk'
  iintro ⟨#Hrec, ⟨%W, HO⟩, Ht, Hp⟩ Hk
  ihave X := (records_bar m K n) $$ Hrec; icases X with ⟨#I1, #R1⟩
  iapply (Rounds.wp_signal 𝒱₀ ER (sched m) (c : Thread nD τ) none (dst := (n : Thread nD τ)) (sem := barS) (κ := K (n, Fin.last 15)) (r := 0) (d := d)
      (by rw [duties_bar]; exact Finset.mem_univ _) (amount_bar m n d) () O rfl (W := W)) $$ [HO Ht Hp]
  · isplitr; · iexact I1
    isplitl [HO]; · iexact HO
    isplitl [Ht]; · iexact Ht
    isplitl [Hp]; · iexact Hp
    iexact R1
  iintro HO
  iapply Hk
  iexists W; iexact HO

/-- The barrier wait for both units: both peers' payloads come back. -/
theorem step_barwait (K : Dev nD × Fin 16 → ℕ) (c : Dev nD) (O : CellTallies nD τ sig Unit) {k' : ℕ} (hk' : 2 = k')
    {α : Type} {Q : α → sProp 𝕄} {k : PUnit → Prog (TpuEff nD τ sig (Elt F) Λ₀ .tc) α} :
    iprop(records m K ∗ cred (tallyAt (barCell c) () 2) ∗ (∃ W, owes (c : Thread nD τ) O W)
        ∗ MayWait (c : Thread nD τ) (.reg barS) () O ∗ atPos ER (barCell c) 0 ∅ 0)
      ⊢ iprop((((∃ W, owes (c : Thread nD τ) O W) ∗ barPayY c ∗ barPayX c)
            -∗ wp frame (wpE (defs₀ (F := F)) 𝒱₀ (c : Thread nD τ) none) Set.univ (k ⟨⟩) Q)
          -∗ wp frame (wpE (defs₀ (F := F)) 𝒱₀ (c : Thread nD τ) none) Set.univ (.op (.semWait barS k') k) Q) := by
  subst hk'
  iintro ⟨#Hrec, Hc, ⟨%W, HO⟩, HM, Hat⟩ Hk
  ihave X := (records_bar m K c) $$ Hrec; icases X with ⟨#I1, -⟩
  iapply (Rounds.wp_wait_rest_token 𝒱₀ ER (sched m) (c : Thread nD τ) none (κ := K (c, Fin.last 15))
      (wpE_semWait_eq 𝒱₀ (c : Thread nD τ) none Set.univ) (Set.mem_univ _) () (O := O) (W := W) (R := 0) (m := 0) (T := ∅)
      (by rw [expect_bar])) $$ [Hc HO HM Hat]
  · isplitr; · iexact I1
    isplitl [Hc]; · iexact Hc
    isplitl [HO]; · iexact HO
    isplitl [HM]; · iexact HM
    iexact Hat
  iintro ⟨HO, -, -, Hpay⟩
  ihave Hp := (Entails.of_eq (rest_bar m c)) $$ Hpay
  icases Hp with ⟨HpY, HpX⟩
  iapply Hk
  isplitl [HO]; · iexists _; iexact HO
  isplitl [HpY]; · iexact HpY
  iexact HpX

/-! ## The ghost state, by name -/

omit [FloatOps F] in
theorem positions_named (c : Dev nD) : positions (F := F) c = iprop(atPos ER (dcell c (jLoc)) 0 ∅ 0 ∗ atPos ER (dcell c (jYfS 0)) 0 ∅ 0 ∗ atPos ER (dcell c (jYfS 1)) 0 ∅ 0 ∗ atPos ER (dcell c (jYfS 2)) 0 ∅ 0 ∗ atPos ER (dcell c (jYfR 0)) 0 ∅ 0 ∗ atPos ER (dcell c (jYfR 1)) 0 ∅ 0 ∗ atPos ER (dcell c (jYfR 2)) 0 ∅ 0 ∗ atPos ER (dcell c (jYdS)) 0 ∅ 0 ∗ atPos ER (dcell c (jYdR)) 0 ∅ 0 ∗ atPos ER (dcell c (jFS 0)) 0 ∅ 0 ∗ atPos ER (dcell c (jFS 1)) 0 ∅ 0 ∗ atPos ER (dcell c (jFS 2)) 0 ∅ 0 ∗ atPos ER (dcell c (jFR 0)) 0 ∅ 0 ∗ atPos ER (dcell c (jFR 1)) 0 ∅ 0 ∗ atPos ER (dcell c (jFR 2)) 0 ∅ 0 ∗ atPos ER (barCell c) 0 ∅ 0) := by
  unfold positions
  rw [bigSep_univ_eq_bigSepL [0, 1, 2, 3, 4, 5, 6, 7, 8, 9, 10, 11, 12, 13, 14, 15] (by decide) (by decide)]
  rfl

omit [FloatOps F] in
theorem ownZero_named (c : Dev nD) : ownZero (F := F) c = iprop(semVal (dcell c (jLoc)) 0 ∗ semVal (dcell c (jYfS 0)) 0 ∗ semVal (dcell c (jYfS 1)) 0 ∗ semVal (dcell c (jYfS 2)) 0 ∗ semVal (dcell c (jYfR 0)) 0 ∗ semVal (dcell c (jYfR 1)) 0 ∗ semVal (dcell c (jYfR 2)) 0 ∗ semVal (dcell c (jYdS)) 0 ∗ semVal (dcell c (jYdR)) 0 ∗ semVal (dcell c (jFS 0)) 0 ∗ semVal (dcell c (jFS 1)) 0 ∗ semVal (dcell c (jFS 2)) 0 ∗ semVal (dcell c (jFR 0)) 0 ∗ semVal (dcell c (jFR 1)) 0 ∗ semVal (dcell c (jFR 2)) 0) := by
  unfold ownZero
  rw [bigSep_univ_eq_bigSepL [0, 1, 2, 3, 4, 5, 6, 7, 8, 9, 10, 11, 12, 13, 14] (by decide) (by decide)]
  rfl

/-! ## The body -/

set_option maxHeartbeats 3200000 in
/-- One device's body, stepped from `bodyPre` to `bodyPost`: one rule per effect, in program order. -/
theorem sound_body (K : Dev nD × Fin 16 → ℕ) (c : Dev nD) (Kt : PUnit → sProp 𝕄) :
    iprop(bodyPre m K c ∗ (bodyPost m c -∗ Kt ⟨⟩)) ⊢ wp frame (wpE (defs₀ (F := F)) 𝒱₀ c none) Set.univ
      (cc0_body (Memref.whole main_arg0) (Memref.isWhole_whole _) (Memref.whole main_v1) (Memref.isWhole_whole _)
        cc0_scratch0 cc0_scratch1 cc0_scratch2 cc0_scratch3 cc0_scratch4 cc0_scratch5 cc0_scratch6) Kt := by
  simp only [cc0_body_eq_skeleton]; unfold cc0_body_skel
  simp only [k0_part1_eq_skeleton, k0_part2_eq_skeleton, k0_part3_eq_skeleton, k0_part4_eq_skeleton, k0_part5_eq_skeleton,
    k0_part6_eq_skeleton, k0_part7_eq_skeleton]
  unfold k0_part1_skel k0_part2_skel k0_part3_skel k0_part4_skel k0_part5_skel k0_part6_skel k0_part7_skel
  simp only [semSignalWord, semWaitWord, Prog.lift, Prog.bind_op, Prog.bind_ret, Prog.pure_eq_ret, wp_deviceId]
  simp only [dev1_eq c, dev2_eq c]
  unfold bodyPre ghost payToks startCreds
  rw [positions_named]
  simp only [bigSep_fin3]
  iintro ⟨⟨⟨#Hrec, ⟨PL, PyS0, PyS1, PyS2, PyR0, PyR1, PyR2, PdS, PdR, PfS0, PfS1, PfS2, PfR0, PfR1, PfR2, PB⟩,
      ⟨TbY, TbX, ⟨TyR0, TyR1, TyR2⟩, TdR, ⟨TfR0, TfR1, TfR2⟩, TL, ⟨TyS0, TyS1, TyS2⟩, TdS, ⟨TfS0, TfS1, TfS2⟩⟩⟩,
      ⟨CB, ⟨CyR0, CyR1, CyR2⟩, CdR, ⟨CfR0, CfR1, CfR2⟩⟩, #Hlev, Harg, Hout, HO⟩, Hk⟩
  -- both whole buffers, by region
  ihave Hout := (out_split c (vin m c)).1 $$ Hout
  icases Hout with ⟨Hown, Ly0, Ly1, Ly2, Lyd, Lf0, Lf1, Lf2⟩
  ihave Harg := (arg_split c (xin m c)).1 $$ Harg
  icases Harg with ⟨Sown, Sy0, Sy1, Sy2, Syd, Srest⟩
  -- the signal to `yp c`: the four regions it will write
  unfold O₀
  iapply (step_signal m K c (yp c) false (Oh c) rfl) $$ [HO TbY Ly0 Ly1 Ly2 Lyd]
  · isplitr; · iexact Hrec
    isplitl [HO]; · iexact HO
    isplitl [TbY]; · iexact TbY
    iapply (barPayY_give m c (vin m c))
    isplitl [Ly0]; · iexact Ly0
    isplitl [Ly1]; · iexact Ly1
    isplitl [Ly2]; · iexact Ly2
    iexact Lyd
  iintro HO
  -- the signal to `xp c`: the three regions it will write
  unfold Oh
  iapply (step_signal m K c (xp c) true (Og c) rfl) $$ [HO TbX Lf0 Lf1 Lf2]
  · isplitr; · iexact Hrec
    isplitl [HO]; · iexact HO
    isplitl [TbX]; · iexact TbX
    iapply (barPayX_give m c (vin m c))
    isplitl [Lf0]; · iexact Lf0
    isplitl [Lf1]; · iexact Lf1
    iexact Lf2
  iintro HO
  -- the barrier wait: the seven regions of the peers' results this device writes
  iapply (step_barwait m K c (Og c) rfl) $$ [CB HO PB]
  · isplitr; · iexact Hrec
    isplitl [CB]; · iexact CB
    isplitl [HO]; · iexact HO
    isplitr; · iapply (mayWait_bar c); iexact Hlev
    iexact PB
  iintro ⟨HO, HpY, HpX⟩
  ihave HpY := (barPayY_take c) $$ HpY
  icases HpY with ⟨%fy, Dy0, Dy1, Dy2, Dyd⟩
  ihave HpX := (barPayX_take c) $$ HpX
  icases HpX with ⟨%fx, Df0, Df1, Df2⟩
  -- the local copy
  iapply (step_copy m K c (ownSrc c) (ownDst c) jLoc N512 rfl dmaAmt_loc (xin m c) (vin m c) (own_pay m c (vin m c))) $$ [Sown Hown TL]
  · isplitr; · iexact Hrec
    isplitl [Sown]; · unfold srcOwn; iexact Sown
    isplitl [Hown]; · unfold ownR; iexact Hown
    iexact TL
  iintro CL
  -- chunk 0 to `yp c`
  unfold Og
  iapply (step_send m K c (yp c) _ (dev3_eq c) (yfSrc c 0) (yfDst c 0) (jYfS 0) (jYfR 0) N64 rfl (dmaAmt_yfS 0) (dmaAmt_yfR 0)
      (xin m c) fy (Of c) (yf_pay_send m c 0) (yf_pay_recv m c 0 fy)) $$ [Sy0 Dy0 HO TyS0 TyR0]
  · isplitr; · iexact Hrec
    isplitl [Sy0]; · unfold srcYF; iexact Sy0
    isplitl [Dy0]; · iexact Dy0
    isplitl [HO]; · iexact HO
    isplitl [TyS0]; · iexact TyS0
    iexact TyR0
  iintro ⟨CyS0, HO⟩
  -- chunk 1 to `yp c`
  unfold Of
  iapply (step_send m K c (yp c) _ (dev4_eq c) (yfSrc c 1) (yfDst c 1) (jYfS 1) (jYfR 1) N64 rfl (dmaAmt_yfS 1) (dmaAmt_yfR 1)
      (xin m c) fy (Oe c) (yf_pay_send m c 1) (yf_pay_recv m c 1 fy)) $$ [Sy1 Dy1 HO TyS1 TyR1]
  · isplitr; · iexact Hrec
    isplitl [Sy1]; · unfold srcYF; iexact Sy1
    isplitl [Dy1]; · iexact Dy1
    isplitl [HO]; · iexact HO
    isplitl [TyS1]; · iexact TyS1
    iexact TyR1
  iintro ⟨CyS1, HO⟩
  -- chunk 2 to `yp c`
  unfold Oe
  iapply (step_send m K c (yp c) _ (dev5_eq c) (yfSrc c 2) (yfDst c 2) (jYfS 2) (jYfR 2) N64 rfl (dmaAmt_yfS 2) (dmaAmt_yfR 2)
      (xin m c) fy (Od c) (yf_pay_send m c 2) (yf_pay_recv m c 2 fy)) $$ [Sy2 Dy2 HO TyS2 TyR2]
  · isplitr; · iexact Hrec
    isplitl [Sy2]; · unfold srcYF; iexact Sy2
    isplitl [Dy2]; · iexact Dy2
    isplitl [HO]; · iexact HO
    isplitl [TyS2]; · iexact TyS2
    iexact TyR2
  iintro ⟨CyS2, HO⟩
  -- the direct stretch to `yp c`
  unfold Od
  iapply (step_send m K c (yp c) _ (dev6_eq c) (ydSrc c) (ydDst c) jYdS jYdR N128 rfl dmaAmt_ydS dmaAmt_ydR
      (xin m c) fy (Oc c) (yd_pay_send m c) (yd_pay_recv m c fy)) $$ [Syd Dyd HO TdS TdR]
  · isplitr; · iexact Hrec
    isplitl [Syd]; · unfold srcYD; iexact Syd
    isplitl [Dyd]; · iexact Dyd
    isplitl [HO]; · iexact HO
    isplitl [TdS]; · iexact TdS
    iexact TdR
  iintro ⟨CdS, HO⟩
  -- the wait for chunk 0 from `yp c`
  iapply (step_wait m K c (jYfR 0) N64 (dmaAmt_yfR 0) (dst := yfDst c 0) rfl (Oc c)) $$ [CyR0 HO PyR0]
  · isplitr; · iexact Hrec
    isplitl [CyR0]; · iexact CyR0
    isplitl [HO]; · iexact HO
    isplitr; · iapply (mayWait_yfR0 c); iexact Hlev
    iexact PyR0
  iintro ⟨HO, PyR0, Gy0⟩
  ihave Gy0 := (Entails.of_eq ((dmaPay_yfR m c 0).trans (landYF_eq c 0 _))) $$ Gy0
  -- chunk 0 forwarded to `xp c`
  unfold Oc
  iapply (step_send m K c (xp c) _ (dev7_eq c) (fwV c 0) (fwV c 0) (jFS 0) (jFR 0) N64 rfl (dmaAmt_fS 0) (dmaAmt_fR 0)
      (Fout m c) fx (Ob c) (fw_pay_send m c 0) (fw_pay_recv m c 0 fx)) $$ [Gy0 Df0 HO TfS0 TfR0]
  · isplitr; · iexact Hrec
    isplitl [Gy0]; · unfold fwSrcR; iexact Gy0
    isplitl [Df0]; · iexact Df0
    isplitl [HO]; · iexact HO
    isplitl [TfS0]; · iexact TfS0
    iexact TfR0
  iintro ⟨CfS0, HO⟩
  -- the wait for chunk 1 from `yp c`
  iapply (step_wait m K c (jYfR 1) N64 (dmaAmt_yfR 1) (dst := yfDst c 1) rfl (Ob c)) $$ [CyR1 HO PyR1]
  · isplitr; · iexact Hrec
    isplitl [CyR1]; · iexact CyR1
    isplitl [HO]; · iexact HO
    isplitr; · iapply (mayWait_yfR1 c); iexact Hlev
    iexact PyR1
  iintro ⟨HO, PyR1, Gy1⟩
  ihave Gy1 := (Entails.of_eq ((dmaPay_yfR m c 1).trans (landYF_eq c 1 _))) $$ Gy1
  -- chunk 1 forwarded to `xp c`
  unfold Ob
  iapply (step_send m K c (xp c) _ (dev8_eq c) (fwV c 1) (fwV c 1) (jFS 1) (jFR 1) N64 rfl (dmaAmt_fS 1) (dmaAmt_fR 1)
      (Fout m c) fx (Oa c) (fw_pay_send m c 1) (fw_pay_recv m c 1 fx)) $$ [Gy1 Df1 HO TfS1 TfR1]
  · isplitr; · iexact Hrec
    isplitl [Gy1]; · unfold fwSrcR; iexact Gy1
    isplitl [Df1]; · iexact Df1
    isplitl [HO]; · iexact HO
    isplitl [TfS1]; · iexact TfS1
    iexact TfR1
  iintro ⟨CfS1, HO⟩
  -- the wait for chunk 2 from `yp c`
  iapply (step_wait m K c (jYfR 2) N64 (dmaAmt_yfR 2) (dst := yfDst c 2) rfl (Oa c)) $$ [CyR2 HO PyR2]
  · isplitr; · iexact Hrec
    isplitl [CyR2]; · iexact CyR2
    isplitl [HO]; · iexact HO
    isplitr; · iapply (mayWait_yfR2 c); iexact Hlev
    iexact PyR2
  iintro ⟨HO, PyR2, Gy2⟩
  ihave Gy2 := (Entails.of_eq ((dmaPay_yfR m c 2).trans (landYF_eq c 2 _))) $$ Gy2
  -- chunk 2 forwarded to `xp c`
  rw [show Oa c = 0 + tallyAt (dcell (xp c) (jFR 2)) () N64 from (zero_add _).symm]
  iapply (step_send m K c (xp c) _ (dev9_eq c) (fwV c 2) (fwV c 2) (jFS 2) (jFR 2) N64 rfl (dmaAmt_fS 2) (dmaAmt_fR 2)
      (Fout m c) fx (0) (fw_pay_send m c 2) (fw_pay_recv m c 2 fx)) $$ [Gy2 Df2 HO TfS2 TfR2]
  · isplitr; · iexact Hrec
    isplitl [Gy2]; · unfold fwSrcR; iexact Gy2
    isplitl [Df2]; · iexact Df2
    isplitl [HO]; · iexact HO
    isplitl [TfS2]; · iexact TfS2
    iexact TfR2
  iintro ⟨CfS2, HO⟩
  -- the wait for chunk 0 forwarded by `xp c`
  iapply (step_wait m K c (jFR 0) N64 (dmaAmt_fR 0) (dst := fwLand c 0) rfl (0)) $$ [CfR0 HO PfR0]
  · isplitr; · iexact Hrec
    isplitl [CfR0]; · iexact CfR0
    isplitl [HO]; · iexact HO
    isplitr; · iapply (mayWait_none c _); iexact Hlev
    iexact PfR0
  iintro ⟨HO, PfR0, Gf0⟩
  ihave Gf0 := (Entails.of_eq (dmaPay_fR m c 0)) $$ Gf0
  -- the wait for chunk 1 forwarded by `xp c`
  iapply (step_wait m K c (jFR 1) N64 (dmaAmt_fR 1) (dst := fwLand c 1) rfl (0)) $$ [CfR1 HO PfR1]
  · isplitr; · iexact Hrec
    isplitl [CfR1]; · iexact CfR1
    isplitl [HO]; · iexact HO
    isplitr; · iapply (mayWait_none c _); iexact Hlev
    iexact PfR1
  iintro ⟨HO, PfR1, Gf1⟩
  ihave Gf1 := (Entails.of_eq (dmaPay_fR m c 1)) $$ Gf1
  -- the wait for chunk 2 forwarded by `xp c`
  iapply (step_wait m K c (jFR 2) N64 (dmaAmt_fR 2) (dst := fwLand c 2) rfl (0)) $$ [CfR2 HO PfR2]
  · isplitr; · iexact Hrec
    isplitl [CfR2]; · iexact CfR2
    isplitl [HO]; · iexact HO
    isplitr; · iapply (mayWait_none c _); iexact Hlev
    iexact PfR2
  iintro ⟨HO, PfR2, Gf2⟩
  ihave Gf2 := (Entails.of_eq (dmaPay_fR m c 2)) $$ Gf2
  -- the direct stretch has left
  iapply (step_wait m K c (jYdS) N128 dmaAmt_ydS (dst := ydSrc c) rfl (0)) $$ [CdS HO PdS]
  · isplitr; · iexact Hrec
    isplitl [CdS]; · iexact CdS
    isplitl [HO]; · iexact HO
    isplitr; · iapply (mayWait_none c _); iexact Hlev
    iexact PdS
  iintro ⟨HO, PdS, Syd⟩
  ihave Syd := (Entails.of_eq (dmaPay_ydS m c)) $$ Syd
  -- the direct stretch from `yp c` has landed
  iapply (step_wait m K c (jYdR) N128 dmaAmt_ydR (dst := ydDst c) rfl (0)) $$ [CdR HO PdR]
  · isplitr; · iexact Hrec
    isplitl [CdR]; · iexact CdR
    isplitl [HO]; · iexact HO
    isplitr; · iapply (mayWait_none c _); iexact Hlev
    iexact PdR
  iintro ⟨HO, PdR, Gyd⟩
  ihave Gyd := (Entails.of_eq (dmaPay_ydR m c)) $$ Gyd
  -- chunk 0 has left
  iapply (step_wait m K c (jYfS 0) N64 (dmaAmt_yfS 0) (dst := yfSrc c 0) rfl (0)) $$ [CyS0 HO PyS0]
  · isplitr; · iexact Hrec
    isplitl [CyS0]; · iexact CyS0
    isplitl [HO]; · iexact HO
    isplitr; · iapply (mayWait_none c _); iexact Hlev
    iexact PyS0
  iintro ⟨HO, PyS0, Sy0⟩
  ihave Sy0 := (Entails.of_eq (dmaPay_yfS m c 0)) $$ Sy0
  -- forwarded chunk 0 has left
  iapply (step_wait m K c (jFS 0) N64 (dmaAmt_fS 0) (dst := fwV c 0) rfl (0)) $$ [CfS0 HO PfS0]
  · isplitr; · iexact Hrec
    isplitl [CfS0]; · iexact CfS0
    isplitl [HO]; · iexact HO
    isplitr; · iapply (mayWait_none c _); iexact Hlev
    iexact PfS0
  iintro ⟨HO, PfS0, Gy0⟩
  ihave Gy0 := (Entails.of_eq (dmaPay_fS m c 0)) $$ Gy0
  -- chunk 1 has left
  iapply (step_wait m K c (jYfS 1) N64 (dmaAmt_yfS 1) (dst := yfSrc c 1) rfl (0)) $$ [CyS1 HO PyS1]
  · isplitr; · iexact Hrec
    isplitl [CyS1]; · iexact CyS1
    isplitl [HO]; · iexact HO
    isplitr; · iapply (mayWait_none c _); iexact Hlev
    iexact PyS1
  iintro ⟨HO, PyS1, Sy1⟩
  ihave Sy1 := (Entails.of_eq (dmaPay_yfS m c 1)) $$ Sy1
  -- forwarded chunk 1 has left
  iapply (step_wait m K c (jFS 1) N64 (dmaAmt_fS 1) (dst := fwV c 1) rfl (0)) $$ [CfS1 HO PfS1]
  · isplitr; · iexact Hrec
    isplitl [CfS1]; · iexact CfS1
    isplitl [HO]; · iexact HO
    isplitr; · iapply (mayWait_none c _); iexact Hlev
    iexact PfS1
  iintro ⟨HO, PfS1, Gy1⟩
  ihave Gy1 := (Entails.of_eq (dmaPay_fS m c 1)) $$ Gy1
  -- chunk 2 has left
  iapply (step_wait m K c (jYfS 2) N64 (dmaAmt_yfS 2) (dst := yfSrc c 2) rfl (0)) $$ [CyS2 HO PyS2]
  · isplitr; · iexact Hrec
    isplitl [CyS2]; · iexact CyS2
    isplitl [HO]; · iexact HO
    isplitr; · iapply (mayWait_none c _); iexact Hlev
    iexact PyS2
  iintro ⟨HO, PyS2, Sy2⟩
  ihave Sy2 := (Entails.of_eq (dmaPay_yfS m c 2)) $$ Sy2
  -- forwarded chunk 2 has left
  iapply (step_wait m K c (jFS 2) N64 (dmaAmt_fS 2) (dst := fwV c 2) rfl (0)) $$ [CfS2 HO PfS2]
  · isplitr; · iexact Hrec
    isplitl [CfS2]; · iexact CfS2
    isplitl [HO]; · iexact HO
    isplitr; · iapply (mayWait_none c _); iexact Hlev
    iexact PfS2
  iintro ⟨HO, PfS2, Gy2⟩
  ihave Gy2 := (Entails.of_eq (dmaPay_fS m c 2)) $$ Gy2
  -- the local copy is done
  iapply (step_wait m K c (jLoc) N512 dmaAmt_loc (dst := ownDst c) rfl (0)) $$ [CL HO PL]
  · isplitr; · iexact Hrec
    isplitl [CL]; · iexact CL
    isplitl [HO]; · iexact HO
    isplitr; · iapply (mayWait_none c _); iexact Hlev
    iexact PL
  iintro ⟨HO, PL, HL⟩
  ihave HL := (Entails.of_eq (dmaPay_loc m c)) $$ HL
  icases HL with ⟨Hown, Sown⟩
  -- the fifteen own cells close
  imod (step_close m K c (jLoc)) $$ [PL] with ZL
  · isplitr; · iexact Hrec
    iexact PL
  imod (step_close m K c (jYfS 0)) $$ [PyS0] with ZyS0
  · isplitr; · iexact Hrec
    iexact PyS0
  imod (step_close m K c (jYfS 1)) $$ [PyS1] with ZyS1
  · isplitr; · iexact Hrec
    iexact PyS1
  imod (step_close m K c (jYfS 2)) $$ [PyS2] with ZyS2
  · isplitr; · iexact Hrec
    iexact PyS2
  imod (step_close m K c (jYfR 0)) $$ [PyR0] with ZyR0
  · isplitr; · iexact Hrec
    iexact PyR0
  imod (step_close m K c (jYfR 1)) $$ [PyR1] with ZyR1
  · isplitr; · iexact Hrec
    iexact PyR1
  imod (step_close m K c (jYfR 2)) $$ [PyR2] with ZyR2
  · isplitr; · iexact Hrec
    iexact PyR2
  imod (step_close m K c (jYdS)) $$ [PdS] with ZdS
  · isplitr; · iexact Hrec
    iexact PdS
  imod (step_close m K c (jYdR)) $$ [PdR] with ZdR
  · isplitr; · iexact Hrec
    iexact PdR
  imod (step_close m K c (jFS 0)) $$ [PfS0] with ZfS0
  · isplitr; · iexact Hrec
    iexact PfS0
  imod (step_close m K c (jFS 1)) $$ [PfS1] with ZfS1
  · isplitr; · iexact Hrec
    iexact PfS1
  imod (step_close m K c (jFS 2)) $$ [PfS2] with ZfS2
  · isplitr; · iexact Hrec
    iexact PfS2
  imod (step_close m K c (jFR 0)) $$ [PfR0] with ZfR0
  · isplitr; · iexact Hrec
    iexact PfR0
  imod (step_close m K c (jFR 1)) $$ [PfR1] with ZfR1
  · isplitr; · iexact Hrec
    iexact PfR1
  imod (step_close m K c (jFR 2)) $$ [PfR2] with ZfR2
  · isplitr; · iexact Hrec
    iexact PfR2
  rw [wp_ret]; imodintro
  iapply Hk
  iapply (post_assemble m c)
  unfold bodyEndFlat
  rw [ownZero_named]
  isplitl [Hown Sown]
  · isplitl [Hown]; · iexact Hown
    iexact Sown
  isplitl [Sy0 Sy1 Sy2]
  · isplitl [Sy0]; · iexact Sy0
    isplitl [Sy1]; · iexact Sy1
    iexact Sy2
  isplitl [Syd]; · iexact Syd
  isplitl [Srest]; · iexact Srest
  isplitl [Gy0 Gy1 Gy2]
  · isplitl [Gy0]; · iexact Gy0
    isplitl [Gy1]; · iexact Gy1
    iexact Gy2
  isplitl [Gyd]; · iexact Gyd
  isplitl [Gf0 Gf1 Gf2]
  · isplitl [Gf0]; · iexact Gf0
    isplitl [Gf1]; · iexact Gf1
    iexact Gf2
  isplitr [HO]
  · isplitl [ZL]; · iexact ZL
    isplitl [ZyS0]; · iexact ZyS0
    isplitl [ZyS1]; · iexact ZyS1
    isplitl [ZyS2]; · iexact ZyS2
    isplitl [ZyR0]; · iexact ZyR0
    isplitl [ZyR1]; · iexact ZyR1
    isplitl [ZyR2]; · iexact ZyR2
    isplitl [ZdS]; · iexact ZdS
    isplitl [ZdR]; · iexact ZdR
    isplitl [ZfS0]; · iexact ZfS0
    isplitl [ZfS1]; · iexact ZfS1
    isplitl [ZfS2]; · iexact ZfS2
    isplitl [ZfR0]; · iexact ZfR0
    isplitl [ZfR1]; · iexact ZfR1
    iexact ZfR2
  · iexact HO

/-- info: 'Cert.KernelIdealProof.sound_body' depends on axioms: [propext, Classical.choice, Quot.sound] -/
#guard_msgs in #print axioms sound_body

end Cert.KernelIdealProof

end
-- ==== Proof.KernelIdealLaunch.lean ====
/-
  The launch of the all-to-all kernel on the 2×2×4 mesh: the proof data of its one grid point, the body's obligation in
  the form the launch theorem takes it, the protocol's ghost state funded and dealt to the sixteen devices, the credit
  each device holds at launch on the cells its peers pay into, and the run.

  Every device has sixteen cells (fifteen DMA cells and its barrier cell) and seventeen duties are paid into them; the
  launch element mints one token per duty at the cell's owner, and the global step hands each token to the device that
  pays the duty: along `yp` for the first barrier duty and the four cells `yp` lands on, along `xp` for the second
  barrier duty and the three forward cells, and in place for the eight send-side duties.
-/
import proofs.«900641_g7700000000000642_dist_a2a_v7x_xyz2x2x4_y_m512_n512_f32_1_alg».proof.Proof.KernelIdealBase
import proofs.«900641_g7700000000000642_dist_a2a_v7x_xyz2x2x4_y_m512_n512_f32_1_alg».proof.Proof.KernelIdealSched
import proofs.«900641_g7700000000000642_dist_a2a_v7x_xyz2x2x4_y_m512_n512_f32_1_alg».proof.Proof.KernelIdealBody
import Idealize.ShloMosaic.Lib.Pipeline.Launch
import Idealize.ShloMosaic.Lib.Pipeline.Kit
import Idealize.ShloMosaic.Lib.Tactic

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Enumerations -/

omit [FloatOps F] in
/-- A `bigSep` over `Fin (n + 1)`: the last index, then the others. -/
theorem bigSep_fin_last {n : ℕ} (Φ : Fin (n + 1) → sProp 𝕄) :
    bigSep Finset.univ Φ = iprop(Φ (Fin.last n) ∗ bigSep Finset.univ fun j : Fin n => Φ j.castSucc) := by
  rw [Fin.univ_castSuccEmb, Finset.cons_eq_insert, bigSep_insert (by simp), bigSep_map]; rfl

omit [FloatOps F] in
theorem bigSep_fin15 (Φ : Fin 15 → sProp 𝕄) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14) :=
  bigSep_univ_eq_bigSepL [0, 1, 2, 3, 4, 5, 6, 7, 8, 9, 10, 11, 12, 13, 14] (by decide) (by decide) Φ

omit [FloatOps F] in
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-! ## The launch element of the protocol's copy of the algebra -/

theorem ownSemFacts : Pipeline.OwnSemFacts cfg0.spec osem := by decide

def allCells : Finset (GSem nD τ sig) := Finset.univ.map ⟨kcell, kcell_injective⟩

/-- The duties as minted, per device: duty `false` of each of its sixteen cells, then duty `true` of its barrier cell. -/
def tokSem (j : Fin 17) : SemLoc sig × Bool := if h : j.val < 16 then (csem ⟨j.val, h⟩, false) else (.reg barS, true)
theorem tokSem_injective : Function.Injective tokSem := by decide
def tokOf (cj : Dev nD × Fin 17) : GSem nD τ sig × ℕ × Bool := (((cj.1 : Thread nD τ), (tokSem cj.2).1), 0, (tokSem cj.2).2)

theorem tokOf_injective : Function.Injective (tokOf : Dev nD × Fin 17 → GSem nD τ sig × ℕ × Bool) := by
  rintro ⟨c, j⟩ ⟨c', j'⟩ h
  have h1 : c = c' := congrArg (fun x : GSem nD τ sig × ℕ × Bool => x.1.1.1) h
  subst h1
  have h2 : tokSem j = tokSem j' :=
    Prod.ext (congrArg (fun x : GSem nD τ sig × ℕ × Bool => x.1.2) h) (congrArg (fun x : GSem nD τ sig × ℕ × Bool => x.2.2) h)
  rw [tokSem_injective h2]

def allToks : Finset (GSem nD τ sig × ℕ × Bool) := Finset.univ.map ⟨tokOf, tokOf_injective⟩

def u₀ : UU := (initOf (Pipeline.cells cfgs cellOf_inj) (Pipeline.launchToks cfgs cellOf_inj), initOf allCells allToks)

/-- The tokens minted at device `c`. -/
def minted (c : Dev nD) : sProp 𝕄 :=
  iprop(dutyTok ER (barCell c) 0 true ∗ bigSep Finset.univ fun i : Fin 16 => dutyTok ER (kcell (c, i)) 0 false)

/-- What the launch element deals device `c` (the launch theorem's `G`). -/
def G (c : Dev nD) : sProp 𝕄 :=
  iprop((bigSep Finset.univ fun i : Fin 16 => roundState ER (sched m) (kcell (c, i)) 0)
    ∗ (bigSep Finset.univ fun i : Fin 16 => iprop(atPos ER (kcell (c, i)) 0 ∅ 0 ∗ reached ER (kcell (c, i)) 0)) ∗ minted (F := F) c)

/-- What the global step makes of it (`G'`). -/
def G' (c : Dev nD) : sProp 𝕄 := iprop(∃ K, ghost m K c)

omit [FloatOps F] in
theorem fund_cells : BI.own (ER (F := F) (initOf allCells allToks)) ⊢ (|==> bigSep Finset.univ (G m) : sProp 𝕄) := by
  have hX (Φ : GSem nD τ sig → sProp 𝕄) : bigSep allCells Φ = bigSep Finset.univ fun c : Dev nD => bigSep Finset.univ fun i : Fin 16 => Φ (kcell (c, i)) := by
    unfold allCells; rw [bigSep_map, bigSep_univ_prod]; rfl
  have hT : bigSep allToks (fun x => (dutyTok ER x.1 x.2.1 x.2.2 : sProp 𝕄)) = bigSep Finset.univ fun c : Dev nD => minted (F := F) c := by
    unfold allToks; rw [bigSep_map, bigSep_univ_prod]
    exact bigSep_congr fun c _ => by unfold minted; rw [bigSep_fin_last]; rfl
  iintro HX
  imod (Rounds.fund ER (sched m) allCells allToks) $$ HX with ⟨Hst, Hr, Hat, Htok⟩
  imodintro
  ihave Hst' := (Entails.of_eq (hX fun g => roundState ER (sched m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The global step: every cell's invariant, then the deal -/

omit [FloatOps F] in
/-- The barrier semaphore is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem ownSems0_eq (c : Dev nD) :
    (Pipeline.ownSems0 (Ix := Unit) (Name := ℕ) (U := UU) (Lvl := ℕ) (Val := Elt F) (τ := τ) osem c : sProp 𝕄) = ownZero c := rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun i : Fin 16 => semVal (kcell (c, i)) 0 : sProp 𝕄) := by
  rw [unscopedSems0_eq, bigSep_fin_last, bigSep_congr (s := Finset.univ) (fun (j : Fin 15) _ => by rw [kcell_castSucc])]
  unfold Pipeline.ownSems0
  iintro ⟨HO, HB⟩
  isplitl [HB]; · iexact HB
  iexact HO

omit [FloatOps F] in
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun i : Fin 16 => iprop(∃ κ : ℕ, cellInv ER (sched m) κ (kcell (c, i))))
          ∗ (bigSep Finset.univ fun i : Fin 16 => iprop(atPos ER (kcell (c, i)) 0 ∅ 0 ∗ reached ER (kcell (c, i)) 0)) ∗ minted (F := F) c) := by
  unfold G
  iintro ⟨Hos, Hus, Hst, Hat, Htok⟩
  ihave Hv := (sems0_eq (F := F) c) $$ [Hos Hus]
  · isplitl [Hos] <;> iassumption
  imod (show iprop((bigSep Finset.univ fun i : Fin 16 => semVal (kcell (c, i)) 0) ∗ bigSep Finset.univ fun i : Fin 16 => roundState ER (sched m) (kcell (c, i)) 0)
      ⊢ (|={Set.univ}=> bigSep Finset.univ fun i : Fin 16 => iprop(∃ κ : ℕ, cellInv ER (sched m) κ (kcell (c, i))) : sProp 𝕄) from by
        rw [← bigSep_sep']
        exact (bigSep_mono fun i _ => (Rounds.body_intro ER (sched m) (kcell (c, i))).trans inv_alloc).trans (bigSep_fupd _ _)) $$ [Hv Hst] with Hinv
  · isplitl [Hv] <;> iassumption
  imodintro
  isplitl [Hinv]; · iexact Hinv
  isplitl [Hat]; · iexact Hat
  iexact Htok

/-- The tokens minted at device `c`, grouped as the duties are paid. -/
def ownToks (c : Dev nD) : sProp 𝕄 :=
  iprop(dutyTok ER (barCell c) 0 false ∗ dutyTok ER (barCell c) 0 true
    ∗ (bigSep Finset.univ fun k : Fin 3 => dutyTok ER (dcell c (jYfR k)) 0 false) ∗ dutyTok ER (dcell c jYdR) 0 false
    ∗ (bigSep Finset.univ fun k : Fin 3 => dutyTok ER (dcell c (jFR k)) 0 false)
    ∗ dutyTok ER (dcell c jLoc) 0 false ∗ (bigSep Finset.univ fun k : Fin 3 => dutyTok ER (dcell c (jYfS k)) 0 false)
    ∗ dutyTok ER (dcell c jYdS) 0 false ∗ (bigSep Finset.univ fun k : Fin 3 => dutyTok ER (dcell c (jFS k)) 0 false))

omit [FloatOps F] in
theorem minted_own (c : Dev nD) : (minted c : sProp 𝕄) ⊢ ownToks c := by
  unfold minted ownToks
  rw [bigSep_fin_last, bigSep_congr (s := Finset.univ) (fun (j : Fin 15) _ => by rw [kcell_castSucc]), bigSep_fin15,
    bigSep_fin3, bigSep_fin3, bigSep_fin3, bigSep_fin3]
  iintro ⟨HT, HB, H0, H1, H2, H3, H4, H5, H6, H7, H8, H9, H10, H11, H12, H13, H14⟩
  isplitl [HB]; · iexact HB
  isplitl [HT]; · iexact HT
  isplitl [H4 H5 H6]
  · isplitl [H4]; · iexact H4
    isplitl [H5]; · iexact H5
    iexact H6
  isplitl [H8]; · iexact H8
  isplitl [H12 H13 H14]
  · isplitl [H12]; · iexact H12
    isplitl [H13]; · iexact H13
    iexact H14
  isplitl [H0]; · iexact H0
  isplitl [H1 H2 H3]
  · isplitl [H1]; · iexact H1
    isplitl [H2]; · iexact H2
    iexact H3
  isplitl [H7]; · iexact H7
  isplitl [H9]; · iexact H9
  isplitl [H10]; · iexact H10
  iexact H11

omit [FloatOps F] in
/-- The deal: each duty's token to the device that pays it. -/
theorem toks_around : (bigSep Finset.univ fun c : Dev nD => (ownToks c : sProp 𝕄)) ⊢ bigSep Finset.univ fun c : Dev nD => payToks c := by
  unfold ownToks payToks
  simp only [bigSep_sep']
  rw [bigSep_univ_equiv ypEquiv (fun c : Dev nD => (dutyTok ER (barCell c) 0 false : sProp 𝕄)),
    bigSep_univ_equiv xpEquiv (fun c : Dev nD => (dutyTok ER (barCell c) 0 true : sProp 𝕄)),
    bigSep_univ_equiv ypEquiv (fun c : Dev nD => (bigSep Finset.univ fun k : Fin 3 => dutyTok ER (dcell c (jYfR k)) 0 false : sProp 𝕄)),
    bigSep_univ_equiv ypEquiv (fun c : Dev nD => (dutyTok ER (dcell c jYdR) 0 false : sProp 𝕄)),
    bigSep_univ_equiv xpEquiv (fun c : Dev nD => (bigSep Finset.univ fun k : Fin 3 => dutyTok ER (dcell c (jFR k)) 0 false : sProp 𝕄))]
  exact .rfl

omit [FloatOps F] in
theorem ghost_intro (K : Dev nD × Fin 16 → ℕ) (c : Dev nD) : iprop(records m K ∗ (positions c ∗ payToks c)) ⊢ G' m c := by
  unfold G' ghost
  iintro ⟨HR, HP, HT⟩
  iexists K
  isplitl [HR]; · iexact HR
  isplitl [HP]; · iexact HP
  iexact HT

omit [FloatOps F] in
theorem regroup :
    (bigSep Finset.univ fun c : Dev nD => iprop((bigSep Finset.univ fun i : Fin 16 => iprop(∃ κ : ℕ, cellInv ER (sched m) κ (kcell (c, i))))
          ∗ (bigSep Finset.univ fun i : Fin 16 => iprop(atPos ER (kcell (c, i)) 0 ∅ 0 ∗ reached ER (kcell (c, i)) 0)) ∗ minted (F := F) c) : sProp 𝕄)
      ⊢ bigSep Finset.univ (G' m) := by
  rw [bigSep_sep', bigSep_sep', ← bigSep_univ_prod (fun ck : Dev nD × Fin 16 => iprop(∃ κ : ℕ, cellInv ER (sched m) κ (kcell ck))),
    bigSep_congr (s := Finset.univ) (fun (c : Dev nD) _ => bigSep_sep' Finset.univ (fun i : Fin 16 => (atPos ER (kcell (c, i)) 0 ∅ 0 : sProp 𝕄)) (fun i => reached ER (kcell (c, i)) 0)),
    bigSep_sep', ← bigSep_univ_prod (fun ck : Dev nD × Fin 16 => (reached ER (kcell ck) 0 : sProp 𝕄))]
  have htk : (bigSep Finset.univ fun c : Dev nD => (minted c : sProp 𝕄)) ⊢ bigSep Finset.univ fun c : Dev nD => payToks c :=
    (bigSep_mono fun c _ => minted_own (F := F) c).trans (toks_around (F := F))
  iintro ⟨HI, ⟨Hat, #HR⟩, Htok⟩
  ihave HK := (BI.bigSep_exists_pi Finset.univ (fun (ck : Dev nD × Fin 16) (κ : ℕ) => (cellInv ER (sched m) κ (kcell ck) : sProp 𝕄))) $$ HI
  icases HK with ⟨%K, #HI⟩
  ihave Htk := htk $$ Htok
  iapply (bigSep_with_persistent (R := records m K) fun c _ => ghost_intro m K c)
  isplitr
  · unfold records; isplitl; · iexact HI
    iexact HR
  · iapply (Entails.of_eq (bigSep_sep' Finset.univ (fun c : Dev nD => (positions c : sProp 𝕄)) payToks).symm)
    isplitl [Hat]
    · unfold positions; iexact Hat
    iexact Htk

omit [FloatOps F] in
/-- The global step (`hglob`): own and unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credit -/

omit [FloatOps F] in
/-- What the launch deals a device for its peers' dues: a token per due, the two barrier units joined. -/
theorem creds (c : Dev nD) : (Pipeline.launchCred O₀ c : sProp 𝕄) ⊢ startCreds c := by
  have hX (j : Fin 15) (n : ℕ) : (Pipeline.launchCred (fun d : Dev nD => (tallyAt (dcell (xp d) j) () n : CellTallies nD τ sig Unit)) c : sProp 𝕄)
      ⊢ cred (tallyAt (dcell c j) () n) := Pipeline.launchCred_tallyAt (Ix := Unit) (Name := ℕ) (U := UU) (Lvl := ℕ) (Val := Elt F) (nD := nD) (τ := τ) (sig := sig) (SemLoc.dma (j : DmaSem sig)) xp xp xp_xp xp_xp () n c
  have hY (j : Fin 15) (n : ℕ) : (Pipeline.launchCred (fun d : Dev nD => (tallyAt (dcell (yp d) j) () n : CellTallies nD τ sig Unit)) c : sProp 𝕄)
      ⊢ cred (tallyAt (dcell c j) () n) := Pipeline.launchCred_tallyAt (Ix := Unit) (Name := ℕ) (U := UU) (Lvl := ℕ) (Val := Elt F) (nD := nD) (τ := τ) (sig := sig) (SemLoc.dma (j : DmaSem sig)) yp yp yp_yp yp_yp () n c
  have hBX : (Pipeline.launchCred (fun d : Dev nD => (tallyAt (barCell (xp d)) () 1 : CellTallies nD τ sig Unit)) c : sProp 𝕄)
      ⊢ cred (tallyAt (barCell c) () 1) := Pipeline.launchCred_tallyAt (Ix := Unit) (Name := ℕ) (U := UU) (Lvl := ℕ) (Val := Elt F) (nD := nD) (τ := τ) (sig := sig) (SemLoc.reg barS) xp xp xp_xp xp_xp () 1 c
  have hBY : (Pipeline.launchCred (fun d : Dev nD => (tallyAt (barCell (yp d)) () 1 : CellTallies nD τ sig Unit)) c : sProp 𝕄)
      ⊢ cred (tallyAt (barCell c) () 1) := Pipeline.launchCred_tallyAt (Ix := Unit) (Name := ℕ) (U := UU) (Lvl := ℕ) (Val := Elt F) (nD := nD) (τ := τ) (sig := sig) (SemLoc.reg barS) yp yp yp_yp yp_yp () 1 c
  have hbar : iprop(cred (tallyAt (barCell c) () 1) ∗ cred (tallyAt (barCell c) () 1)) ⊢ (cred (tallyAt (barCell c) () 2) : sProp 𝕄) := by
    show _ ⊢ cred (tallyAt (barCell c) () (1 + 1))
    rw [← tallyAt_add (barCell c) () 1 1]; exact (cred_add _ _).2
  have e : (Pipeline.launchCred O₀ c : sProp 𝕄)
      = Pipeline.launchCred (fun d : Dev nD => ((((((((tallyAt (dcell (xp d) (jFR 2)) () N64 + tallyAt (dcell (xp d) (jFR 1)) () N64)
          + tallyAt (dcell (xp d) (jFR 0)) () N64) + tallyAt (dcell (yp d) jYdR) () N128) + tallyAt (dcell (yp d) (jYfR 2)) () N64)
          + tallyAt (dcell (yp d) (jYfR 1)) () N64) + tallyAt (dcell (yp d) (jYfR 0)) () N64) + tallyAt (barCell (xp d)) () 1)
          + tallyAt (barCell (yp d)) () 1 : CellTallies nD τ sig Unit)) c := rfl
  rw [e, Pipeline.launchCred_add, Pipeline.launchCred_add, Pipeline.launchCred_add, Pipeline.launchCred_add, Pipeline.launchCred_add,
    Pipeline.launchCred_add, Pipeline.launchCred_add, Pipeline.launchCred_add]
  unfold startCreds
  rw [bigSep_fin3, bigSep_fin3]
  iintro ⟨⟨⟨⟨⟨⟨⟨⟨Ha, Hb⟩, Hc⟩, Hd⟩, He⟩, Hf⟩, Hg⟩, Hx⟩, Hy⟩
  ihave Ha := (hX (jFR 2) N64) $$ Ha
  ihave Hb := (hX (jFR 1) N64) $$ Hb
  ihave Hc := (hX (jFR 0) N64) $$ Hc
  ihave Hd := (hY jYdR N128) $$ Hd
  ihave He := (hY (jYfR 2) N64) $$ He
  ihave Hf := (hY (jYfR 1) N64) $$ Hf
  ihave Hg := (hY (jYfR 0) N64) $$ Hg
  ihave Hx := hBX $$ Hx
  ihave Hy := hBY $$ Hy
  isplitl [Hx Hy]
  · iapply hbar; isplitl [Hx] <;> iassumption
  isplitl [Hg Hf He]
  · isplitl [Hg]; · iexact Hg
    isplitl [Hf]; · iexact Hf
    iexact He
  isplitl [Hd]; · iexact Hd
  isplitl [Hc]; · iexact Hc
  isplitl [Hb]; · iexact Hb
  iexact Ha

/-! ## The proof data of the one grid point, and the body's obligation -/

/-- No window: the two buffers travel through the invariant. Before the point the device holds its ghost state, its
    credit and both buffers as launched; after it both buffers, the result at its final contents, and its fifteen
    counters back at zero. It owes `O₀ c` before and nothing after. -/
def dats (_ : Fin 1) (c : Dev nD) : Dat τ (Elt F) Unit ℕ UU ℕ cfg0 c where
  A w := w.elim0
  after w _ := w.elim0
  Φ t := match t with
    | ⟨0, _⟩ => Φ₀ m c
    | ⟨_ + 1, _⟩ => Φ₁ m c
  q _ := fullShare
  owed t := match t with
    | ⟨0, _⟩ => O₀ c
    | ⟨_ + 1, _⟩ => 0

theorem share_eq (c : Dev nD) (w : Fin cfg0.W) : (dats m 0 c).share w = fullShare := w.elim0

/-- The library's body obligation on device `c`. -/
theorem body_obligation (c : Dev nD) : BodyObligation (dats (F := F) m 0 c) (defs₀ (F := F)) 𝒱₀ () Set.univ := fun t => by
  rw [fin_N0 t]
  rw [show (Finset.univ : Finset (Fin cfg0.W)) = ∅ from Finset.univ_eq_empty, bigSep_empty, bigSep_empty]
  show iprop(Φ₀ m c ∗ (dats m 0 c).owesAt () t0_0.castSucc ∗ emp) ⊢ wp frame (wpE (defs₀ (F := F)) 𝒱₀ c none) Set.univ
    (cc0_body (Memref.whole main_arg0) (Memref.isWhole_whole _) (Memref.whole main_v1) (Memref.isWhole_whole _)
      cc0_scratch0 cc0_scratch1 cc0_scratch2 cc0_scratch3 cc0_scratch4 cc0_scratch5 cc0_scratch6)
    (fun _ => iprop(Φ₁ m c ∗ (dats m 0 c).owesAt () t0_0.succ ∗ emp))
  unfold Φ₀ start
  iintro ⟨⟨⟨⟨%K, Hg⟩, Hcr, Hlev⟩, Ha, Hv⟩, ⟨%W, -, Ho⟩, -⟩
  iapply (sound_body m K c fun _ => iprop(Φ₁ m c ∗ (dats m 0 c).owesAt () t0_0.succ ∗ emp))
  isplitr []
  · unfold bodyPre
    isplitl [Hg]; · iexact Hg
    isplitl [Hcr]; · iexact Hcr
    isplitl [Hlev]; · iexact Hlev
    isplitl [Ha]; · iexact Ha
    isplitl [Hv]; · iexact Hv
    iexists W; iexact Ho
  · unfold bodyPost
    iintro ⟨HΦ, ⟨%W', Ho'⟩⟩
    isplitl [HΦ]; · iexact HΦ
    isplitl
    · iexists W'
      isplitr; · ipureintro; exact fun _ _ => Or.inl (Set.mem_univ _)
      iexact Ho'
    · iempintro

/-! ## The launch theorem's side conditions -/

omit [FloatOps F] in
/-- The unscoped buffers no window stages: the two HBM buffers, whole. -/
theorem rest_eq (c : Dev nD) (V : (b : Ref sig .tc) → Buf (Elt F) ((c : Thread nD τ).loc b)) :
    (Pipeline.unscopedRestP Pipeline.Prefetch.none cfg0.spec c V : sProp 𝕄)
      = iprop((((c : Thread nD τ).loc main_arg0) ↦{fullShare} V main_arg0) ∗ (((c : Thread nD τ).loc main_v1) ↦{fullShare} V main_v1)) := by
  rw [Pipeline.unscopedRestP_none, unscopedRest0_eq]

omit [FloatOps F] in
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(Φ₀ m c ∗ emp) := by
  rw [rest_eq]
  iintro ⟨⟨Ha, Hv⟩, Hlev, Hcr, -, HG⟩
  ihave Hc := (creds (F := F) c) $$ Hcr
  imodintro
  unfold Φ₀ start G' argW outW
  isplitl
  · isplitl [HG Hc Hlev]
    · isplitl [HG]; · iexact HG
      isplitl [Hc]; · iexact Hc
      iexact Hlev
    · isplitl [Ha]; · iexact Ha
      iexact Hv
  · iempintro

theorem phi0_intro (c : Dev nD) :
    iprop(Φ₀ m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl]
  iintro ⟨Hs, -, -⟩
  iexact Hs

theorem phi1_exit (c : Dev nD) :
    (dats m 0 c).Φ (Fin.last cfg0.N)
      ⊢ iprop((argW c (xin m c) ∗ outW c (Fout m c)) ∗ Pipeline.ownSems0 osem c ∗ Pipeline.scopedRest cfg0.spec c) := by
  rw [show (dats m 0 c).Φ (Fin.last cfg0.N) = Φ₁ m c from rfl, scopedRest0_eq, ownSems0_eq]
  unfold Φ₁
  iintro ⟨Ha, Hv, Hz⟩
  isplitl [Ha Hv]
  · isplitl [Ha]; · iexact Ha
    iexact Hv
  isplitl [Hz]; · iexact Hz
  iempintro

/-- No window, so no staging cell to wait on. -/
theorem waits (c : Dev nD) : (levAts L lv : sProp 𝕄) ⊢ Pipeline.cellsWaits cfgs (dats m) () 0 c :=
  Pipeline.cellsWaits_intro cfgs (dats m) () 0 c fun w _ _ => w.elim0

/-! ## The run -/

set_option maxRecDepth 8000 in
/-- At the compiled mesh of sixteen devices, for any float values, from any memory with zero counters: every weakly fair
    execution of @main terminates, and every final state has each device's result buffer at `Fout m c` and its argument
    buffer as launched. -/
theorem run_main : θ_run defs (onTc (τ := τ) (main (F := F))) ⟨m, fun _ => 0, ρ⟩
    (fun r => ∀ c : Dev nD, r.2.mem ((c.tc : Thread nD τ).loc main_v1) = Fout m c
      ∧ r.2.mem ((c.tc : Thread nD τ).loc main_arg0) = m ((c.tc : Thread nD τ).loc main_arg0)) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => w.elim0) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_cells m) $$ HX with HG
      imodintro
      isplitl [HP] <;> iassumption)
    (hglob := glob m)
    (hA := fun _ w => w.elim0) (hpf := fun _ k => k.elim0)
    (X := Φ₀ m) (Y := fun c => iprop(argW c (xin m c) ∗ outW c (Fout m c))) (Z := fun _ => iprop(emp))
    (hX := start_intro m ρ) (hin := phi0_intro m) (hout := phi1_exit m)
    (QY := fun c s => s.mem ((c : Thread nD τ).loc main_v1) = Fout m c ∧ s.mem ((c : Thread nD τ).loc main_arg0) = m ((c : Thread nD τ).loc main_arg0))
    (hY := fun c s' => by
      unfold argW outW
      iintro ⟨⟨Ha, Hv⟩, -, HSI⟩
      icombine HSI Ha gives %ha
      icombine HSI Hv gives %hv
      imodintro
      isplitr; · ipureintro; exact ⟨Buf.eq_of_forall_mem_univ hv, Buf.eq_of_forall_mem_univ ha⟩
      iexact HSI)
    (hQ := fun _ h c => (h c).2.2)

/-- info: 'Cert.KernelIdealProof.run_main' depends on axioms: [propext, Classical.choice, Quot.sound] -/
#guard_msgs in #print axioms run_main

end Cert.KernelIdealProof

end
-- ==== Proof.Value.lean ====
/-
  The final result is the reference's block. The reference returns its argument, the whole 1024 × 1024 array `v0`.
  Device `d`'s argument block is rows [512·y_d, 512·y_d + 512) of `v0`; entry (r, q) of device `c`'s final result is
  entry (r mod 512, 512·y_c + q) of the argument block of a device whose y-coordinate is r / 512, that is entry
  (512·(r / 512) + r mod 512, 512·y_c + q) = (r, 512·y_c + q) of `v0`: column block y_c of `v0`.
-/
import proofs.«900641_g7700000000000642_dist_a2a_v7x_xyz2x2x4_y_m512_n512_f32_1_alg».proof.Proof.KernelIdealContents
import proofs.«900641_g7700000000000642_dist_a2a_v7x_xyz2x2x4_y_m512_n512_f32_1_alg».proof.Defs
import Idealize.ShloMosaic.Lib.Layout

noncomputable section

namespace Cert.KernelIdealProof

open Cert.KernelIdeal Cert.KernelIdeal.Gen

open Idealize.ShloMosaic
open Idealize.ShloMosaic.TcCoe
open Idealize.SL.Sem
open Idealize.ShloMosaic.ValueIdx (ix2)

/-- With every device's argument buffer its row block of the whole array `v0`, device `c`'s final result is its column
    block of `v0`. -/
theorem Fout_block (m : (ℓ : Loc nD τ sig) → Buf (Elt Ideal) ℓ)
    (v0 : Buf (Elt Ideal) (((0 : Dev Cert.ReferenceIdeal.nD).tc : Thread Cert.ReferenceIdeal.nD Cert.ReferenceIdeal.τ).loc Cert.ReferenceIdeal.main_arg0))
    (h : ∀ d : Dev nD, m ((d.tc : Thread nD τ).loc main_arg0) = Layout.blockN ⟨2, ![512, 1024]⟩ ⟨2, ![1024, 1024]⟩ (Layout.meshBlock [2, 2, 4] ![[1], []] d) v0)
    (c : Dev nD) :
    Fout m c = Layout.blockN ⟨2, ![1024, 512]⟩ ⟨2, ![1024, 1024]⟩ (Layout.meshBlock [2, 2, 4] ![[], [1]] c) v0 := by
  funext i
  rw [Layout.blockN_apply]
  unfold Fout
  show m (((srcDev c (i 0).val).tc : Thread nD τ).loc main_arg0) _ = _
  rw [h, Layout.blockN_apply]
  congr 1
  have hi0 : (i 0).val < 1024 := (i 0).isLt
  have hs := srcDev_y c (i 0).val hi0
  funext b
  apply Fin.ext
  rw [Layout.TilesN.idx_val, Layout.TilesN.idx_val]
  match b with
  | ⟨0, _⟩ =>
    show ((srcDev c (i 0).val).val / 4 % 2 * 1 + 0) * 512 + (i 0).val % 512 = 0 * 1024 + (i 0).val
    omega
  | ⟨1, _⟩ =>
    show 0 * 1024 + (512 * (c.val / 4 % 2) + (i 1).val) = (c.val / 4 % 2 * 1 + 0) * 512 + (i 1).val
    omega

/-- info: 'Cert.KernelIdealProof.Fout_block' depends on axioms: [propext, Classical.choice, Quot.sound] -/
#guard_msgs in #print axioms Fout_block

end Cert.KernelIdealProof

end
-- ==== Proof.RefRun.lean ====
import proofs.«900641_g7700000000000642_dist_a2a_v7x_xyz2x2x4_y_m512_n512_f32_1_alg».proof.Defs
import proofs.«900641_g7700000000000642_dist_a2a_v7x_xyz2x2x4_y_m512_n512_f32_1_alg».proof.Proof.Gen.ReferenceIdeal
import Idealize.ShloMosaic.Lib.StableHlo.Run

/-! The reference program is the identity: its `@main` performs no operation and returns its
    argument. Its run is the run of the EMPTY straight line of host operations: it terminates at
    once with every buffer at its launch contents. -/

noncomputable section

namespace Cert.RefRun

open Cert.ReferenceIdeal Cert.ReferenceIdeal.Gen Idealize.ShloMosaic Idealize.ShloMosaic.TcCoe Idealize.SL.Sem Idealize.ShloMosaic.StableHlo

variable {F : FTy → Type} [FloatOps F]

/-- `@main`'s operations, in order: none. -/
abbrev ops : List (HloOp τ sig (Elt F)) := []

theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig := trivial

/-- On the one device, for any float values, from any memory with zero counters: every weakly fair
    execution of `@main` terminates with the argument array (which is also the result) unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_arg0) = m ((c.tc : Thread nD τ).loc main_arg0) :=
  (θ_run defs _ _).mono (fun _ h c => (h c main_arg0).trans (by simp only [after_nil]))
    (run_seq scopedRefs_eq scopedSems_eq defs main (fun _ => ops) main_eq (fun _ => ops_sub) m ρ
      (fun _ _ h => nomatch h))

/-- The reference's frame: it runs and its argument array ends unchanged, whatever the precondition. -/
theorem frame [hPre : Cert.Pre_finite_inputs_ReferenceIdeal.Facts] :
    Cert.frame_ReferenceIdeal (hReferenceIdeal := Cert.ReferenceIdeal.Gen.facts) (hPre_finite_inputs_ReferenceIdeal := hPre) :=
  fun m g _ => run (F := Ideal) m g

end Cert.RefRun

/-- info: 'Cert.RefRun.frame' depends on axioms: [propext, Classical.choice, Quot.sound] -/
#guard_msgs in #print axioms Cert.RefRun.frame

end
-- ==== Proof.lean ====
/-
  The all-to-all kernel on the 2 × 2 × 4 mesh against the identity on the whole array.

  Each device `c`, at mesh coordinates (x, y, z), holds rows [512·y, 512·y + 512) of the whole 1024 × 1024 array and must end
  holding its columns [512·y, 512·y + 512). The kernel's run (`run_main`, proved once for both float instances) names what
  every device's result buffer ends holding: entry (r, q) is entry (r mod 512, 512·y + q) of the argument block of the
  device that owns row r — the device itself for its own row half, and for the other half the device with the other
  y-coordinate (directly, or relayed through the device with the other x-coordinate). The three frames are that run
  with the values dropped (the reference's is the run of a program with no operation). The ideal pass rewrote nothing,
  so `preserves` is trivial. For `algebraic`: when every device's argument buffer is its block of one whole array, the
  named result is that array's column block (`Fout_block`), which is the reference's result, the array itself.
-/
import proofs.«900641_g7700000000000642_dist_a2a_v7x_xyz2x2x4_y_m512_n512_f32_1_alg».proof.Defs
import proofs.«900641_g7700000000000642_dist_a2a_v7x_xyz2x2x4_y_m512_n512_f32_1_alg».proof.Proof.Gen.Kernel
import proofs.«900641_g7700000000000642_dist_a2a_v7x_xyz2x2x4_y_m512_n512_f32_1_alg».proof.Proof.Gen.KernelIdeal
import proofs.«900641_g7700000000000642_dist_a2a_v7x_xyz2x2x4_y_m512_n512_f32_1_alg».proof.Proof.Gen.ReferenceIdeal
import proofs.«900641_g7700000000000642_dist_a2a_v7x_xyz2x2x4_y_m512_n512_f32_1_alg».proof.Proof.Gen.Pre_finite_inputs_Kernel
import proofs.«900641_g7700000000000642_dist_a2a_v7x_xyz2x2x4_y_m512_n512_f32_1_alg».proof.Proof.Gen.Pre_finite_inputs_ReferenceIdeal
import proofs.«900641_g7700000000000642_dist_a2a_v7x_xyz2x2x4_y_m512_n512_f32_1_alg».proof.Proof.KernelLaunch
import proofs.«900641_g7700000000000642_dist_a2a_v7x_xyz2x2x4_y_m512_n512_f32_1_alg».proof.Proof.KernelIdealLaunch
import proofs.«900641_g7700000000000642_dist_a2a_v7x_xyz2x2x4_y_m512_n512_f32_1_alg».proof.Proof.Value
import proofs.«900641_g7700000000000642_dist_a2a_v7x_xyz2x2x4_y_m512_n512_f32_1_alg».proof.Proof.RefRun

noncomputable section

namespace Cert.Proof

open Idealize.ShloMosaic Idealize.SL.Sem

/-- The word-level kernel runs and leaves its argument unchanged: its run with the result's value dropped. -/
theorem frame_k : Cert.frame_Kernel := fun m ρ _ =>
  (θ_run Cert.Kernel.defs _ _).mono (fun _ h c => (h c).2) (Cert.KernelProof.run_main (F := Bits) m ρ)

/-- The same of the idealized kernel, at the extended reals. -/
theorem frame_ki : Cert.frame_KernelIdeal := fun m ρ _ =>
  (θ_run Cert.KernelIdeal.defs _ _).mono (fun _ h c => (h c).2) (Cert.KernelIdealProof.run_main (F := Ideal) m ρ)

/-- The reference performs no operation. -/
theorem frame_ri : Cert.frame_ReferenceIdeal := Cert.RefRun.frame

/-- The ideal pass rewrote no operation. -/
theorem preserves : Cert.preserves_Kernel_KernelIdeal := trivial

/-- From blocks of one whole array, every device ends holding its column block of that array, which the reference
    returns unchanged. -/
theorem algebraic : Cert.algebraic_KernelIdeal_ReferenceIdeal := by
  intro m g m' g' _ hagree
  refine ⟨m' (((0 : Dev Cert.ReferenceIdeal.nD).tc : Thread Cert.ReferenceIdeal.nD Cert.ReferenceIdeal.τ).loc Cert.ReferenceIdeal.main_arg0), ?_, ?_⟩
  · exact (θ_run Cert.KernelIdeal.defs _ _).mono
      (fun _ h c => ⟨(h c).1.trans (Cert.KernelIdealProof.Fout_block m _ hagree c), (h c).2⟩)
      (Cert.KernelIdealProof.run_main (F := Ideal) m g)
  · exact (θ_run Cert.ReferenceIdeal.defs _ _).mono (fun _ h => ⟨h 0, h 0⟩) (Cert.RefRun.run (F := Ideal) m' g')

theorem claim : Cert.Claim :=
  ⟨Cert.Kernel.Gen.facts, Cert.KernelIdeal.Gen.facts, Cert.ReferenceIdeal.Gen.facts, Cert.Pre_finite_inputs_Kernel.Gen.facts,
    Cert.Pre_finite_inputs_ReferenceIdeal.Gen.facts, frame_k, frame_ki, frame_ri, preserves, algebraic⟩

end Cert.Proof

end
